-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S200x128 : Shape := ⟨2, ![200, 128]⟩
abbrev S800000 : Shape := ⟨1, ![800000]⟩
abbrev S128x128 : Shape := ⟨2, ![128, 128]⟩
abbrev S1x128 : Shape := ⟨2, ![1, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200x128 : S_.BroadcastsInDim S200x128 (![] : Fin 0 → Fin S200x128.rank)
  reducesTo_S200x128_S_d0_1 : S200x128.ReducesTo [0, 1] S_
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S1x128 .f32) (main_arg8 : FVec F S128 .f32) (main_arg9 : FVec F S128 .f32) (main_arg10 : FVec F S128 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128x128 .f32) (main_arg5 : FVec F S128x128 .f32) (main_arg6 : FVec F S128x128 .f32) (main_arg7 : FVec F S1x128 .f32) (main_arg8 : FVec F S128 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S200x128 .f32) (main_arg2 : FVec F S800000 .f32) (main_arg3 : FVec F S128x128 .f32) (main_arg4 : FVec F S128x128 .f32) (main_arg5 : FVec F S128x128 .f32) (main_arg6 : FVec F S128x128 .f32) (main_arg7 : FVec F S1x128 .f32) (main_arg8 : FVec F S128 .f32) (main_arg9 : FVec F S128 .f32) (main_arg10 : FVec F S128 .f32) (main_arg11 : IVec S800000 32) (main_arg12 : IVec S800000 32) (main_arg13 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200x128 .f32 := Host.absf main_arg1
  let main_cst_0 : FVec F S_ .f32 := constant S_ .f32 0x7F800000#32
  let main_v5 : FVec F S200x128 .f32 := broadcastInDim S200x128 ![] bcast_S_S200x128 main_cst_0
  let main_v6 : IVec S200x128 1 := cmpf .olt main_v4 main_v5
  let main_c_1 : IVec S_ 1 := constantI S_ 1 1#1
  let main_v7 : IVec S_ 1 := (fun x v => Host.reduce IntOp.andi x v reducesTo_S200x128_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S200x128 : Shape := ⟨2, ![200, 128]⟩
abbrev S800000 : Shape := ⟨1, ![800000]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S8000x128 : Shape := ⟨2, ![8000, 128]⟩
abbrev S2000x128 : Shape := ⟨2, ![2000, 128]⟩

abbrev nBuf : Space → Nat
  | .hbm => 61
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S200x128, .f32⟩
  | .hbm, ⟨2, _⟩ => ⟨S800000, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S1x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x128, .f32⟩
  | .hbm, ⟨33, _⟩ => ⟨S800000x1, .f32⟩
  | .hbm, ⟨34, _⟩ => ⟨S800000x128, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S50000x128, .f32⟩
  | .hbm, ⟨60, _⟩ => ⟨S200x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S128x128, .f32⟩
  | .local _ .vmem, ⟨4, _⟩ => ⟨S8000x128, .f32⟩
  | .local _ .vmem, ⟨5, _⟩ => ⟨S8000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | .local _ .vmem, ⟨25, _⟩ => ⟨S200x128, .f32⟩
  | .local _ .vmem, ⟨26, _⟩ => ⟨S128x128, .f32⟩
  | .local _ .vmem, ⟨27, _⟩ => ⟨S200x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23_0 : Ref sig .tc := ⟨.hbm, 42, rfl⟩
abbrev main_v23_1 : Ref sig .tc := ⟨.hbm, 43, rfl⟩
abbrev main_v23_2 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg1_0 : Ref sig .tc := ⟨.vmem, 26, rfl⟩
abbrev cc3_stg2_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem1_0 : DmaSem sig := 26
abbrev cc3_sem2_0 : DmaSem sig := 27

abbrev nD : Nat := 1
abbrev τ : Topo := Topo.v7x

variable {F : FTy → Type} [FloatOps F]

abbrev grid0 : Pipeline.Grid := ⟨1, ![100], ![false]⟩

def k0_cond1 (i : grid0.Coords) : BitVec 1 :=
  let arg0 : BitVec 32 := BitVec.ofNat 32 (i 0).val
  let c50_i32 : BitVec 32 := 50#32
  let v3 : BitVec 1 := Scalar.cmpi .slt arg0 c50_i32
  let v4 : BitVec 32 := Scalar.extui v3
  let c0_i32 : BitVec 32 := 0#32
  let v5 : BitVec 1 := Scalar.cmpi .ne v4 c0_i32
  v5

def k0_cond2 (i : grid0.Coords) : BitVec 1 :=
  let arg0 : BitVec 32 := BitVec.ofNat 32 (i 0).val
  let c50_i32_1 : BitVec 32 := 50#32
  let v6 : BitVec 1 := Scalar.cmpi .sge arg0 c50_i32_1
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S200x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S200x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  broadcasts_S1x128_S2000x128 : S1x128.Broadcasts S2000x128
  shapeCasts_S2000x128_S2000x128 : S2000x128.ShapeCasts S2000x128
  shapeCasts_S1x128_S1x128 : S1x128.ShapeCasts S1x128
  reduces_S2000x128_S128 : S2000x128.Reduces [0] S128
  bcast_S_S1x128 : S_.BroadcastsInDim S1x128 (![] : Fin 0 → Fin S1x128.rank)
  inb_S200x128_S200x128_0_0 : ∀ a, (![0, 0] : Fin 2 → Nat) a + S200x128.size a ≤ S200x128.size a
  h_S200x128 : 0 < S200x128.numel
  gather_S50000x128_S800000x1_S800000x128_1_0_n_n_0_1_1128_wf : GatherDims.WF S50000x128 S800000x1 S800000x128 [1] [0] [] [0] [] 1 ![1, 128]
  gather_S200x128_S800000x1_S800000x128_1_0_n_n_0_1_1128_wf : GatherDims.WF S200x128 S800000x1 S800000x128 [1] [0] [] [0] [] 1 ![1, 128]
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S800000x128.size a
  hwx0_3 : ∀ i : grid0.Coords, EltTy.bits .f32 = 32 ∨ (Rect.block (s := S800000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S200x128.size a ≤ S200x128.size a
  hwx3_0 : ∀ i : grid3.Coords, EltTy.bits .f32 = 32 ∨ (Rect.block (s := S200x128) S200x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S200x128.size a ≤ S200x128.size a
  hwx3_2 : ∀ i : grid3.Coords, EltTy.bits .f32 = 32 ∨ (Rect.block (s := S200x128) S200x128.size (cc3_transform_2 i) (hinb3_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S200x128_S800000x1_S800000x128_1_0_n_n_0_1_1128 : GatherDims S200x128 S800000x1 S800000x128 where
  offsetDims := [1]
  collapsedSliceDims := [0]
  operandBatchingDims := []
  startIndicesBatchingDims := []
  startIndexMap := [0]
  indexVectorDim := 1
  sliceSizes := ![1, 128]
  wf := gather_S200x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_v17) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

abbrev win1_0 : Pipeline.Window sig grid1 :=
  Pipeline.Window.ofSpec (Memref.whole main_v21) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v23_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v23_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg1) S200x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v36) S200x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S200x128 : Shape := ⟨2, ![200, 128]⟩
abbrev S800000 : Shape := ⟨1, ![800000]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S400000x128 : Shape := ⟨2, ![400000, 128]⟩

abbrev nBuf : Space → Nat
  | .hbm => 103
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S200x128, .f32⟩
  | .hbm, ⟨2, _⟩ => ⟨S800000, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S1x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x128, .f32⟩
  | .hbm, ⟨33, _⟩ => ⟨S400000x128, .f32⟩
  | .hbm, ⟨34, _⟩ => ⟨S400000x128, .f32⟩
  | .hbm, ⟨35, _⟩ => ⟨S400000x128, .f32⟩
  | .hbm, ⟨36, _⟩ => ⟨S400000x128, .f32⟩
  | .hbm, ⟨37, _⟩ => ⟨S800000x128, .f32⟩
  | .hbm, ⟨38, _⟩ => ⟨S800000x1, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S_, .i32⟩
  | .hbm, ⟨61, _⟩ => ⟨S_, .f32⟩
  | .hbm, ⟨62, _⟩ => ⟨S128, .f32⟩
  | .hbm, ⟨63, _⟩ => ⟨S1x128, .f32⟩
  | .hbm, ⟨64, _⟩ => ⟨S_, .f32⟩
  | .hbm, ⟨65, _⟩ => ⟨S1x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S_, .f32⟩
  | .hbm, ⟨78, _⟩ => ⟨S_, .i1⟩
  | .hbm, ⟨79, _⟩ => ⟨S_, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000x128, .f32⟩
  | .hbm, ⟨101, _⟩ => ⟨S50000x128, .f32⟩
  | .hbm, ⟨102, _⟩ => ⟨S200x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_c_6 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_cst_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_cst_1 : Ref sig .tc := ⟨.hbm, 71, rfl⟩
abbrev main_call0_v8 : Ref sig .tc := ⟨.hbm, 72, rfl⟩
abbrev main_call0_cst_2 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_cst_3 : Ref sig .tc := ⟨.hbm, 77, rfl⟩
abbrev main_call0_v12 : Ref sig .tc := ⟨.hbm, 78, rfl⟩
abbrev main_call0_cst_4 : Ref sig .tc := ⟨.hbm, 79, rfl⟩
abbrev main_call0_call0_v0 : Ref sig .tc := ⟨.hbm, 80, rfl⟩
abbrev main_call0_call0_v1 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_7 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_call1_cst : Ref sig .tc := ⟨.hbm, 99, rfl⟩
abbrev main_call1_v0 : Ref sig .tc := ⟨.hbm, 100, rfl⟩
abbrev main_v54 : Ref sig .tc := ⟨.hbm, 101, rfl⟩
abbrev main_v55 : Ref sig .tc := ⟨.hbm, 102, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S800000x128_S400000x128_0_0 : S800000x128.Slices ![0, 0] S400000x128
  slices_S800000x128_S400000x128_400000_0 : S800000x128.Slices ![400000, 0] S400000x128
  concatenates_S400000x128_S400000x128_S800000x128_d0 : Shape.Concatenates [S400000x128, S400000x128] S800000x128 0
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  bcast_S128_S1x128_1 : S128.BroadcastsInDim S1x128 (![1] : Fin 1 → Fin S1x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  gather_S200x128_S800000x1_S800000x128_1_0_n_n_0_1_1128_wf : GatherDims.WF S200x128 S800000x1 S800000x128 [1] [0] [] [0] [] 1 ![1, 128]
  dot_S400000x128_S128x128_S400000x128_1_0_0_1_n_n_wf : DotDims.WF S400000x128 S128x128 S400000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S200x128_S128x128_S200x128_1_0_0_1_n_n_wf : DotDims.WF S200x128 S128x128 S200x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S200x128_S800000x1_S800000x128_1_0_n_n_0_1_1128 : GatherDims S200x128 S800000x1 S800000x128 where
  offsetDims := [1]
  collapsedSliceDims := [0]
  operandBatchingDims := []
  startIndicesBatchingDims := []
  startIndexMap := [0]
  indexVectorDim := 1
  sliceSizes := ![1, 128]
  wf := gather_S200x128_S800000x1_S800000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

class Facts : Prop extends Facts₀ where

variable [Facts]
-- ==== Proof.Spec.lean ====
/-
  A relational graph convolution layer, as whole-array functions over the extended reals.

  Nodes carry 128 features; each of the 800000 edges carries the product of its source node's features and its
  relation's embedding (the two gathered arrays `gx`, `gr`), scaled by a per-edge norm. An edge's message is its
  features times one of two 128 x 128 weights: the first 400000 edges use `inW`, the others `outW`. Messages are
  summed into their destination nodes (the aggregation `agg`, kept abstract here), a self-loop term
  `(x * loopRel) @ loopW` is added, the sum is scaled by the float nearest 1/3 and a bias is added. The result `h` is
  normalised per feature column with the batch mean and variance over the 50000 nodes, scaled and shifted, and clamped
  at zero. The relation embeddings are sent through a fourth weight.

  Two arrangements of the same layer are written down. One scales the edge features by the norm BEFORE the product
  with the weight and takes the variance as the mean of squares minus the squared mean; the other scales the MESSAGE
  and takes the variance as the mean of squared deviations. Over the reals they agree.
-/
import Idealize.ShloMosaic.PureOps.Ideal
import Idealize.ShloMosaic.Lib.ValueIdx

noncomputable section

namespace Cert.RelConv

open Idealize.ShloMosaic Idealize.ShloMosaic.ValueIdx
open scoped BigOperators

/-! ## Shapes and constants -/

abbrev SV : Shape := ⟨2, ![50000, 128]⟩
abbrev SE : Shape := ⟨2, ![800000, 128]⟩
abbrev SW : Shape := ⟨2, ![128, 128]⟩
abbrev SR : Shape := ⟨2, ![200, 128]⟩
abbrev SRow : Shape := ⟨2, ![1, 128]⟩
abbrev SVec : Shape := ⟨1, ![128]⟩
abbrev SEdge : Shape := ⟨1, ![800000]⟩

/-- An f32 array read at the ideal values: a function from indices to extended reals. -/
abbrev Arr (S : Shape) : Type := FVec Ideal S .f32

/-- The float nearest 1/3, as both programs spell it. -/
def third : EReal := Ideal.ofBits .f32 0x3EAAAAAB#32
/-- 50000.0, the number of nodes. -/
def nNodes : EReal := Ideal.ofBits .f32 0x47435000#32
/-- The float nearest 1e-5 added to the variance. -/
def eps : EReal := Ideal.ofBits .f32 0x3727C5AC#32

/-! ## Messages -/

/-- The weight edge `e`'s message goes through. -/
def halfW (inW outW : Arr SW) (e : Fin 800000) : Arr SW := if e.val < 400000 then inW else outW

/-- Edge features times the edge's weight: entry `(e, j)` is the sum over `k` of `ed (e, k) * W_e (k, j)`. -/
def msgOf (ed : Arr SE) (inW outW : Arr SW) : Arr SE :=
  fun i => ∑ k : Fin 128, ed (ix2 (i 0 : Fin 800000) k) * halfW inW outW (i 0 : Fin 800000) (ix2 k (i 1 : Fin 128))

/-- Every row of an edge array scaled by that edge's norm. -/
def scaleEdges (a : Arr SE) (en : FVec Ideal SEdge .f32) : Arr SE :=
  fun i => a i * en (ix1 (i 0 : Fin 800000))

/-- The entrywise product of two edge arrays. -/
def prodE (a b : Arr SE) : Arr SE := fun i => a i * b i

/-- Messages with the norm folded into the features before the product with the weight. -/
def msgScaledFirst (gx gr : Arr SE) (en : FVec Ideal SEdge .f32) (inW outW : Arr SW) : Arr SE :=
  msgOf (scaleEdges (prodE gx gr) en) inW outW

/-- Messages scaled by the norm after the product with the weight. -/
def msgScaledLast (gx gr : Arr SE) (en : FVec Ideal SEdge .f32) (inW outW : Arr SW) : Arr SE :=
  scaleEdges (msgOf (prodE gx gr) inW outW) en

/-! ## The node update before normalisation -/

/-- The self-loop term `(x * loopRel) @ loopW`. -/
def selfLoop (x : Arr SV) (lr : Arr SRow) (lw : Arr SW) : Arr SV :=
  fun i => ∑ k : Fin 128, (x (ix2 (i 0 : Fin 50000) k) * lr (ix2 (0 : Fin 1) k)) * lw (ix2 k (i 1 : Fin 128))

/-- `(hagg + selfLoop) * third + bias`, the bias a `[1, 128]` row read at the entry's column. -/
def hpre (hagg : Arr SV) (x : Arr SV) (lr : Arr SRow) (lw : Arr SW) (brow : Arr SRow) : Arr SV :=
  fun i => (hagg i + selfLoop x lr lw i) * third + brow (ix2 (0 : Fin 1) (i 1 : Fin 128))

/-! ## Batch statistics and the normalised output -/

/-- The sum of a feature column over the nodes. -/
def colSum (h : Arr SV) (j : Fin 128) : EReal := ∑ v : Fin 50000, h (ix2 v j)

/-- The sum of a feature column's squares over the nodes. -/
def colSumSq (h : Arr SV) (j : Fin 128) : EReal := ∑ v : Fin 50000, h (ix2 v j) * h (ix2 v j)

/-- The batch mean of a feature column. -/
def mean (h : Arr SV) (j : Fin 128) : EReal := Ideal.div (colSum h j) nNodes

/-- The variance as the mean of squares minus the squared mean. -/
def varOfSquares (h : Arr SV) (j : Fin 128) : EReal := Ideal.div (colSumSq h j) nNodes - mean h j * mean h j

/-- The variance as the mean of squared deviations from the mean. -/
def varOfDeviations (h : Arr SV) (j : Fin 128) : EReal :=
  Ideal.div (∑ v : Fin 50000, (h (ix2 v j) - mean h j) * (h (ix2 v j) - mean h j)) nNodes

/-- A per-column quantity laid out as a `[1, 128]` row. -/
def rowOf (f : Fin 128 → EReal) : Arr SRow := fun i => f (i 1 : Fin 128)

/-- A `[128]` vector laid out as a `[1, 128]` row. -/
def rowOfVec (g : FVec Ideal SVec .f32) : Arr SRow := fun i => g (ix1 (i 1 : Fin 128))

/-- Normalise, scale, shift, clamp at zero: `max (((h - mu) * r) * g + b) 0`, the four rows read at the entry's column. -/
def bnRelu (h : Arr SV) (mu r g b : Arr SRow) : Arr SV :=
  fun i => max ((((h i - mu (ix2 (0 : Fin 1) (i 1 : Fin 128))) * r (ix2 (0 : Fin 1) (i 1 : Fin 128)))
    * g (ix2 (0 : Fin 1) (i 1 : Fin 128))) + b (ix2 (0 : Fin 1) (i 1 : Fin 128))) 0

/-- The inverse standard deviation row from a variance. -/
def invStd (var : Fin 128 → EReal) : Arr SRow := rowOf fun j => Ideal.rsqrt (var j + eps)

/-- The layer's node output with the variance taken as mean of squares minus squared mean. -/
def outOfSquares (h : Arr SV) (g b : FVec Ideal SVec .f32) : Arr SV :=
  bnRelu h (rowOf (mean h)) (invStd (varOfSquares h)) (rowOfVec g) (rowOfVec b)

/-- The layer's node output with the variance taken as mean of squared deviations. -/
def outOfDeviations (h : Arr SV) (g b : FVec Ideal SVec .f32) : Arr SV :=
  bnRelu h (rowOf (mean h)) (invStd (varOfDeviations h)) (rowOfVec g) (rowOfVec b)

/-! ## The relation output -/

/-- `rel @ w`: entry `(r, j)` is the sum over `k` of `rel (r, k) * w (k, j)`. -/
def relOut (rel : Arr SR) (w : Arr SW) : Arr SR :=
  fun i => ∑ k : Fin 128, rel (ix2 (i 0 : Fin 200) k) * w (ix2 k (i 1 : Fin 128))

/-! ## The two arrangements of the whole layer -/

/-- The node output, norm folded in first, variance from the sum of squares. `agg` sums messages into destinations. -/
def layerScaledFirst (agg : Arr SE → Arr SV) (gx gr : Arr SE) (en : FVec Ideal SEdge .f32) (inW outW : Arr SW)
    (x : Arr SV) (lr : Arr SRow) (lw : Arr SW) (bias g b : FVec Ideal SVec .f32) : Arr SV :=
  outOfSquares (hpre (agg (msgScaledFirst gx gr en inW outW)) x lr lw (rowOfVec bias)) g b

/-- The node output, message scaled last, variance from squared deviations. -/
def layerScaledLast (agg : Arr SE → Arr SV) (gx gr : Arr SE) (en : FVec Ideal SEdge .f32) (inW outW : Arr SW)
    (x : Arr SV) (lr : Arr SRow) (lw : Arr SW) (bias g b : FVec Ideal SVec .f32) : Arr SV :=
  outOfDeviations (hpre (agg (msgScaledLast gx gr en inW outW)) x lr lw (rowOfVec bias)) g b

/-! ## Entries that are real numbers -/

/-- An extended real that is a real number. -/
def IsReal (a : EReal) : Prop := ∃ r : ℝ, a = (r : EReal)

/-- Every entry of an array is a real number. -/
def AllReal {S : Shape} (a : FVec Ideal S .f32) : Prop := ∀ i, IsReal (a i)

end Cert.RelConv

end
-- ==== Proof.LibSegmentSum.lean ====
/-
  SEGMENT SUMS READ AT AN INDEX.

  A segment sum adds, into entry `g` of an accumulator, every update row whose segment id is `g`; a row whose id
  lies outside the accumulator's range is dropped. As a host program it is an accumulating float scatter whose scatter
  indices are the ids, one integer per update row. This file reads that scatter, at the ideal values and at any extents,
  as the accumulator's entry plus a masked sum over the update rows — for the two sets of dimension numbers such a
  sum is printed with: rows of width `C` scattered into a `[G, C]` accumulator, and scalars scattered into a `[G]` one.
  Nothing here depends on a program: the dimension numbers enter as four equations on an arbitrary record, which a
  program's record of literals satisfies by `rfl`.
-/
import Idealize.ShloMosaic.PureOps.Ideal
import Idealize.ShloMosaic.PureOps.Ideal.Laws
import Idealize.ShloMosaic.Lib.ValueIdx
import Mathlib.Algebra.BigOperators.Group.Finset.Piecewise

namespace Cert.SegmentSum

open Idealize.ShloMosaic Idealize.ShloMosaic.ValueIdx
open scoped BigOperators

/-! ## Rows of width `C` into a `[G, C]` accumulator -/

section Rows
variable {G C N w : Nat}

/-- On the accumulator's row axis the window starts at the update row's segment id, read signed. -/
private theorem start_rows_zero (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (idx : IVec ⟨2, ![N, 1]⟩ w) (j : (⟨2, ![N, C]⟩ : Shape).Idx) :
    d.start j idx 0 = (idx (ix2 (j 0) 0)).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- On the accumulator's column axis, which no scatter index names, the window starts at zero. -/
private theorem start_rows_one (d : ScatterDims ⟨2, ![G, C]⟩ ⟨2, ![N, 1]⟩ ⟨2, ![N, C]⟩)
    (hsd : d.scatterDimsToOperandDims = [0])
    (idx : IVec ⟨2, ![N, 1]⟩ w) (j : (⟨2, ![N, C]⟩ : Shape).Idx) :
    d.start j idx 1 = 0 := by
  unfold ScatterDims.start
  rw [dif_neg (by rw [hsd]; exact (by decide : (1 : Fin 2) ∉ [(0 : Fin 2)]))]

/-- The row axis is an inserted one: the window has no extent along it. -/
private theorem window_rows_zero (d : ScatterDims ⟨2, ![G, C]⟩ ⟨2, ![N, 1]⟩ ⟨2, ![N, C]⟩)
    (hiw : d.insertedWindowDims = [0]) (j : (⟨2, ![N, C]⟩ : Shape).Idx) :
    d.window j 0 = 0 := by
  have hk : d.sKept = [1] := by
    show Shape.kept _ d.insertedWindowDims = _
    rw [hiw]; rfl
  unfold ScatterDims.window
  rw [dif_neg (by rw [hk]; exact (by decide : (0 : Fin 2) ∉ [(1 : Fin 2)]))]

/-- Along the column axis the window coordinate is the update's column. -/
private theorem window_rows_one (d : ScatterDims ⟨2, ![G, C]⟩ ⟨2, ![N, 1]⟩ ⟨2, ![N, C]⟩)
    (huw : d.updateWindowDims = [1]) (hiw : d.insertedWindowDims = [0])
    (j : (⟨2, ![N, C]⟩ : Shape).Idx) :
    d.window j 1 = (j 1).val := by
  obtain ⟨uw, iw, sd, iv, wf⟩ := d
  simp only at huw hiw
  subst huw hiw
  unfold ScatterDims.window
  split
  · rfl
  · rename_i h
    exact absurd (List.mem_singleton.mpr rfl : (1 : Fin 2) ∈ [(1 : Fin 2)]) h

/-- WHERE AN UPDATE LANDS. Update `(n, q')` lands on accumulator entry `(g, q)` exactly when row `n`'s segment id,
    read signed, is `g` and the columns agree; an id outside `[0, G)` lands nowhere. -/
theorem resultIdx?_rows (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (idx : IVec ⟨2, ![N, 1]⟩ w) (n : Fin N) (q' : Fin C) (g : Fin G) (q : Fin C) :
    d.resultIdx? (ix2 n q') idx = some (ix2 g q) ↔ (idx (ix2 n 0)).toInt = (g.val : ℤ) ∧ q' = q := by
  have hs0 : d.start (ix2 n q') idx 0 = (idx (ix2 n 0)).toInt := start_rows_zero d huw hiw hsd hiv idx _
  have hs1 := start_rows_one d hsd idx (ix2 n q')
  have hw0 := window_rows_zero d hiw (ix2 n q')
  have hw1 : d.window (ix2 n q') 1 = q'.val := window_rows_one d huw hiw _
  have hg := g.isLt
  have hq := q.isLt
  have hq' := q'.isLt
  have hsz0 : (⟨2, ![G, C]⟩ : Shape).size 0 = G := rfl
  have hsz1 : (⟨2, ![G, C]⟩ : Shape).size 1 = C := rfl
  unfold ScatterDims.resultIdx?
  split
  · rename_i h
    rw [Option.some.injEq]
    constructor
    · intro he
      have e0 : (d.start (ix2 n q') idx 0 + d.window (ix2 n q') 0).toNat = g.val := congrArg Fin.val (congrFun he 0)
      have e1 : (d.start (ix2 n q') idx 1 + d.window (ix2 n q') 1).toNat = q.val := congrArg Fin.val (congrFun he 1)
      have h0 := (h 0).1
      rw [hs0, hw0] at e0 h0
      rw [hs1, hw1] at e1
      exact ⟨by omega, Fin.ext (by omega)⟩
    · rintro ⟨ht, rfl⟩
      funext a
      match a with
      | ⟨0, _⟩ =>
        refine Fin.ext ?_
        show (d.start (ix2 n q') idx 0 + d.window (ix2 n q') 0).toNat = g.val
        rw [hs0, hw0]; omega
      | ⟨1, _⟩ =>
        refine Fin.ext ?_
        show (d.start (ix2 n q') idx 1 + d.window (ix2 n q') 1).toNat = q'.val
        rw [hs1, hw1]; omega
  · rename_i h
    constructor
    · intro he; cases he
    · rintro ⟨ht, rfl⟩
      refine absurd (fun a => ?_) h
      match a with
      | ⟨0, _⟩ =>
        show 0 ≤ d.start (ix2 n q') idx 0 + d.window (ix2 n q') 0 ∧
          d.start (ix2 n q') idx 0 + d.window (ix2 n q') 0 < ((⟨2, ![G, C]⟩ : Shape).size 0 : ℕ)
        rw [hs0, hw0, hsz0]; omega
      | ⟨1, _⟩ =>
        show 0 ≤ d.start (ix2 n q') idx 1 + d.window (ix2 n q') 1 ∧
          d.start (ix2 n q') idx 1 + d.window (ix2 n q') 1 < ((⟨2, ![G, C]⟩ : Shape).size 1 : ℕ)
        rw [hs1, hw1, hsz1]; omega

/-- A SEGMENT SUM OF ROWS, AT AN ENTRY. Entry `(g, q)` of the accumulating scatter of the rows `upd` at the segment ids
    `idx` is the accumulator's entry plus column `q` of every row whose id is `g`; a row whose id is outside `[0, G)`
    matches no `g` and contributes nothing. -/
theorem scatterAdd_rows_apply {φ : FTy} (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (x : FVec Ideal ⟨2, ![G, C]⟩ φ) (idx : IVec ⟨2, ![N, 1]⟩ w) (upd : FVec Ideal ⟨2, ![N, C]⟩ φ)
    (g : Fin G) (q : Fin C) :
    Host.scatterAdd (F := Ideal) d x idx upd (ix2 g q) =
      x (ix2 g q) + ∑ n : Fin N, if (idx (ix2 n 0)).toInt = (g.val : ℤ) then upd (ix2 n q) else 0 := by
  show x (ix2 g q) + ∑ j ∈ Finset.univ.filter (fun j => d.resultIdx? j idx = some (ix2 g q)), upd j = _
  congr 1
  rw [Finset.sum_filter, sum_idx2]
  refine Finset.sum_congr rfl (fun n _ => ?_)
  simp only [resultIdx?_rows d huw hiw hsd hiv idx]
  by_cases ht : (idx (ix2 n 0)).toInt = (g.val : ℤ)
  · simp only [ht, true_and, if_true]
    rw [Finset.sum_ite_eq' Finset.univ q (fun b => upd (ix2 n b)), if_pos (Finset.mem_univ q)]
  · simp only [ht, false_and, if_false, Finset.sum_const_zero]

end Rows
/-! ## Scalars into a `[G]` accumulator -/

section Flat
variable {G N w : Nat}

/-- A sum over a rank-1 index set is the sum over its coordinate range. -/
private theorem sum_idx1 {M : Type*} [AddCommMonoid M] {n : Nat} (f : (⟨1, ![n]⟩ : Shape).Idx → M) :
    ∑ i, f i = ∑ a : Fin n, f (ix1 a) := by
  let e : Fin n ≃ (⟨1, ![n]⟩ : Shape).Idx :=
    { toFun := ix1, invFun := fun i => i 0, left_inv := fun _ => rfl, right_inv := fun i => (eq_ix1 i).symm }
  exact (Equiv.sum_comp e f).symm

/-- On the accumulator's one axis the window starts at the update's segment id, read signed. -/
private theorem start_flat (d : ScatterDims ⟨1, ![G]⟩ ⟨2, ![N, 1]⟩ ⟨1, ![N]⟩)
    (huw : d.updateWindowDims = []) (hiw : d.insertedWindowDims = [0])
    (hsd : d.scatterDimsToOperandDims = [0]) (hiv : d.indexVectorDim = 1)
    (idx : IVec ⟨2, ![N, 1]⟩ w) (j : (⟨1, ![N]⟩ : Shape).Idx) :
    d.start j idx 0 = (idx (ix2 (j 0) 0)).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- The accumulator's one axis is an inserted one: the window has no extent along it. -/
private theorem window_flat (d : ScatterDims ⟨1, ![G]⟩ ⟨2, ![N, 1]⟩ ⟨1, ![N]⟩)
    (hiw : d.insertedWindowDims = [0]) (j : (⟨1, ![N]⟩ : Shape).Idx) :
    d.window j 0 = 0 := by
  have hk : d.sKept = [] := by
    show Shape.kept _ d.insertedWindowDims = _
    rw [hiw]; rfl
  unfold ScatterDims.window
  rw [dif_neg (by rw [hk]; exact List.not_mem_nil)]

/-- WHERE AN UPDATE LANDS. Update `n` lands on accumulator entry `g` exactly when its segment id, read signed, is `g`;
    an id outside `[0, G)` lands nowhere. -/
theorem resultIdx?_flat (d : ScatterDims ⟨1, ![G]⟩ ⟨2, ![N, 1]⟩ ⟨1, ![N]⟩)
    (huw : d.updateWindowDims = []) (hiw : d.insertedWindowDims = [0])
    (hsd : d.scatterDimsToOperandDims = [0]) (hiv : d.indexVectorDim = 1)
    (idx : IVec ⟨2, ![N, 1]⟩ w) (n : Fin N) (g : Fin G) :
    d.resultIdx? (ix1 n) idx = some (ix1 g) ↔ (idx (ix2 n 0)).toInt = (g.val : ℤ) := by
  have hs0 : d.start (ix1 n) idx 0 = (idx (ix2 n 0)).toInt := start_flat d huw hiw hsd hiv idx _
  have hw0 := window_flat d hiw (ix1 n)
  have hg := g.isLt
  have hsz0 : (⟨1, ![G]⟩ : Shape).size 0 = G := rfl
  unfold ScatterDims.resultIdx?
  split
  · rename_i h
    rw [Option.some.injEq]
    constructor
    · intro he
      have e0 : (d.start (ix1 n) idx 0 + d.window (ix1 n) 0).toNat = g.val := congrArg Fin.val (congrFun he 0)
      have h0 := (h 0).1
      rw [hs0, hw0] at e0 h0
      omega
    · intro ht
      funext a
      match a with
      | ⟨0, _⟩ =>
        refine Fin.ext ?_
        show (d.start (ix1 n) idx 0 + d.window (ix1 n) 0).toNat = g.val
        rw [hs0, hw0]; omega
  · rename_i h
    constructor
    · intro he; cases he
    · intro ht
      refine absurd (fun a => ?_) h
      match a with
      | ⟨0, _⟩ =>
        show 0 ≤ d.start (ix1 n) idx 0 + d.window (ix1 n) 0 ∧
          d.start (ix1 n) idx 0 + d.window (ix1 n) 0 < ((⟨1, ![G]⟩ : Shape).size 0 : ℕ)
        rw [hs0, hw0, hsz0]; omega

/-- A SEGMENT SUM OF SCALARS, AT AN ENTRY. Entry `g` of the accumulating scatter of the scalars `upd` at the segment ids
    `idx` is the accumulator's entry plus every update whose id is `g`; an update whose id is outside `[0, G)` matches
    no `g` and contributes nothing. -/
theorem scatterAdd_flat_apply {φ : FTy} (d : ScatterDims ⟨1, ![G]⟩ ⟨2, ![N, 1]⟩ ⟨1, ![N]⟩)
    (huw : d.updateWindowDims = []) (hiw : d.insertedWindowDims = [0])
    (hsd : d.scatterDimsToOperandDims = [0]) (hiv : d.indexVectorDim = 1)
    (x : FVec Ideal ⟨1, ![G]⟩ φ) (idx : IVec ⟨2, ![N, 1]⟩ w) (upd : FVec Ideal ⟨1, ![N]⟩ φ) (g : Fin G) :
    Host.scatterAdd (F := Ideal) d x idx upd (ix1 g) =
      x (ix1 g) + ∑ n : Fin N, if (idx (ix2 n 0)).toInt = (g.val : ℤ) then upd (ix1 n) else 0 := by
  show x (ix1 g) + ∑ j ∈ Finset.univ.filter (fun j => d.resultIdx? j idx = some (ix1 g)), upd j = _
  congr 1
  rw [Finset.sum_filter, sum_idx1]
  refine Finset.sum_congr rfl (fun n _ => ?_)
  simp only [resultIdx?_flat d huw hiw hsd hiv idx]

end Flat

end Cert.SegmentSum
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.LibIdealReal.lean ====
/-
  Extended-real terms built from REAL arguments by the operations of the ideal float values
  (`Ideal φ = EReal`) are coercions of real expressions. The lemmas below push the coercion
  `ℝ → EReal` outward through each operation as it stands after the instance's `*_def` lemmas
  have fired (`x + y`, `x - y`, `x * y`, `-x`, `max x y`, `max x (-x)`, `Ideal.exp`, `Ideal.log`,
  `Ideal.div`, `Ideal.cmp`), through finite sums and through maxima taken as a fold of `max`
  from `⊥`; and they read the f32 words of a few constants as the reals (or infinities) they denote.
-/
import Idealize.ShloMosaic.PureOps.Ideal
import Idealize.ShloMosaic.PureOps.Ideal.Laws
import Mathlib.Data.EReal.Inv
import Mathlib.Data.EReal.Operations
import Mathlib.Data.Finset.Lattice.Fold
import Mathlib.Data.Finset.Fold
import Mathlib.Algebra.BigOperators.Group.Finset.Basic
import Mathlib.Analysis.SpecialFunctions.Log.Basic

noncomputable section

namespace Cert.LibIdealReal

open Idealize.ShloMosaic
open scoped BigOperators

/-! ## Constants: f32 words as extended reals -/

/-- `+0.0` denotes the real `0` (as a coercion; `Ideal.ofBits_zero_f32` states it as `0 : EReal`). -/
theorem ofBits_zero_f32_coe : Ideal.ofBits .f32 0x00000000#32 = ((0 : ℝ) : EReal) := by
  rw [Ideal.ofBits_zero_f32, EReal.coe_zero]

/-- `1.0` denotes the real `1`. -/
theorem ofBits_one_f32 : Ideal.ofBits .f32 0x3F800000#32 = ((1 : ℝ) : EReal) := by
  simp [Ideal.ofBits, Ideal.ieee, -EReal.coe_mul]; norm_num

/-- `10.0` denotes the real `10`. -/
theorem ofBits_ten_f32 : Ideal.ofBits .f32 0x41200000#32 = ((10 : ℝ) : EReal) := by
  simp [Ideal.ofBits, Ideal.ieee, -EReal.coe_mul]; norm_num

/-- `-10.0` denotes the real `-10`. -/
theorem ofBits_neg_ten_f32 : Ideal.ofBits .f32 0xC1200000#32 = ((-10 : ℝ) : EReal) := by
  simp [Ideal.ofBits, Ideal.ieee, -EReal.coe_mul]; norm_num

/-- `0.5` denotes the real `1/2`. -/
theorem ofBits_half_f32 : Ideal.ofBits .f32 0x3F000000#32 = ((1 / 2 : ℝ) : EReal) := by
  simp [Ideal.ofBits, Ideal.ieee, -EReal.coe_mul]; norm_num

/-- `2048.0` denotes the real `2048`. -/
theorem ofBits_2048_f32 : Ideal.ofBits .f32 0x45000000#32 = ((2048 : ℝ) : EReal) := by
  simp [Ideal.ofBits, Ideal.ieee, -EReal.coe_mul]; norm_num

/-- `50257.0` denotes the real `50257`. -/
theorem ofBits_50257_f32 : Ideal.ofBits .f32 0x47445100#32 = ((50257 : ℝ) : EReal) := by
  simp [Ideal.ofBits, Ideal.ieee, -EReal.coe_mul]; norm_num

/-- `102926336.0` (`= 2048 · 50257`) denotes the real `102926336`. -/
theorem ofBits_102926336_f32 : Ideal.ofBits .f32 0x4CC45100#32 = ((102926336 : ℝ) : EReal) := by
  simp [Ideal.ofBits, Ideal.ieee, -EReal.coe_mul]; norm_num

/-- The pattern of `-∞` denotes `⊥`. -/
theorem ofBits_neg_inf_f32 : Ideal.ofBits .f32 0xFF800000#32 = (⊥ : EReal) := by
  simp [Ideal.ofBits, Ideal.ieee]

/-- The pattern of `+∞` denotes `⊤`. -/
theorem ofBits_inf_f32 : Ideal.ofBits .f32 0x7F800000#32 = (⊤ : EReal) := by
  simp [Ideal.ofBits, Ideal.ieee]

/-! ## Scalar operations on coerced reals

  Sums, differences, products and negations are Mathlib's `EReal.coe_add`, `EReal.coe_sub`, `EReal.coe_mul`,
  `EReal.coe_neg` read right to left; they are restated here left to right so that `rw` / `simp only` can
  use them without an arrow. -/

/-- A sum of two reals' coercions is the coercion of their sum. -/
theorem coe_add_coe (a b : ℝ) : (a : EReal) + (b : EReal) = ((a + b : ℝ) : EReal) := (EReal.coe_add a b).symm

/-- A difference of two reals' coercions is the coercion of their difference. -/
theorem coe_sub_coe (a b : ℝ) : (a : EReal) - (b : EReal) = ((a - b : ℝ) : EReal) := (EReal.coe_sub a b).symm

/-- A product of two reals' coercions is the coercion of their product. -/
theorem coe_mul_coe (a b : ℝ) : (a : EReal) * (b : EReal) = ((a * b : ℝ) : EReal) := (EReal.coe_mul a b).symm

/-- The negation of a real's coercion is the coercion of its negation. -/
theorem neg_coe (a : ℝ) : -(a : EReal) = ((-a : ℝ) : EReal) := (EReal.coe_neg a).symm

/-- The maximum of two reals' coercions is the coercion of their maximum. -/
theorem max_coe_coe (a b : ℝ) : max (a : EReal) (b : EReal) = ((max a b : ℝ) : EReal) :=
  (EReal.coe_strictMono.monotone.map_max (a := a) (b := b)).symm

/-- The minimum of two reals' coercions is the coercion of their minimum. -/
theorem min_coe_coe (a b : ℝ) : min (a : EReal) (b : EReal) = ((min a b : ℝ) : EReal) :=
  (EReal.coe_strictMono.monotone.map_min (a := a) (b := b)).symm

/-- The instance's absolute value, `max x (-x)`, of a real's coercion is the coercion of `|a|`. -/
theorem max_neg_coe (a : ℝ) : max (a : EReal) (-(a : EReal)) = ((|a| : ℝ) : EReal) := by
  rw [neg_coe, max_coe_coe]; rfl

/-- The same, stated on the instance's field `absf` (`Ideal.absf_def` unfolds it to `max x (-x)`). -/
theorem absf_coe {φ : FTy} (a : ℝ) : FloatOps.absf (F := Ideal) (φ := φ) (a : EReal) = ((|a| : ℝ) : EReal) :=
  max_neg_coe a

/-- The instance's logarithm of a POSITIVE real's coercion is the coercion of its real logarithm. -/
theorem log_coe_of_pos {a : ℝ} (h : 0 < a) : Ideal.log (a : EReal) = ((Real.log a : ℝ) : EReal) := by
  rw [Ideal.log_coe, if_neg (not_le.mpr h)]

/-- The instance's division (`divf`, `hostDivf` and the scalar `divf` all unfold to `Ideal.div`) of a real's
    coercion by a NONZERO real's is the coercion of the quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The reciprocal `Ideal.div 1 x` (the instance's `reciprocal`) of a nonzero real's coercion. -/
theorem div_one_coe {b : ℝ} (hb : b ≠ 0) : Ideal.div 1 (b : EReal) = ((1 / b : ℝ) : EReal) := by
  rw [← EReal.coe_one, div_coe_coe 1 hb]

/-! ### Comparisons and the select on them -/

/-- `cmpf ogt` on two reals' coercions is the bit of `b < a`. -/
theorem cmp_ogt_coe (a b : ℝ) : Ideal.cmp .ogt (a : EReal) (b : EReal) = BitVec.ofBool (decide (b < a)) := by
  simp only [Ideal.cmp, EReal.coe_lt_coe_iff]

/-- `cmpf olt` on two reals' coercions is the bit of `a < b`. -/
theorem cmp_olt_coe (a b : ℝ) : Ideal.cmp .olt (a : EReal) (b : EReal) = BitVec.ofBool (decide (a < b)) := by
  simp only [Ideal.cmp, EReal.coe_lt_coe_iff]

/-- `cmpf oge` on two reals' coercions is the bit of `b ≤ a`. -/
theorem cmp_oge_coe (a b : ℝ) : Ideal.cmp .oge (a : EReal) (b : EReal) = BitVec.ofBool (decide (b ≤ a)) := by
  simp only [Ideal.cmp, EReal.coe_le_coe_iff]

/-- `cmpf ole` on two reals' coercions is the bit of `a ≤ b`. -/
theorem cmp_ole_coe (a b : ℝ) : Ideal.cmp .ole (a : EReal) (b : EReal) = BitVec.ofBool (decide (a ≤ b)) := by
  simp only [Ideal.cmp, EReal.coe_le_coe_iff]

/-- `cmpf ogt` on two reals' coercions answers `1` exactly when `a > b`. -/
theorem cmp_ogt_coe_eq_one_iff (a b : ℝ) : Ideal.cmp .ogt (a : EReal) (b : EReal) = 1#1 ↔ b < a := by
  rw [cmp_ogt_coe]; by_cases h : b < a <;> simp [h]

/-- A select on a proposition's bit is the `if` on the proposition. -/
theorem select_ofBool_decide {α : Type} (p : Prop) [Decidable p] (x y : α) :
    Scalar.select (BitVec.ofBool (decide p)) x y = if p then x else y := by
  by_cases h : p <;> simp [Scalar.select, h]

/-- The select on `cmpf ogt` of two reals' coercions: the first branch exactly when `a > b`. -/
theorem select_cmp_ogt_coe {α : Type} (a b : ℝ) (x y : α) :
    Scalar.select (Ideal.cmp .ogt (a : EReal) (b : EReal)) x y = if b < a then x else y := by
  rw [cmp_ogt_coe, select_ofBool_decide]

/-- The select on `cmpf olt` of two reals' coercions: the first branch exactly when `a < b`. -/
theorem select_cmp_olt_coe {α : Type} (a b : ℝ) (x y : α) :
    Scalar.select (Ideal.cmp .olt (a : EReal) (b : EReal)) x y = if a < b then x else y := by
  rw [cmp_olt_coe, select_ofBool_decide]

/-- The select on `cmpf oge` of two reals' coercions: the first branch exactly when `a ≥ b`. -/
theorem select_cmp_oge_coe {α : Type} (a b : ℝ) (x y : α) :
    Scalar.select (Ideal.cmp .oge (a : EReal) (b : EReal)) x y = if b ≤ a then x else y := by
  rw [cmp_oge_coe, select_ofBool_decide]

/-- The select on `cmpf ole` of two reals' coercions: the first branch exactly when `a ≤ b`. -/
theorem select_cmp_ole_coe {α : Type} (a b : ℝ) (x y : α) :
    Scalar.select (Ideal.cmp .ole (a : EReal) (b : EReal)) x y = if a ≤ b then x else y := by
  rw [cmp_ole_coe, select_ofBool_decide]

/-- An `if` between two reals' coercions is the coercion of the `if`. -/
theorem ite_coe (p : Prop) [Decidable p] (a b : ℝ) :
    (if p then (a : EReal) else (b : EReal)) = ((if p then a else b : ℝ) : EReal) := by
  split <;> rfl

/-! ### The bottom element -/

/-- `⊥` minus a real's coercion is `⊥` (Mathlib's `EReal.bot_sub` at a coercion). -/
theorem bot_sub_coe (a : ℝ) : (⊥ : EReal) - (a : EReal) = ⊥ := EReal.bot_sub _

/-- `max ⊥ x = x` on the extended reals. -/
theorem max_bot_left' (x : EReal) : max ⊥ x = x := max_bot_left x

/-- `max x ⊥ = x` on the extended reals. -/
theorem max_bot_right' (x : EReal) : max x ⊥ = x := max_bot_right x

/-! ## Finite sums and maxima of coerced reals -/

section Big
variable {ι : Type*}

/-- A finite sum of reals' coercions is the coercion of the sum (over a `Finset`; a `Fintype`'s
    `∑ i, _` is the case `s = Finset.univ`). -/
theorem sum_coe (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The same for a sum whose terms are KNOWN to be coercions: whatever `F i` is, if each equals
    the coercion of `f i` then the sum is the coercion of `∑ f`. -/
theorem sum_eq_coe_of_eq (s : Finset ι) (F : ι → EReal) (f : ι → ℝ) (h : ∀ i ∈ s, F i = ((f i : ℝ) : EReal)) :
    ∑ i ∈ s, F i = ((∑ i ∈ s, f i : ℝ) : EReal) := by
  rw [Finset.sum_congr rfl h, sum_coe]

/-- The supremum over a nonempty finite set of reals' coercions is the coercion of their
    greatest (`Finset.sup'` on the reals). -/
theorem sup_coe (s : Finset ι) (hs : s.Nonempty) (f : ι → ℝ) :
    s.sup (fun i => ((f i : ℝ) : EReal)) = ((s.sup' hs f : ℝ) : EReal) := by
  rw [← Finset.sup'_eq_sup hs]
  exact (Finset.comp_sup'_eq_sup'_comp hs (fun r : ℝ => (r : EReal)) (fun a b => (max_coe_coe a b).symm)).symm

/-- A fold of `max` from `⊥` is the finite supremum. -/
theorem fold_max_bot_eq_sup (s : Finset ι) (F : ι → EReal) : s.fold max (⊥ : EReal) F = s.sup F := rfl

/-- A fold of the instance's `maximumf` is a fold of `max` (what `Host.reduce_eq_fold_single FloatOps.maximumf`
    and `multiReduction_maximumf_eq_fold` leave). -/
theorem fold_maximumf_eq_fold_max {φ : FTy} (s : Finset ι) (b : Ideal φ) (F : ι → Ideal φ) :
    s.fold (FloatOps.maximumf (F := Ideal) (φ := φ)) b F = s.fold (max : EReal → EReal → EReal) b F := rfl

/-- A maximum-reduction of reals' coercions from the initial value `⊥` — the fold of `max` from `⊥` over a
    nonempty finite set, as `multiReduction_maximumf_single` leaves it — is the coercion of their greatest. -/
theorem fold_max_bot_coe (s : Finset ι) (hs : s.Nonempty) (f : ι → ℝ) :
    s.fold max (⊥ : EReal) (fun i => ((f i : ℝ) : EReal)) = ((s.sup' hs f : ℝ) : EReal) := by
  rw [fold_max_bot_eq_sup, sup_coe s hs]

/-- The same for a fold whose terms are KNOWN to be coercions. -/
theorem fold_max_bot_eq_coe_of_eq (s : Finset ι) (hs : s.Nonempty) (F : ι → EReal) (f : ι → ℝ)
    (h : ∀ i ∈ s, F i = ((f i : ℝ) : EReal)) :
    s.fold max (⊥ : EReal) F = ((s.sup' hs f : ℝ) : EReal) := by
  rw [Finset.fold_congr (g := fun i => ((f i : ℝ) : EReal)) h, fold_max_bot_coe s hs]

/-- A fold of `max` from a REAL initial value over reals' coercions is the coercion of the real fold
    (no nonemptiness needed). -/
theorem fold_max_coe (s : Finset ι) (b : ℝ) (f : ι → ℝ) :
    s.fold max ((b : ℝ) : EReal) (fun i => ((f i : ℝ) : EReal)) = ((s.fold max b f : ℝ) : EReal) :=
  Finset.fold_hom (op := (max : ℝ → ℝ → ℝ)) (op' := (max : EReal → EReal → EReal)) (m := fun r : ℝ => (r : EReal))
    (fun a b => (max_coe_coe a b).symm)

end Big

end Cert.LibIdealReal

end
-- ==== Proof.Algebra.lean ====
/-
  Why the two arrangements of the layer agree when every input entry is a real number.

  (1) Real entries stay real under sums, products, differences and finite sums, so every intermediate array of the
  layer up to `hpre` has real entries.
  (2) A per-edge factor moves across the contraction: sum_k (a_k * n) * w_k = (sum_k a_k * w_k) * n over the reals.
  (3) For a real column h_1 .. h_N with mean mu = (sum h) / N:  (sum h^2) / N - mu^2 = (sum (h - mu)^2) / N.
  Both laws fail at infinities, which is why realness is carried.
-/
import proofs.«152699_j14370960573129_1_alg».proof.Proof.Spec
import proofs.«152699_j14370960573129_1_alg».proof.Proof.LibIdealReal
import Mathlib.Data.EReal.Operations
import Mathlib.Algebra.BigOperators.Group.Finset.Basic

noncomputable section

namespace Cert.RelConv

open Idealize.ShloMosaic Idealize.ShloMosaic.ValueIdx
open scoped BigOperators

/-! ## Real entries are closed under the layer's arithmetic -/

theorem IsReal.coe (r : ℝ) : IsReal (r : EReal) := ⟨r, rfl⟩
theorem IsReal.zero : IsReal (0 : EReal) := ⟨0, by simp⟩
theorem IsReal.add {a b : EReal} (ha : IsReal a) (hb : IsReal b) : IsReal (a + b) := by
  obtain ⟨x, rfl⟩ := ha
  obtain ⟨y, rfl⟩ := hb
  exact ⟨x + y, (EReal.coe_add x y).symm⟩
theorem IsReal.sub {a b : EReal} (ha : IsReal a) (hb : IsReal b) : IsReal (a - b) := by
  obtain ⟨x, rfl⟩ := ha
  obtain ⟨y, rfl⟩ := hb
  exact ⟨x - y, (EReal.coe_sub x y).symm⟩
theorem IsReal.mul {a b : EReal} (ha : IsReal a) (hb : IsReal b) : IsReal (a * b) := by
  obtain ⟨x, rfl⟩ := ha
  obtain ⟨y, rfl⟩ := hb
  exact ⟨x * y, (EReal.coe_mul x y).symm⟩
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact IsReal.add (h a (Finset.mem_insert_self a s)) (ih fun i hi => h i (Finset.mem_insert_of_mem hi))
theorem IsReal.ite {p : Prop} [Decidable p] {a b : EReal} (ha : IsReal a) (hb : IsReal b) : IsReal (if p then a else b) := by
  split
  · exact ha
  · exact hb
/-- The float nearest 1/3 is a real number. -/
theorem isReal_third : IsReal third := by
  refine ⟨(11184811 : ℝ) * (2 : ℝ) ^ (-25 : Int), ?_⟩
  simp [third, Ideal.ofBits, Ideal.ieee, -EReal.coe_mul]
/-- 50000.0 is the real 50000. -/
theorem nNodes_eq : nNodes = ((50000 : ℝ) : EReal) := by
  simp [nNodes, Ideal.ofBits, Ideal.ieee, -EReal.coe_mul]; norm_num

/-! ## The arrays up to `hpre` have real entries -/

theorem allReal_prodE {a b : Arr SE} (ha : AllReal a) (hb : AllReal b) : AllReal (prodE a b) := by
  intro i
  exact (ha i).mul (hb i)
theorem allReal_scaleEdges {a : Arr SE} {en : FVec Ideal SEdge .f32} (ha : AllReal a) (hen : AllReal en) :
    AllReal (scaleEdges a en) := by
  intro i
  exact (ha i).mul (hen _)
theorem allReal_msgOf {ed : Arr SE} {inW outW : Arr SW} (hed : AllReal ed) (hin : AllReal inW) (hout : AllReal outW) :
    AllReal (msgOf ed inW outW) := by
  intro i
  unfold msgOf
  refine IsReal.sum _ _ fun k _ => IsReal.mul (hed _) ?_
  unfold halfW
  split
  · exact hin _
  · exact hout _
theorem allReal_rowOfVec {g : FVec Ideal SVec .f32} (hg : AllReal g) : AllReal (rowOfVec g) := by
  intro i
  exact hg _
theorem allReal_hpre {hagg x : Arr SV} {lr : Arr SRow} {lw : Arr SW} {brow : Arr SRow}
    (hh : AllReal hagg) (hx : AllReal x) (hlr : AllReal lr) (hlw : AllReal lw) (hb : AllReal brow) :
    AllReal (hpre hagg x lr lw brow) := by
  intro i
  unfold hpre selfLoop
  exact (((hh i).add (IsReal.sum _ _ fun k _ => ((hx _).mul (hlr _)).mul (hlw _))).mul isReal_third).add (hb _)

/-! ## The per-edge factor moves across the contraction -/

/-- Over the reals a common factor inside each term of a contraction comes out of the sum:
    sum_k (a_k * n) * w_k = (sum_k a_k * w_k) * n. Stated on extended reals whose values are real. -/
private theorem sum_scaled_mul {ι : Type*} (s : Finset ι) (a w : ι → EReal) (n : EReal)
    (ha : ∀ k, IsReal (a k)) (hw : ∀ k, IsReal (w k)) (hn : IsReal n) :
    ∑ k ∈ s, (a k * n) * w k = (∑ k ∈ s, a k * w k) * n := by
  choose a' ha' using ha
  choose w' hw' using hw
  obtain ⟨n', rfl⟩ := hn
  simp only [ha', hw', ← EReal.coe_mul, Cert.LibIdealReal.sum_coe]
  congr 1
  rw [Finset.sum_mul]
  exact Finset.sum_congr rfl fun k _ => by ring

theorem msgScaledFirst_eq_msgScaledLast {gx gr : Arr SE} {en : FVec Ideal SEdge .f32} {inW outW : Arr SW}
    (hgx : AllReal gx) (hgr : AllReal gr) (hen : AllReal en) (hin : AllReal inW) (hout : AllReal outW) :
    msgScaledFirst gx gr en inW outW = msgScaledLast gx gr en inW outW := by
  funext i
  have key := sum_scaled_mul (Finset.univ : Finset (Fin 128))
    (fun k => gx (ix2 (i 0 : Fin 800000) k) * gr (ix2 (i 0 : Fin 800000) k))
    (fun k => halfW inW outW (i 0 : Fin 800000) (ix2 k (i 1 : Fin 128)))
    (en (ix1 (i 0 : Fin 800000)))
    (fun k => (hgx _).mul (hgr _))
    (fun k => by
      unfold halfW
      split
      · exact hin _
      · exact hout _)
    (hen _)
  exact key

/-! ## The two forms of the variance -/

/-- For reals f over a finite set of N ≠ 0 points: (sum f^2) / N - ((sum f) / N)^2 = (sum (f - (sum f) / N)^2) / N. -/
private theorem var_identity {ι : Type*} (s : Finset ι) (f : ι → ℝ) (N : ℝ) (hN : (s.card : ℝ) = N) (hN0 : N ≠ 0) :
    (∑ v ∈ s, f v * f v) / N - (∑ v ∈ s, f v) / N * ((∑ v ∈ s, f v) / N)
      = (∑ v ∈ s, (f v - (∑ v ∈ s, f v) / N) * (f v - (∑ v ∈ s, f v) / N)) / N := by
  set m : ℝ := (∑ v ∈ s, f v) / N with hm
  have hS : ∑ v ∈ s, f v = N * m := by rw [hm]; field_simp
  have hexp : ∑ v ∈ s, (f v - m) * (f v - m) = (∑ v ∈ s, f v * f v) - 2 * m * (∑ v ∈ s, f v) + N * (m * m) := by
    have h1 : ∀ v, (f v - m) * (f v - m) = f v * f v - 2 * m * f v + m * m := fun v => by ring
    simp only [h1, Finset.sum_add_distrib, Finset.sum_sub_distrib, ← Finset.mul_sum, Finset.sum_const, nsmul_eq_mul, hN]
    ring
  rw [hexp, hS]
  field_simp
  ring

theorem varOfSquares_eq_varOfDeviations {h : Arr SV} (hh : AllReal h) (j : Fin 128) :
    varOfSquares h j = varOfDeviations h j := by
  choose f hf using fun v : Fin 50000 => hh (ix2 v j)
  have h5 : (50000 : ℝ) ≠ 0 := by norm_num
  unfold varOfSquares varOfDeviations mean colSum colSumSq
  simp only [hf, nNodes_eq, ← EReal.coe_mul, ← EReal.coe_sub, Cert.LibIdealReal.sum_coe,
    Cert.LibIdealReal.div_coe_coe _ h5]
  congr 1
  exact var_identity Finset.univ f 50000 (by simp) h5

theorem outOfSquares_eq_outOfDeviations {h : Arr SV} (hh : AllReal h) (g b : FVec Ideal SVec .f32) :
    outOfSquares h g b = outOfDeviations h g b := by
  have hv : varOfSquares h = varOfDeviations h := funext (varOfSquares_eq_varOfDeviations hh)
  unfold outOfSquares outOfDeviations
  rw [hv]

/-! ## The whole layer -/

/-- With real inputs and an aggregation that keeps entries real, the two arrangements of the layer are one function. -/
theorem layerScaledFirst_eq_layerScaledLast (agg : Arr SE → Arr SV) (hagg : ∀ u, AllReal u → AllReal (agg u))
    {gx gr : Arr SE} {en : FVec Ideal SEdge .f32} {inW outW : Arr SW} {x : Arr SV} {lr : Arr SRow} {lw : Arr SW}
    {bias g b : FVec Ideal SVec .f32}
    (hgx : AllReal gx) (hgr : AllReal gr) (hen : AllReal en) (hin : AllReal inW) (hout : AllReal outW)
    (hx : AllReal x) (hlr : AllReal lr) (hlw : AllReal lw) (hbias : AllReal bias) :
    layerScaledFirst agg gx gr en inW outW x lr lw bias g b = layerScaledLast agg gx gr en inW outW x lr lw bias g b := by
  unfold layerScaledFirst layerScaledLast
  rw [msgScaledFirst_eq_msgScaledLast hgx hgr hen hin hout]
  have hmsg : AllReal (msgScaledLast gx gr en inW outW) :=
    allReal_scaleEdges (allReal_msgOf (allReal_prodE hgx hgr) hin hout) hen
  exact outOfSquares_eq_outOfDeviations
    (allReal_hpre (hagg _ hmsg) hx hlr hlw (allReal_rowOfVec hbias)) g b

end Cert.RelConv

end
-- ==== Proof.KernelTerms.lean ====
/-
  The three host operations both programs share, as functions of the argument arrays: the two row gathers (source-node
  features by `src`, relation embeddings by `edge_type`, a negative index first wrapped by the table's extent) and the
  aggregation that sums message rows into their destination nodes from an all-zero accumulator. Gathered rows of a
  table with real entries are real; sums of real message rows are real.
-/
import proofs.«152699_j14370960573129_1_alg».proof.Proof.Gen.KernelIdeal
import proofs.«152699_j14370960573129_1_alg».proof.Proof.Spec
import proofs.«152699_j14370960573129_1_alg».proof.Proof.LibSegmentSum
import proofs.«152699_j14370960573129_1_alg».proof.Proof.LibGatherRows
import proofs.«152699_j14370960573129_1_alg».proof.Proof.Algebra

noncomputable section

namespace Cert.KernelIdeal.Hand

open Idealize.ShloMosaic Idealize.ShloMosaic.ValueIdx Cert.KernelIdeal Cert.KernelIdeal.Gen Cert.RelConv

/-- Index normalisation: an index below zero has the table's extent `n` added; the result laid out as a column. -/
def wrapIdx (n : BitVec 32) (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 n))) idx)

/-- The source nodes' feature rows, one per edge. -/
def gxOf (x : Arr SV) (src : IVec S800000 32) : Arr SE :=
  Host.gather gather_S50000x128_S800000x1_S800000x128_1_0_n_n_0_1_1128 x (wrapIdx 50000#32 src)

/-- The relations' embedding rows, one per edge. -/
def grOf (rel : Arr SR) (et : IVec S800000 32) : Arr SE :=
  Host.gather gather_S200x128_S800000x1_S800000x128_1_0_n_n_0_1_1128 rel (wrapIdx 200#32 et)

/-- Message rows summed into their destination nodes, from zero. -/
def aggOf (dst : IVec S800000 32) (u : Arr SE) : Arr SV :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) u

theorem allReal_gxOf {x : Arr SV} (hx : AllReal x) (src : IVec S800000 32) : AllReal (gxOf x src) := by
  intro i
  obtain ⟨p, q, rfl⟩ : ∃ p q, i = ix2 p q := ⟨i 0, i 1, eq_ix2 i⟩
  unfold gxOf
  -- the record of dimension numbers is the row-take's: offset axis 1, collapsed axis 0, start index map [0]
  have hrec : gather_S50000x128_S800000x1_S800000x128_1_0_n_n_0_1_1128
      = GatherRows.rowDims 50000 128 800000 gather_S50000x128_S800000x1_S800000x128_1_0_n_n_0_1_1128_wf := rfl
  rw [hrec, GatherRows.gather_rows_apply (by decide)]
  -- a gathered entry is an entry of the table
  exact hx _

theorem allReal_grOf {rel : Arr SR} (hr : AllReal rel) (et : IVec S800000 32) : AllReal (grOf rel et) := by
  intro i
  obtain ⟨p, q, rfl⟩ : ∃ p q, i = ix2 p q := ⟨i 0, i 1, eq_ix2 i⟩
  unfold grOf
  have hrec : gather_S200x128_S800000x1_S800000x128_1_0_n_n_0_1_1128
      = GatherRows.rowDims 200 128 800000 gather_S200x128_S800000x1_S800000x128_1_0_n_n_0_1_1128_wf := rfl
  rw [hrec, GatherRows.gather_rows_apply (by decide)]
  exact hr _

theorem allReal_aggOf (dst : IVec S800000 32) {u : Arr SE} (hu : AllReal u) : AllReal (aggOf dst u) := by
  intro i
  obtain ⟨g, q, rfl⟩ : ∃ g q, i = ix2 g q := ⟨i 0, i 1, eq_ix2 i⟩
  unfold aggOf
  -- entry (g, q) is the accumulator's entry plus column q of every message row whose destination is g
  rw [Cert.SegmentSum.scatterAdd_rows_apply _ rfl rfl rfl rfl]
  refine IsReal.add ?_ (IsReal.sum _ _ fun n _ => IsReal.ite (hu _) IsReal.zero)
  -- the accumulator is the scalar zero at every entry
  show IsReal (Ideal.ofBits .f32 0x00000000#32)
  rw [Ideal.ofBits_zero_f32]
  exact IsReal.zero

end Cert.KernelIdeal.Hand

end
-- ==== Proof.RefTerms.lean ====
/-
  The three host operations both programs share, as functions of the argument arrays: the two row gathers (source-node
  features by `src`, relation embeddings by `edge_type`, a negative index first wrapped by the table's extent) and the
  aggregation that sums message rows into their destination nodes from an all-zero accumulator. Gathered rows of a
  table with real entries are real; sums of real message rows are real.
-/
import proofs.«152699_j14370960573129_1_alg».proof.Proof.Gen.ReferenceIdeal
import proofs.«152699_j14370960573129_1_alg».proof.Proof.Spec
import proofs.«152699_j14370960573129_1_alg».proof.Proof.LibSegmentSum
import proofs.«152699_j14370960573129_1_alg».proof.Proof.LibGatherRows
import proofs.«152699_j14370960573129_1_alg».proof.Proof.Algebra

noncomputable section

namespace Cert.ReferenceIdeal.Hand

open Idealize.ShloMosaic Idealize.ShloMosaic.ValueIdx Cert.ReferenceIdeal Cert.ReferenceIdeal.Gen Cert.RelConv

/-- Index normalisation: an index below zero has the table's extent `n` added; the result laid out as a column. -/
def wrapIdx (n : BitVec 32) (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 n))) idx)

/-- The source nodes' feature rows, one per edge. -/
def gxOf (x : Arr SV) (src : IVec S800000 32) : Arr SE :=
  Host.gather gather_S50000x128_S800000x1_S800000x128_1_0_n_n_0_1_1128 x (wrapIdx 50000#32 src)

/-- The relations' embedding rows, one per edge. -/
def grOf (rel : Arr SR) (et : IVec S800000 32) : Arr SE :=
  Host.gather gather_S200x128_S800000x1_S800000x128_1_0_n_n_0_1_1128 rel (wrapIdx 200#32 et)

/-- Message rows summed into their destination nodes, from zero. -/
def aggOf (dst : IVec S800000 32) (u : Arr SE) : Arr SV :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) u

theorem allReal_gxOf {x : Arr SV} (hx : AllReal x) (src : IVec S800000 32) : AllReal (gxOf x src) := by
  intro i
  obtain ⟨p, q, rfl⟩ : ∃ p q, i = ix2 p q := ⟨i 0, i 1, eq_ix2 i⟩
  unfold gxOf
  -- the record of dimension numbers is the row-take's: offset axis 1, collapsed axis 0, start index map [0]
  have hrec : gather_S50000x128_S800000x1_S800000x128_1_0_n_n_0_1_1128
      = GatherRows.rowDims 50000 128 800000 gather_S50000x128_S800000x1_S800000x128_1_0_n_n_0_1_1128_wf := rfl
  rw [hrec, GatherRows.gather_rows_apply (by decide)]
  -- a gathered entry is an entry of the table
  exact hx _

theorem allReal_grOf {rel : Arr SR} (hr : AllReal rel) (et : IVec S800000 32) : AllReal (grOf rel et) := by
  intro i
  obtain ⟨p, q, rfl⟩ : ∃ p q, i = ix2 p q := ⟨i 0, i 1, eq_ix2 i⟩
  unfold grOf
  have hrec : gather_S200x128_S800000x1_S800000x128_1_0_n_n_0_1_1128
      = GatherRows.rowDims 200 128 800000 gather_S200x128_S800000x1_S800000x128_1_0_n_n_0_1_1128_wf := rfl
  rw [hrec, GatherRows.gather_rows_apply (by decide)]
  exact hr _

theorem allReal_aggOf (dst : IVec S800000 32) {u : Arr SE} (hu : AllReal u) : AllReal (aggOf dst u) := by
  intro i
  obtain ⟨g, q, rfl⟩ : ∃ g q, i = ix2 g q := ⟨i 0, i 1, eq_ix2 i⟩
  unfold aggOf
  -- entry (g, q) is the accumulator's entry plus column q of every message row whose destination is g
  rw [Cert.SegmentSum.scatterAdd_rows_apply _ rfl rfl rfl rfl]
  refine IsReal.add ?_ (IsReal.sum _ _ fun n _ => IsReal.ite (hu _) IsReal.zero)
  -- the accumulator is the scalar zero at every entry
  show IsReal (Ideal.ofBits .f32 0x00000000#32)
  rw [Ideal.ofBits_zero_f32]
  exact IsReal.zero

end Cert.ReferenceIdeal.Hand

end
-- ==== Proof.RefDefs.lean ====
/-
  The reference program's host operations grouped into five pure functions of arrays, term for term as the program
  applies them: the messages (two slices of the edge features, each times its weight, concatenated, scaled by the
  edge norm), the node array before normalisation, the batch mean and the variance as the mean of squared deviations
  (divided by `50000 - 0` behind a guard `50000 - 0 > 0` whose other branch is never taken), the normalised output, and
  the relation output. `refLayer` composes them as @main does.
-/
import proofs.«152699_j14370960573129_1_alg».proof.Proof.Gen.ReferenceIdeal
import proofs.«152699_j14370960573129_1_alg».proof.Proof.Spec
import proofs.«152699_j14370960573129_1_alg».proof.Proof.RefTerms

noncomputable section

namespace Cert.ReferenceIdeal.Hand

open Idealize.ShloMosaic Idealize.ShloMosaic.ValueIdx Cert.ReferenceIdeal Cert.ReferenceIdeal.Gen Cert.RelConv

/-- `concat (ed[:400000] @ inW, ed[400000:] @ outW) * norm[:, None]`. -/
def refMsg (ed : Arr SE) (inW outW : Arr SW) (en : FVec Ideal S800000 .f32) : Arr SE :=
  mulf (concatenate S800000x128 0
      [⟨S400000x128, Host.dotGeneral dot_S400000x128_S128x128_S400000x128_1_0_0_1_n_n none
          (extractStridedSlice S400000x128 ![0, 0] ed slices_S800000x128_S400000x128_0_0) inW⟩,
       ⟨S400000x128, Host.dotGeneral dot_S400000x128_S128x128_S400000x128_1_0_0_1_n_n none
          (extractStridedSlice S400000x128 ![400000, 0] ed slices_S800000x128_S400000x128_400000_0) outW⟩]
      concatenates_S400000x128_S400000x128_S800000x128_d0)
    (broadcastInDim S800000x128 ![0, 1] bcast_S800000x1_S800000x128_0_1
      (broadcastInDim S800000x1 ![0] bcast_S800000_S800000x1_0 en))

/-- A `[128]` vector broadcast down the 50000 rows. -/
def downRows (v : FVec Ideal S128 .f32) : Arr SV :=
  broadcastInDim S50000x128 ![0, 1] bcast_S1x128_S50000x128_0_1 (broadcastInDim S1x128 ![1] bcast_S128_S1x128_1 v)

/-- `(hagg + (x * loopRel) @ loopW) * f32(1/3) + bias`. -/
def refHpre (hagg x : Arr SV) (lr : Arr SRow) (lw : Arr SW) (bias : FVec Ideal S128 .f32) : Arr SV :=
  addf (mulf (addf hagg (Host.dotGeneral dot_S50000x128_S128x128_S50000x128_1_0_0_1_n_n none
        (mulf x (broadcastInDim S50000x128 ![0, 1] bcast_S1x128_S50000x128_0_1 lr)) lw))
      (broadcastInDim S50000x128 ![] bcast_S_S50000x128 (constant S_ .f32 0x3EAAAAAB#32)))
    (downRows bias)

/-- The column sums over the nodes, from zero. -/
def refColSum (h : Arr SV) : FVec Ideal S128 .f32 :=
  Host.reduceAdd h (constant S_ .f32 0x00000000#32) reducesTo_S50000x128_S128_d0 h_S_

/-- The batch mean. -/
def refMean (h : Arr SV) : FVec Ideal S128 .f32 :=
  Host.divf (refColSum h) (broadcastInDim S128 ![] bcast_S_S128 (constant S_ .f32 0x47435000#32))

/-- The deviations from the mean, the mean recomputed as a `[1, 128]` row. -/
def refDev (h : Arr SV) : Arr SV :=
  subf h (broadcastInDim S50000x128 ![0, 1] bcast_S1x128_S50000x128_0_1
    (Host.divf (broadcastInDim S1x128 ![1] bcast_S128_S1x128_1 (refColSum h))
      (broadcastInDim S1x128 ![] bcast_S_S1x128 (constant S_ .f32 0x47435000#32))))

/-- The divisor `50000 - ddof` with `ddof` the integer word zero. -/
def refCount : FVec Ideal S_ .f32 :=
  subf (constant S_ .f32 0x47435000#32) (sitofp .f32 (constantI S_ 32 0#32))

/-- The variance: the mean of squared deviations where the divisor is positive, the not-a-number word elsewhere. -/
def refVar (h : Arr SV) : FVec Ideal S128 .f32 :=
  select (broadcastInDim S128 ![] bcast_S_S128 (cmpf .ogt refCount (constant S_ .f32 0x00000000#32)))
    (Host.divf (refColSum (mulf (refDev h) (refDev h))) (broadcastInDim S128 ![] bcast_S_S128 refCount))
    (broadcastInDim S128 ![] bcast_S_S128 (constant S_ .f32 0x7FC00000#32))

/-- `relu ((h - mean) * rsqrt (var + eps) * gamma + beta)`. -/
def refOut (h : Arr SV) (g b : FVec Ideal S128 .f32) : Arr SV :=
  maximumf
    (addf (mulf (mulf (subf h (downRows (refMean h)))
        (downRows (Host.rsqrt (addf (refVar h) (broadcastInDim S128 ![] bcast_S_S128 (constant S_ .f32 0x3727C5AC#32))))))
        (downRows g)) (downRows b))
    (broadcastInDim S50000x128 ![] bcast_S_S50000x128 (constant S_ .f32 0x00000000#32))

/-- `rel @ w`. -/
def refRel (rel : Arr SR) (w : Arr SW) : Arr SR :=
  Host.dotGeneral dot_S200x128_S128x128_S200x128_1_0_0_1_n_n none rel w

/-- The node output as @main composes it from the argument arrays. -/
def refLayer (x : Arr SV) (rel : Arr SR) (en : FVec Ideal S800000 .f32) (inW outW lw : Arr SW) (lr : Arr SRow)
    (bias g b : FVec Ideal S128 .f32) (et src dst : IVec S800000 32) : Arr SV :=
  refOut (refHpre (aggOf dst (refMsg (mulf (gxOf x src) (grOf rel et)) inW outW en)) x lr lw bias) g b

end Cert.ReferenceIdeal.Hand

end
-- ==== Proof.KEntry.lean ====
/-
  The type of "the TensorCore's buffer contents when a region is entered", at the ideal values: every region's value
  lemma is stated at an arbitrary such contents.
-/
import proofs.«152699_j14370960573129_1_alg».proof.Proof.Gen.KernelIdeal
import Idealize.ShloMosaic.PureOps.Ideal

noncomputable section

namespace Cert.KernelIdeal.Hand

open Idealize.ShloMosaic Idealize.ShloMosaic.TcCoe Idealize.SL.Sem Cert.KernelIdeal

/-- The TensorCore's buffer contents when a region is entered, at the ideal values. -/
abbrev Entry : Type := (c : Dev nD) → (b : Ref sig .tc) → Buf (Elt Ideal) ((c : Thread nD τ).loc b)

end Cert.KernelIdeal.Hand

end
-- ==== Proof.KHost.lean ====
/-
  What the host operations between the regions leave in the buffers each region reads, and the argument arrays read
  back to the launch memory at each region's entry.
-/
import proofs.«152699_j14370960573129_1_alg».proof.Proof.Gen.KernelIdeal.Frame
import proofs.«152699_j14370960573129_1_alg».proof.Proof.Spec
import proofs.«152699_j14370960573129_1_alg».proof.Proof.KernelTerms
import proofs.«152699_j14370960573129_1_alg».proof.Proof.KEntry
import Idealize.ShloMosaic.Lib.Pipeline.Value
import Idealize.ShloMosaic.Lib.StableHlo.Run
import Idealize.ShloMosaic.Lib.ValueLayout

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.RelConv

variable (m : (ℓ : Loc nD τ sig) → Buf (Elt Ideal) ℓ) (ρ : Dev nD → PrngReg)

/-- An argument array as launched. -/
abbrev arg (c : Dev nD) (b : Ref sig .tc) : Buf (Elt Ideal) ((c : Thread nD τ).loc b) := m ((c : Thread nD τ).loc b)

/-- A stretch of host operations leaves a buffer that none of them writes as it found it: the goal is read as
    "the contents after the stretch at this buffer are the contents before", and each operation's result buffer is told
    apart from the buffer in question. -/
local macro "stretch_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## An argument read back to the launch memory

No host operation writes an argument and no region writes one, so the fold at an argument's buffer walks back to the
launch memory: through a stretch because none of its operations writes the buffer, through a region's exit because the
buffer is none of the region's arrays. -/

/-- An argument the first stretch does not write, at region 0's entry. -/
theorem host_W1_arg (c : Dev nD) (b : Ref sig .tc)
    (h0 : StableHlo.after hostOps0 (W0 m ρ c) (Proc.devRef .tc b) = W0 m ρ c (Proc.devRef .tc b)) :
    W1 m ρ c (Proc.devRef .tc b) = arg m c b := h0

/-- An argument that is none of region 0's arrays, at region 0's exit. -/
theorem host_W2_arg (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = arg m c b :=
  (W2_of_ne m ρ c b hb).trans (host_W1_arg m ρ c b h0)

/-- The same at region 1's entry. -/
theorem host_W3_arg (c : Dev nD) (b : Ref sig .tc) (hb : ∀ w, Pipeline.arrRef spec0 w ≠ b)
    (h0 : StableHlo.after hostOps0 (W0 m ρ c) (Proc.devRef .tc b) = W0 m ρ c (Proc.devRef .tc b))
    (h1 : StableHlo.after hostOps1 (W2 m ρ c) (Proc.devRef .tc b) = W2 m ρ c (Proc.devRef .tc b)) :
    W3 m ρ c (Proc.devRef .tc b) = arg m c b :=
  h1.trans (host_W2_arg m ρ c b hb h0)

/-- An argument that is none of region 0's or region 1's arrays, at region 1's exit. -/
theorem host_W4_arg (c : Dev nD) (b : Ref sig .tc) (hb : ∀ w, Pipeline.arrRef spec0 w ≠ b) (hb1 : ∀ w, Pipeline.arrRef spec1 w ≠ b)
    (h0 : StableHlo.after hostOps0 (W0 m ρ c) (Proc.devRef .tc b) = W0 m ρ c (Proc.devRef .tc b))
    (h1 : StableHlo.after hostOps1 (W2 m ρ c) (Proc.devRef .tc b) = W2 m ρ c (Proc.devRef .tc b)) :
    W4 m ρ c (Proc.devRef .tc b) = arg m c b :=
  (W4_of_ne m ρ c b hb1).trans (host_W3_arg m ρ c b hb h0 h1)

/-- The same at region 2's exit, which is region 3's entry. -/
theorem host_W6_arg (c : Dev nD) (b : Ref sig .tc) (hb : ∀ w, Pipeline.arrRef spec0 w ≠ b) (hb1 : ∀ w, Pipeline.arrRef spec1 w ≠ b)
    (hb2 : ∀ w, Pipeline.arrRef spec2 w ≠ b)
    (h0 : StableHlo.after hostOps0 (W0 m ρ c) (Proc.devRef .tc b) = W0 m ρ c (Proc.devRef .tc b))
    (h1 : StableHlo.after hostOps1 (W2 m ρ c) (Proc.devRef .tc b) = W2 m ρ c (Proc.devRef .tc b))
    (h2 : StableHlo.after hostOps2 (W4 m ρ c) (Proc.devRef .tc b) = W4 m ρ c (Proc.devRef .tc b)) :
    W6 m ρ c (Proc.devRef .tc b) = arg m c b :=
  (W6_of_ne m ρ c b hb2).trans (h2.trans (host_W4_arg m ρ c b hb hb1 h0 h1))

/-! ## Rows and columns read at an index -/

/-- Every index of a `[1, 128]` row is `(0, j)`. -/
theorem host_row_idx (i : SRow.Idx) : i = ix2 (0 : Fin 1) (i 1 : Fin 128) :=
  (eq_ix2 i).trans (congrArg (fun a : Fin 1 => ix2 a (i 1 : Fin 128)) (Subsingleton.elim _ _))

/-- A `[128]` vector cast to a `[1, 128]` row reads, at `(0, j)`, the vector at `j`. -/
theorem host_shapeCast_vec_row (g : FVec Ideal SVec .f32) (h : SVec.ShapeCasts SRow) : shapeCast SRow g h = rowOfVec g := by
  funext i
  show shapeCast SRow g h i = g (ix1 (i 1 : Fin 128))
  exact (congrArg (shapeCast SRow g h) (host_row_idx i)).trans (shapeCast_a_1a_apply g h 0 (i 1 : Fin 128))

/-- A per-edge vector laid out as a column and then repeated along 128 columns reads, at `(e, j)`, the vector at `e`. -/
theorem host_bcast_edge_apply (en : FVec Ideal SEdge .f32) (i : SE.Idx) :
    broadcastInDim S800000x128 ![0, 1] bcast_S800000x1_S800000x128_0_1
      (broadcastInDim S800000x1 ![0] bcast_S800000_S800000x1_0 en) i = en (ix1 (i 0 : Fin 800000)) := by
  have e1 := broadcastInDim_apply ![0, 1] bcast_S800000x1_S800000x128_0_1
      (broadcastInDim S800000x1 ![0] bcast_S800000_S800000x1_0 en) i (ix2 (i 0 : Fin 800000) (0 : Fin 1)) (by
    intro a
    match a with
    | ⟨0, _⟩ => rfl
    | ⟨1, _⟩ => rfl)
  have e2 := broadcastInDim_apply ![0] bcast_S800000_S800000x1_0 en (ix2 (i 0 : Fin 800000) (0 : Fin 1))
      (ix1 (i 0 : Fin 800000)) (by
    intro a
    match a with
    | ⟨0, _⟩ => rfl)
  exact e1.trans e2

/-! ## Region 0's entry -/

theorem entry0_feat (c : Dev nD) :
    (V1 m ρ c main_v17 : Arr SE) = scaleEdges (prodE (gxOf (arg m c main_arg0) (arg m c main_arg12)) (grOf (arg m c main_arg1) (arg m c main_arg11))) (arg m c main_arg2) := by
  show StableHlo.after hostOps0 (W0 m ρ c) (Proc.devRef .tc main_v17) = _
  after_results_simp
  funext i
  show (gxOf (arg m c main_arg0) (arg m c main_arg12) i * grOf (arg m c main_arg1) (arg m c main_arg11) i)
      * (broadcastInDim S800000x128 ![0, 1] bcast_S800000x1_S800000x128_0_1
          (broadcastInDim S800000x1 ![0] bcast_S800000_S800000x1_0 (arg m c main_arg2)) i)
    = (gxOf (arg m c main_arg0) (arg m c main_arg12) i * grOf (arg m c main_arg1) (arg m c main_arg11) i)
      * (arg m c main_arg2 : FVec Ideal SEdge .f32) (ix1 (i 0 : Fin 800000))
  rw [host_bcast_edge_apply]
theorem entry0_inW (c : Dev nD) : V1 m ρ c main_arg3 = arg m c main_arg3 := by
  exact host_W1_arg m ρ c main_arg3 (by stretch_keeps hostOps0)
theorem entry0_outW (c : Dev nD) : V1 m ρ c main_arg4 = arg m c main_arg4 := by
  exact host_W1_arg m ρ c main_arg4 (by stretch_keeps hostOps0)

/-! ## Region 1's entry -/

theorem entry1_agg (c : Dev nD) :
    (V3 m ρ c main_v21 : Arr SV) = aggOf (arg m c main_arg13) (W2 m ρ c (Proc.devRef .tc main_v18)) := by
  show StableHlo.after hostOps1 (W2 m ρ c) (Proc.devRef .tc main_v21) = _
  after_results
  exact congrArg (fun d : IVec S800000 32 => aggOf d (W2 m ρ c (Proc.devRef .tc main_v18)))
    (host_W2_arg m ρ c main_arg13 (by decide) (by stretch_keeps hostOps0))
theorem entry1_bias (c : Dev nD) : (V3 m ρ c main_v22 : Arr SRow) = rowOfVec (arg m c main_arg8) := by
  show StableHlo.after hostOps1 (W2 m ρ c) (Proc.devRef .tc main_v22) = _
  after_results
  exact (host_shapeCast_vec_row (W2 m ρ c (Proc.devRef .tc main_arg8)) shapeCasts_S128_S1x128).trans
    (congrArg rowOfVec (host_W2_arg m ρ c main_arg8 (by decide) (by stretch_keeps hostOps0)))
theorem entry1_x (c : Dev nD) : V3 m ρ c main_arg0 = arg m c main_arg0 := by
  exact host_W3_arg m ρ c main_arg0 (by decide) (by stretch_keeps hostOps0) (by stretch_keeps hostOps1)
theorem entry1_loopRel (c : Dev nD) : V3 m ρ c main_arg7 = arg m c main_arg7 := by
  exact host_W3_arg m ρ c main_arg7 (by decide) (by stretch_keeps hostOps0) (by stretch_keeps hostOps1)
theorem entry1_loopW (c : Dev nD) : V3 m ρ c main_arg5 = arg m c main_arg5 := by
  exact host_W3_arg m ρ c main_arg5 (by decide) (by stretch_keeps hostOps0) (by stretch_keeps hostOps1)

/-! ## Region 2's entry -/

theorem entry2_h (c : Dev nD) : V5 m ρ c main_v23_0 = W4 m ρ c (Proc.devRef .tc main_v23_0) := by
  show StableHlo.after hostOps2 (W4 m ρ c) (Proc.devRef .tc main_v23_0) = _
  stretch_keeps hostOps2
/-- The mean row: the column sums over 50000. -/
theorem entry2_mean (c : Dev nD) :
    (V5 m ρ c main_v25 : Arr SRow) = rowOf fun j => Ideal.div ((W4 m ρ c (Proc.devRef .tc main_v23_1) : Arr SRow) (ix2 (0 : Fin 1) j)) nNodes := by
  show StableHlo.after hostOps2 (W4 m ρ c) (Proc.devRef .tc main_v25) = _
  after_results
  funext i
  refine Eq.trans ?_ (congrArg (fun k : SRow.Idx =>
    Ideal.div ((W4 m ρ c (Proc.devRef .tc main_v23_1) : Arr SRow) k) nNodes) (host_row_idx i))
  rfl
/-- The inverse standard deviation row, from the two accumulators. -/
theorem entry2_invStd (c : Dev nD) :
    (V5 m ρ c main_v32 : Arr SRow) = invStd fun j =>
      Ideal.div ((W4 m ρ c (Proc.devRef .tc main_v23_2) : Arr SRow) (ix2 (0 : Fin 1) j)) nNodes
        - Ideal.div ((W4 m ρ c (Proc.devRef .tc main_v23_1) : Arr SRow) (ix2 (0 : Fin 1) j)) nNodes
          * Ideal.div ((W4 m ρ c (Proc.devRef .tc main_v23_1) : Arr SRow) (ix2 (0 : Fin 1) j)) nNodes := by
  show StableHlo.after hostOps2 (W4 m ρ c) (Proc.devRef .tc main_v32) = _
  after_results
  funext i
  refine Eq.trans ?_ (congrArg (fun k : SRow.Idx =>
    Ideal.rsqrt ((Ideal.div ((W4 m ρ c (Proc.devRef .tc main_v23_2) : Arr SRow) k) nNodes
        - Ideal.div ((W4 m ρ c (Proc.devRef .tc main_v23_1) : Arr SRow) k) nNodes
          * Ideal.div ((W4 m ρ c (Proc.devRef .tc main_v23_1) : Arr SRow) k) nNodes) + eps)) (host_row_idx i))
  rfl
theorem entry2_gamma (c : Dev nD) : (V5 m ρ c main_v33 : Arr SRow) = rowOfVec (arg m c main_arg9) := by
  show StableHlo.after hostOps2 (W4 m ρ c) (Proc.devRef .tc main_v33) = _
  after_results
  exact (host_shapeCast_vec_row (W4 m ρ c (Proc.devRef .tc main_arg9)) shapeCasts_S128_S1x128).trans
    (congrArg rowOfVec (host_W4_arg m ρ c main_arg9 (by decide) (by decide) (by stretch_keeps hostOps0) (by stretch_keeps hostOps1)))
theorem entry2_beta (c : Dev nD) : (V5 m ρ c main_v34 : Arr SRow) = rowOfVec (arg m c main_arg10) := by
  show StableHlo.after hostOps2 (W4 m ρ c) (Proc.devRef .tc main_v34) = _
  after_results
  exact (host_shapeCast_vec_row (W4 m ρ c (Proc.devRef .tc main_arg10)) shapeCasts_S128_S1x128).trans
    (congrArg rowOfVec (host_W4_arg m ρ c main_arg10 (by decide) (by decide) (by stretch_keeps hostOps0) (by stretch_keeps hostOps1)))

/-! ## Region 3's entry -/

theorem entry3_rel (c : Dev nD) : V6 m ρ c main_arg1 = arg m c main_arg1 := by
  exact host_W6_arg m ρ c main_arg1 (by decide) (by decide) (by decide) (by stretch_keeps hostOps0) (by stretch_keeps hostOps1)
    (by stretch_keeps hostOps2)
theorem entry3_wRel (c : Dev nD) : V6 m ρ c main_arg6 = arg m c main_arg6 := by
  exact host_W6_arg m ρ c main_arg6 (by decide) (by decide) (by decide) (by stretch_keeps hostOps0) (by stretch_keeps hostOps1)
    (by stretch_keeps hostOps2)

end Cert.KernelIdeal.Hand

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.KReg0.lean ====
/-
  The first region: 100 grid points, each a tile of 8000 edges. A point's output tile is its tile of edge features
  times `inW` (points 0..49, the first 400000 edges) or `outW` (points 50..99). The 100 tiles cover the
  message array, so after the region it holds `msgOf` of the features and the two weights.
-/
import proofs.«152699_j14370960573129_1_alg».proof.Proof.Gen.KernelIdeal.Frame
import proofs.«152699_j14370960573129_1_alg».proof.Proof.KEntry
import proofs.«152699_j14370960573129_1_alg».proof.Proof.Spec
import proofs.«152699_j14370960573129_1_alg».proof.Proof.LibPlainMatmul
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.RelConv

/-- A block's offset written as a vector literal is the zero offset. -/
theorem zeroOff : (![0, 0] : Fin 2 → Nat) = fun _ => 0 := funext fun a => by fin_cases a <;> rfl

section Pieces
variable {F : FTy → Type} [FloatOps F]

/-- At a point of the first half the body leaves in the output tile the product of the feature tile with the first
    weight: its one store covers the tile, and its loads read the whole staging buffers. -/
theorem storedA (c : Dev nD) (i : grid0.Coords) (a1 : Memref sig .tc .vmem S8000x128 .f32) (h1 : a1.IsWhole)
    (a2 : Memref sig .tc .vmem S128x128 .f32) (h2 : a2.IsWhole) (a3 : Memref sig .tc .vmem S128x128 .f32) (h3 : a3.IsWhole)
    (a4 : Memref sig .tc .vmem S8000x128 .f32) (h4 : a4.IsWhole) (hc0 : cond0_0 i) (hc1 : ¬cond0_1 i)
    (x0 : Vec F S8000x128 .f32) (x1 : Vec F S128x128 .f32) (x2 : Vec F S128x128 .f32) :
    out0_A_3 c i a1 h1 a2 h2 a3 h3 a4 h4 hc0 hc1 x0 x1 x2 = k0_pay2 x0 x1 := by
  unfold out0_A_3
  rw [View.read_writes_eq_canon _ _ _ (cover0_A_3 c i a1 h1 a2 h2 a3 h3 a4 h4 hc0 hc1 x0 x1 x2)]
  unfold kernelRun0_A
  dsimp only
  sl_unfold_words
  rw [View.canon_unit_zero zeroOff]
  simp only [View.readAt_eq_ld, h1.read_unread, h2.read_unread, View.ld_unit_zero (S := S8000x128) zeroOff,
    View.ld_unit_zero (S := S128x128) zeroOff]

/-- At a point of the second half it leaves the product of the feature tile with the second weight. -/
theorem storedB (c : Dev nD) (i : grid0.Coords) (a1 : Memref sig .tc .vmem S8000x128 .f32) (h1 : a1.IsWhole)
    (a2 : Memref sig .tc .vmem S128x128 .f32) (h2 : a2.IsWhole) (a3 : Memref sig .tc .vmem S128x128 .f32) (h3 : a3.IsWhole)
    (a4 : Memref sig .tc .vmem S8000x128 .f32) (h4 : a4.IsWhole) (hc0 : ¬cond0_0 i) (hc1 : cond0_1 i)
    (x0 : Vec F S8000x128 .f32) (x1 : Vec F S128x128 .f32) (x2 : Vec F S128x128 .f32) :
    out0_B_3 c i a1 h1 a2 h2 a3 h3 a4 h4 hc0 hc1 x0 x1 x2 = k0_pay3 x0 x2 := by
  unfold out0_B_3
  rw [View.read_writes_eq_canon _ _ _ (cover0_B_3 c i a1 h1 a2 h2 a3 h3 a4 h4 hc0 hc1 x0 x1 x2)]
  unfold kernelRun0_B
  dsimp only
  sl_unfold_words
  rw [View.canon_unit_zero zeroOff]
  simp only [View.readAt_eq_ld, h1.read_unread, h3.read_unread, View.ld_unit_zero (S := S8000x128) zeroOff,
    View.ld_unit_zero (S := S128x128) zeroOff]

end Pieces

/-! ## The stored product at an entry -/

/-- Entry `(r, q)` of the first half's product: the sum over `k` of feature `(r, k)` times weight `(k, q)`; the
    changes of float format are the identity on the extended reals. -/
theorem prodA_entry (x0 : Vec Ideal S8000x128 .f32) (w : Vec Ideal S128x128 .f32) (r : Fin 8000) (q : Fin 128) :
    k0_pay2 x0 w (ix2 r q) = ∑ k : Fin 128, x0 (ix2 r k) * w (ix2 k q) := by
  unfold k0_pay2 k0_pay1
  dsimp only
  rw [shapeCast_self]
  exact Cert.PlainMatmul.apply (M := 8000) (K := 128) (N := 128) none (φ₁ := .bf16) (φ₂ := .bf16) x0 w r q

/-- The same for the second half's product. -/
theorem prodB_entry (x0 : Vec Ideal S8000x128 .f32) (w : Vec Ideal S128x128 .f32) (r : Fin 8000) (q : Fin 128) :
    k0_pay3 x0 w (ix2 r q) = ∑ k : Fin 128, x0 (ix2 r k) * w (ix2 k q) := by
  unfold k0_pay3 k0_pay1
  dsimp only
  rw [shapeCast_self]
  exact Cert.PlainMatmul.apply (M := 8000) (K := 128) (N := 128) none (φ₁ := .bf16) (φ₂ := .bf16) x0 w r q

/-! ## Where a point's tiles sit -/

/-- The printed index maps over the grid: the feature tile and the output tile of point `t` are tile `t` along the
    edge axis, and each weight is one whole block. -/
theorem tileIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s feature tile at `(r, k)` is the feature array at edge `8000 t + r`. -/
theorem featTile_apply (V : Entry) (c : Dev nD) (t : Fin cfg0.N) (r : Fin 8000) (k : Fin 128) (e : Fin 800000)
    (he : e.val = t.val * 8000 + r.val) :
    (iblk0 V c 0 t : Vec Ideal S8000x128 .f32) (ix2 r k) = (V c main_v17 : Arr SE) (ix2 e k) := by
  obtain ⟨i0, i1, -⟩ := tileIdx t
  unfold iblk0
  rw [View.read_apply]
  show V c main_v17 _ = V c main_v17 _
  congr 1
  funext a
  apply Fin.ext
  match a with
  | ⟨0, _⟩ => show win0_0.index t (0 : Fin 2) * 8000 + 1 * r.val = e.val; rw [i0, he]; omega
  | ⟨1, _⟩ => show win0_0.index t (1 : Fin 2) * 128 + 1 * k.val = k.val; rw [i1]; omega

/-- The first weight's block at any point is the whole first weight. -/
theorem inWTile_apply (V : Entry) (c : Dev nD) (t : Fin cfg0.N) (k q : Fin 128) :
    (iblk0 V c 1 t : Vec Ideal S128x128 .f32) (ix2 k q) = (V c main_arg3 : Arr SW) (ix2 k q) := by
  obtain ⟨-, -, i0, i1, -⟩ := tileIdx t
  unfold iblk0
  rw [View.read_apply]
  show V c main_arg3 _ = V c main_arg3 _
  congr 1
  funext a
  apply Fin.ext
  match a with
  | ⟨0, _⟩ => show win0_1.index t (0 : Fin 2) * 128 + 1 * k.val = k.val; rw [i0]; omega
  | ⟨1, _⟩ => show win0_1.index t (1 : Fin 2) * 128 + 1 * q.val = q.val; rw [i1]; omega

/-- The second weight's block at any point is the whole second weight. -/
theorem outWTile_apply (V : Entry) (c : Dev nD) (t : Fin cfg0.N) (k q : Fin 128) :
    (iblk0 V c 2 t : Vec Ideal S128x128 .f32) (ix2 k q) = (V c main_arg4 : Arr SW) (ix2 k q) := by
  obtain ⟨-, -, -, -, i0, i1, -⟩ := tileIdx t
  unfold iblk0
  rw [View.read_apply]
  show V c main_arg4 _ = V c main_arg4 _
  congr 1
  funext a
  apply Fin.ext
  match a with
  | ⟨0, _⟩ => show win0_2.index t (0 : Fin 2) * 128 + 1 * k.val = k.val; rw [i0]; omega
  | ⟨1, _⟩ => show win0_2.index t (1 : Fin 2) * 128 + 1 * q.val = q.val; rw [i1]; omega

/-! ## What a point writes back -/

/-- The message array at an edge of the first half goes through the first weight, -/
theorem msgOf_first (ed : Arr SE) (inW outW : Arr SW) (e : Fin 800000) (q : Fin 128) (h : e.val < 400000) :
    msgOf ed inW outW (ix2 e q) = ∑ k : Fin 128, ed (ix2 e k) * inW (ix2 k q) := by
  show ∑ k : Fin 128, ed (ix2 e k) * halfW inW outW e (ix2 k q) = _
  unfold halfW
  rw [if_pos h]

/-- and at an edge of the second half through the second. -/
theorem msgOf_second (ed : Arr SE) (inW outW : Arr SW) (e : Fin 800000) (q : Fin 128) (h : ¬e.val < 400000) :
    msgOf ed inW outW (ix2 e q) = ∑ k : Fin 128, ed (ix2 e k) * outW (ix2 k q) := by
  show ∑ k : Fin 128, ed (ix2 e k) * halfW inW outW e (ix2 k q) = _
  unfold halfW
  rw [if_neg h]

/-- What the staging buffer of the output holds after point `t`, at `(r, q)`: the message array at edge `8000 t + r`.
    Points below 50 hold edges below `8000 * 50 = 400000`, so the split on the point is the split on the edge. -/
theorem held_apply (V : Entry) (c : Dev nD) (t : Fin cfg0.N) (r : Fin 8000) (q : Fin 128) (e : Fin 800000)
    (he : e.val = t.val * 8000 + r.val) :
    outsAt0 V c t.val t.isLt (ix2 r q)
      = (msgOf (V c main_v17) (V c main_arg3) (V c main_arg4) : Arr SE) (ix2 e q) := by
  have hN : t.val < 100 := lt_of_lt_of_eq t.isLt (show cfg0.N = 100 from N_0)
  by_cases h0 : t.val < 50
  · rw [outsAt0_A V c t h0 (by omega), storedA, prodA_entry, msgOf_first _ _ _ e q (by omega)]
    exact Finset.sum_congr rfl fun k _ => by rw [featTile_apply V c t r k e he, inWTile_apply V c t k q]
  · rw [outsAt0_B V c t h0 (by omega), storedB, prodB_entry, msgOf_second _ _ _ e q (by omega)]
    exact Finset.sum_congr rfl fun k _ => by rw [featTile_apply V c t r k e he, outWTile_apply V c t k q]

/-- Point `t` writes back tile `t` of the message array. -/
theorem flushed_tile (V : Entry) (c : Dev nD) (t : Fin cfg0.N) :
    (dat0 V c).flushed 3 t
      = ((cfg0.win 3).blk t).view.read (Elt Ideal) (msgOf (V c main_v17) (V c main_arg3) (V c main_arg4) : Arr SE) := by
  have hN : t.val < 100 := lt_of_lt_of_eq t.isLt (show cfg0.N = 100 from N_0)
  obtain ⟨-, -, -, -, -, -, o0, o1⟩ := tileIdx t
  show (cfg0.win 3).cut (grid0.coords t) ((dat0 V c).after 3 t) = _
  rw [after0_3]
  funext j
  obtain ⟨r, q, rfl⟩ : ∃ (r : Fin 8000) (q : Fin 128), j = ix2 r q := ⟨j 0, j 1, eq_ix2 j⟩
  rw [View.read_apply]
  have hemb : ((cfg0.win 3).blk t).view.emb (ix2 r q) = ix2 (⟨t.val * 8000 + r.val, by omega⟩ : Fin 800000) q := by
    funext a
    apply Fin.ext
    match a with
    | ⟨0, _⟩ => show win0_3.index t (0 : Fin 2) * 8000 + 1 * r.val = t.val * 8000 + r.val; rw [o0]; omega
    | ⟨1, _⟩ => show win0_3.index t (1 : Fin 2) * 128 + 1 * q.val = q.val; rw [o1]; omega
  rw [hemb]
  exact held_apply V c t r q _ rfl

/-! ## The tiles cover the array -/

/-- An edge entry is in point `t`'s tile iff each coordinate is in the tile's range on its axis. -/
theorem mem_tile (t : Fin cfg0.N) (i : S800000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v18).slice (win0_3.rect t)).set ↔ _
  rw [View.set_slice_whole, Rect.mem_set_unit]
  exact Iff.rfl

/-- Edge `e` lies in the tile of point `e / 8000`. -/
theorem tiles_cover (i : S800000x128.Idx) :
    ∃ t : Fin cfg0.N, (cfg0.win 3).flush t = true ∧ i ∈ ((cfg0.win 3).blk t).view.set := by
  have hi0 : (i 0).val < 800000 := (i 0).isLt
  have hi1 : (i 1).val < 128 := (i 1).isLt
  have hN : cfg0.N = 100 := N_0
  let t : Fin cfg0.N := ⟨(i 0).val / 8000, by rw [hN]; omega⟩
  obtain ⟨-, -, -, -, -, -, o0, o1⟩ := tileIdx t
  have ht : t.val = (i 0).val / 8000 := rfl
  refine ⟨t, flush0_3 t, ?_⟩
  rw [mem_tile]
  intro a
  match a with
  | ⟨0, _⟩ => show win0_3.index t (0 : Fin 2) * 8000 ≤ (i 0).val ∧ (i 0).val < win0_3.index t (0 : Fin 2) * 8000 + 8000; rw [o0, ht]; omega
  | ⟨1, _⟩ => show win0_3.index t (1 : Fin 2) * 128 ≤ (i 1).val ∧ (i 1).val < win0_3.index t (1 : Fin 2) * 128 + 128; rw [o1]; omega

/-- After region 0 its output array is the message array of the features it found in `main_v17` and the weights. -/
theorem region0_out (V : Entry) (c : Dev nD) :
    (dat0 (F := Ideal) V c).arrAt 3 cfg0.N = (msgOf (V c main_v17) (V c main_arg3) (V c main_arg4) : Arr SE) := by
  exact (dat0 (F := Ideal) V c).arrAt_eq_of_cover 3 (msgOf (V c main_v17) (V c main_arg3) (V c main_arg4) : Arr SE)
    (fun t _ => flushed_tile V c t) tiles_cover

end Cert.KernelIdeal.Hand

end
-- ==== Proof.KReg1.lean ====
/-
  The second region: 25 grid points, each a tile of 2000 nodes. A point writes its tile of
  `(hagg + (x * loopRel) @ loopW) * third + bias` and adds the tile's column sums, and the column sums of its squares,
  into two `[1, 128]` accumulators that are zeroed at the first point and written back after the last. So after the
  region the first output is `hpre` and the accumulators hold its column sums and sums of squares.
-/
import proofs.«152699_j14370960573129_1_alg».proof.Proof.Gen.KernelIdeal.Frame
import proofs.«152699_j14370960573129_1_alg».proof.Proof.Spec
import proofs.«152699_j14370960573129_1_alg».proof.Proof.KEntry
import proofs.«152699_j14370960573129_1_alg».proof.Proof.LibPlainMatmul
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.RelConv

/-- The node array before normalisation, from the arrays region 1 finds at its entry. -/
abbrev hpreAt (V : Entry) (c : Dev nD) : Arr SV :=
  hpre (V c main_v21) (V c main_arg0) (V c main_arg7) (V c main_arg5) (V c main_v22)

/-- A `[1, 128]` row broadcast over the 2000 rows of a tile reads the row's entry in the same column. -/
private theorem bcastRow_apply (w : FVec Ideal S1x128 .f32) (a : Fin 2000) (b : Fin 128) :
    broadcastTo S2000x128 w broadcasts_S1x128_S2000x128 (ix2 a b) = w (ix2 (0 : Fin 1) b) :=
  broadcastTo_apply w broadcasts_S1x128_S2000x128 (ix2 a b) (ix2 (0 : Fin 1) b) (fun x => by
    match x with
    | ⟨0, _⟩ => rfl
    | ⟨1, _⟩ => rfl)

/-- The tile's payload at an entry, over blocks typed as arrays of extended reals. The two shape casts are to the same
    shape; the format changes are the identity on extended reals; the product into the zero accumulator is the plain sum
    over the contraction coordinate; the broadcast scalar is the float nearest 1/3. -/
private theorem k1_pay4_at (a h : FVec Ideal S2000x128 .f32) (w u : FVec Ideal S1x128 .f32) (b : FVec Ideal S128x128 .f32)
    (r : Fin 2000) (q : Fin 128) :
    k1_pay4 (F := Ideal) a w b h u (ix2 r q)
      = (h (ix2 r q) + ∑ k : Fin 128, (a (ix2 r k) * w (ix2 (0 : Fin 1) k)) * b (ix2 k q)) * third + u (ix2 (0 : Fin 1) q) := by
  have e1 : shapeCast S2000x128 h shapeCasts_S2000x128_S2000x128 = h := shapeCast_self _ _
  have e2 : shapeCast S1x128 u shapeCasts_S1x128_S1x128 = u := shapeCast_self _ _
  have e3 : matmul (F := Ideal) dot_S2000x128_S128x128_S2000x128_1_0_0_1_n_n none
        (truncf .bf16 (mulf a (broadcastTo S2000x128 w broadcasts_S1x128_S2000x128)) bitsLt_bf16_f32)
        (truncf .bf16 b bitsLt_bf16_f32) (constant S2000x128 .f32 0x00000000#32) (ix2 r q)
      = ∑ k : Fin 128, (a (ix2 r k) * w (ix2 (0 : Fin 1) k)) * b (ix2 k q) := by
    refine (Cert.PlainMatmul.apply (M := 2000) (K := 128) (N := 128) none
      (truncf .bf16 (mulf a (broadcastTo S2000x128 w broadcasts_S1x128_S2000x128)) bitsLt_bf16_f32)
      (truncf .bf16 b bitsLt_bf16_f32) r q).trans ?_
    refine Finset.sum_congr rfl fun k _ => ?_
    exact congrArg (fun z => (a (ix2 r k) * z) * b (ix2 k q)) (bcastRow_apply w r k)
  unfold k1_pay4
  show (shapeCast S2000x128 h shapeCasts_S2000x128_S2000x128 (ix2 r q)
      + matmul (F := Ideal) dot_S2000x128_S128x128_S2000x128_1_0_0_1_n_n none
        (truncf .bf16 (mulf a (broadcastTo S2000x128 w broadcasts_S1x128_S2000x128)) bitsLt_bf16_f32)
        (truncf .bf16 b bitsLt_bf16_f32) (constant S2000x128 .f32 0x00000000#32) (ix2 r q))
        * Ideal.ofBits .f32 0x3EAAAAAB#32
      + broadcastTo S2000x128 (shapeCast S1x128 u shapeCasts_S1x128_S1x128) broadcasts_S1x128_S2000x128 (ix2 r q) = _
  rw [e1, e2, e3, bcastRow_apply u r q]
  rfl

/-- The tile the body stores, at an entry: `(hagg + sum_k (x * loopRel) * loopW) * third + bias` of the five loaded blocks. -/
theorem k1_pay4_apply (v3 : Vec Ideal S2000x128 .f32) (v4 : Vec Ideal S1x128 .f32) (v8 : Vec Ideal S128x128 .f32)
    (v11 : Vec Ideal S2000x128 .f32) (v16 : Vec Ideal S1x128 .f32) (r : Fin 2000) (q : Fin 128) :
    k1_pay4 (F := Ideal) v3 v4 v8 v11 v16 (ix2 r q)
      = (v11 (ix2 r q) + ∑ k : Fin 128, (v3 (ix2 r k) * v4 (ix2 (0 : Fin 1) k)) * v8 (ix2 k q)) * third + v16 (ix2 (0 : Fin 1) q) :=
  k1_pay4_at v3 v11 v4 v16 v8 r q

/-- The zero offsets of a whole-buffer access, as the constant function. -/
private theorem hz : (![0, 0] : Fin 2 → Nat) = fun _ => 0 := funext fun a => by fin_cases a <;> rfl

/-- At the first point the tile's staging buffer is left holding the one covering store's payload, whose loads read
    the five input buffers whole. -/
private theorem out_A_5 {F : FTy → Type} [FloatOps F] (c : Dev nD) (i : grid1.Coords) (a1 : Memref sig .tc .vmem S2000x128 .f32) (h1 : a1.IsWhole) (a2 : Memref sig .tc .vmem S2000x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond1_0 i)
    (x0 x1 : Vec F S2000x128 .f32) (x2 : Vec F S1x128 .f32) (x3 : Vec F S128x128 .f32) (x4 : Vec F S1x128 .f32) :
    out1_A_5 c i a1 h1 a2 h2 a3 h3 a4 h4 a5 h5 a6 h6 a7 h7 a8 h8 hc x0 x1 x2 x3 x4 = k1_pay4 x1 x2 x3 x0 x4 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  sl_unfold_words
  rw [View.canon_unit_zero hz]
  simp only [View.readAt_eq_ld, h1.read_unread, h2.read_unread, h3.read_unread, h4.read_unread, h5.read_unread,
    View.ld_unit_zero (S := S2000x128) hz, View.ld_unit_zero (S := S1x128) hz, View.ld_unit_zero (S := S128x128) hz]

/-- At every later point the same store leaves the same payload: the tile does not read the two accumulators. -/
private theorem out_B_5 {F : FTy → Type} [FloatOps F] (c : Dev nD) (i : grid1.Coords) (a1 : Memref sig .tc .vmem S2000x128 .f32) (h1 : a1.IsWhole) (a2 : Memref sig .tc .vmem S2000x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond1_0 i)
    (x0 x1 : Vec F S2000x128 .f32) (x2 : Vec F S1x128 .f32) (x3 : Vec F S128x128 .f32) (x4 : Vec F S1x128 .f32)
    (xo6 xo7 : Vec F S1x128 .f32) :
    out1_B_5 c i a1 h1 a2 h2 a3 h3 a4 h4 a5 h5 a6 h6 a7 h7 a8 h8 hc x0 x1 x2 x3 x4 xo6 xo7 = k1_pay4 x1 x2 x3 x0 x4 := by
  unfold out1_B_5
  rw [View.read_writes_eq_canon _ _ _ (cover1_B_5 c i a1 h1 a2 h2 a3 h3 a4 h4 a5 h5 a6 h6 a7 h7 a8 h8 hc x0 x1 x2 x3 x4 xo6 xo7)]
  unfold kernelRun1_B
  dsimp only
  sl_unfold_words
  rw [View.canon_unit_zero hz]
  simp only [View.readAt_eq_ld, h1.read_unread, h2.read_unread, h3.read_unread, h4.read_unread, h5.read_unread,
    View.ld_unit_zero (S := S2000x128) hz, View.ld_unit_zero (S := S1x128) hz, View.ld_unit_zero (S := S128x128) hz]

/-- At both kinds of point the tile's staging buffer holds the payload of that point's five input blocks. -/
private theorem outs5_eq (V : Entry) (c : Dev nD) (t : Fin cfg1.N) :
    (outsAt1 (F := Ideal) V c t.val t.isLt).1
      = k1_pay4 (F := Ideal) (iblk1 V c 1 t) (iblk1 V c 2 t) (iblk1 V c 3 t) (iblk1 V c 0 t) (iblk1 V c 4 t) := by
  by_cases h0 : t.val % 25 = 0
  · rw [outsAt1_A V c t h0]
    dsimp only
    exact out_A_5 (F := Ideal) c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t) (ms1_7 t) (hs1_7 t) ((hcond1_0 t).mpr h0)
      (iblk1 V c 0 t) (iblk1 V c 1 t) (iblk1 V c 2 t) (iblk1 V c 3 t) (iblk1 V c 4 t)
  · rw [outsAt1_B V c t h0]
    dsimp only
    exact out_B_5 (F := Ideal) c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t) (ms1_7 t) (hs1_7 t) (fun h => h0 ((hcond1_0 t).mp h))
      (iblk1 V c 0 t) (iblk1 V c 1 t) (iblk1 V c 2 t) (iblk1 V c 3 t) (iblk1 V c 4 t)
      (outsAt1 V c (t.val - 1) (Nat.lt_of_le_of_lt (Nat.sub_le _ _) t.isLt)).2.1
      (outsAt1 V c (t.val - 1) (Nat.lt_of_le_of_lt (Nat.sub_le _ _) t.isLt)).2.2

/-- The printed index maps, decided once over the grid: the two tiled inputs and the tiled output are at block row
    `t`, column block 0; the three whole inputs are at block (0, 0). -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of tile `t` is node `2000 t + r`. -/
private def nodeOf (t : Fin cfg1.N) (r : Fin 2000) : Fin 50000 :=
  ⟨t.val * 2000 + r.val, by have h1 := t.isLt; have h2 := r.isLt; have hN : cfg1.N = 25 := rfl; omega⟩

/-- The five input blocks at point `t` and the five arrays they are read off, at their literal types. -/
private abbrev blk0 (V : Entry) (c : Dev nD) (t : Fin cfg1.N) : Vec Ideal S2000x128 .f32 := iblk1 V c 0 t
private abbrev blk1 (V : Entry) (c : Dev nD) (t : Fin cfg1.N) : Vec Ideal S2000x128 .f32 := iblk1 V c 1 t
private abbrev blk2 (V : Entry) (c : Dev nD) (t : Fin cfg1.N) : Vec Ideal S1x128 .f32 := iblk1 V c 2 t
private abbrev blk3 (V : Entry) (c : Dev nD) (t : Fin cfg1.N) : Vec Ideal S128x128 .f32 := iblk1 V c 3 t
private abbrev blk4 (V : Entry) (c : Dev nD) (t : Fin cfg1.N) : Vec Ideal S1x128 .f32 := iblk1 V c 4 t
private abbrev arrH (V : Entry) (c : Dev nD) : Arr SV := V c main_v21
private abbrev arrX (V : Entry) (c : Dev nD) : Arr SV := V c main_arg0
private abbrev arrR (V : Entry) (c : Dev nD) : Arr SRow := V c main_arg7
private abbrev arrW (V : Entry) (c : Dev nD) : Arr SW := V c main_arg5
private abbrev arrB (V : Entry) (c : Dev nD) : Arr SRow := V c main_v22

/-- The aggregated tile reads the aggregated array at the tile's nodes. -/
private theorem blk0_apply (V : Entry) (c : Dev nD) (t : Fin cfg1.N) (r : Fin 2000) (q : Fin 128) :
    blk0 V c t (ix2 r q) = arrH V c (ix2 (nodeOf t r) q) := by
  obtain ⟨e0, e1, -⟩ := idx_facts t
  unfold blk0 iblk1
  rw [View.read_apply]
  refine congrArg (V c main_v21) (funext fun a => Fin.ext ?_)
  match a with
  | ⟨0, _⟩ => show win1_0.index t (0 : Fin 2) * 2000 + 1 * r.val = t.val * 2000 + r.val; rw [e0]; omega
  | ⟨1, _⟩ => show win1_0.index t (1 : Fin 2) * 128 + 1 * q.val = q.val; rw [e1]; omega

/-- The feature tile reads the feature array at the tile's nodes. -/
private theorem blk1_apply (V : Entry) (c : Dev nD) (t : Fin cfg1.N) (r : Fin 2000) (k : Fin 128) :
    blk1 V c t (ix2 r k) = arrX V c (ix2 (nodeOf t r) k) := by
  obtain ⟨-, -, e0, e1, -⟩ := idx_facts t
  unfold blk1 iblk1
  rw [View.read_apply]
  refine congrArg (V c main_arg0) (funext fun a => Fin.ext ?_)
  match a with
  | ⟨0, _⟩ => show win1_1.index t (0 : Fin 2) * 2000 + 1 * r.val = t.val * 2000 + r.val; rw [e0]; omega
  | ⟨1, _⟩ => show win1_1.index t (1 : Fin 2) * 128 + 1 * k.val = k.val; rw [e1]; omega

/-- The self-loop relation row is read whole at every point. -/
private theorem blk2_apply (V : Entry) (c : Dev nD) (t : Fin cfg1.N) (z : Fin 1) (k : Fin 128) :
    blk2 V c t (ix2 z k) = arrR V c (ix2 z k) := by
  obtain ⟨-, -, -, -, e0, e1, -⟩ := idx_facts t
  unfold blk2 iblk1
  rw [View.read_apply]
  refine congrArg (V c main_arg7) (funext fun a => Fin.ext ?_)
  match a with
  | ⟨0, _⟩ => show win1_2.index t (0 : Fin 2) * 1 + 1 * z.val = z.val; rw [e0]; omega
  | ⟨1, _⟩ => show win1_2.index t (1 : Fin 2) * 128 + 1 * k.val = k.val; rw [e1]; omega

/-- The self-loop weight is read whole at every point. -/
private theorem blk3_apply (V : Entry) (c : Dev nD) (t : Fin cfg1.N) (k : Fin 128) (q : Fin 128) :
    blk3 V c t (ix2 k q) = arrW V c (ix2 k q) := by
  obtain ⟨-, -, -, -, -, -, e0, e1, -⟩ := idx_facts t
  unfold blk3 iblk1
  rw [View.read_apply]
  refine congrArg (V c main_arg5) (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias row is read whole at every point. -/
private theorem blk4_apply (V : Entry) (c : Dev nD) (t : Fin cfg1.N) (z : Fin 1) (q : Fin 128) :
    blk4 V c t (ix2 z q) = arrB V c (ix2 z q) := by
  obtain ⟨-, -, -, -, -, -, -, -, e0, e1, -⟩ := idx_facts t
  unfold blk4 iblk1
  rw [View.read_apply]
  refine congrArg (V c main_v22) (funext fun a => Fin.ext ?_)
  match a with
  | ⟨0, _⟩ => show win1_4.index t (0 : Fin 2) * 1 + 1 * z.val = z.val; rw [e0]; omega
  | ⟨1, _⟩ => show win1_4.index t (1 : Fin 2) * 128 + 1 * q.val = q.val; rw [e1]; omega

/-- Entry `(r, q)` of the tile point `t` stores is entry `(2000 t + r, q)` of `hpre` of the five entry arrays: the
    payload's sum runs over the same products, each block read where its array is. -/
private theorem tile_entry (V : Entry) (c : Dev nD) (t : Fin cfg1.N) (r : Fin 2000) (q : Fin 128) :
    k1_pay4 (F := Ideal) (blk1 V c t) (blk2 V c t) (blk3 V c t) (blk0 V c t) (blk4 V c t) (ix2 r q)
      = hpreAt V c (ix2 (nodeOf t r) q) := by
  refine (k1_pay4_apply (blk1 V c t) (blk2 V c t) (blk3 V c t) (blk0 V c t) (blk4 V c t) r q).trans ?_
  show _ = (arrH V c (ix2 (nodeOf t r) q)
      + ∑ k : Fin 128, (arrX V c (ix2 (nodeOf t r) k) * arrR V c (ix2 (0 : Fin 1) k)) * arrW V c (ix2 k q)) * third
      + arrB V c (ix2 (0 : Fin 1) q)
  simp only [blk0_apply, blk1_apply, blk2_apply, blk3_apply, blk4_apply]

/-- WHAT POINT `t` WRITES BACK is block `t` of `hpre` of the entry arrays. -/
private theorem flushed5_eq (V : Entry) (c : Dev nD) (t : Fin cfg1.N) :
    (dat1 (F := Ideal) V c).flushed 5 t = ((cfg1.win 5).blk t).view.read (Elt Ideal) (hpreAt V c) := by
  show (cfg1.win 5).cut (grid1.coords t) ((dat1 (F := Ideal) V c).after 5 t) = _
  rw [after1_5, outs5_eq]
  obtain ⟨-, -, -, -, -, -, -, -, -, -, e0, e1⟩ := idx_facts t
  have key : ∀ j : S2000x128.Idx,
      k1_pay4 (F := Ideal) (blk1 V c t) (blk2 V c t) (blk3 V c t) (blk0 V c t) (blk4 V c t) j
        = (hpreAt V c : Arr SV) (((cfg1.win 5).blk t).view.emb j) := by
    intro j
    obtain ⟨r, q, rfl⟩ : ∃ (r : Fin 2000) (q : Fin 128), j = ix2 r q := ⟨j 0, j 1, eq_ix2 j⟩
    refine (tile_entry V c t r q).trans (congrArg (hpreAt V c : Arr SV) (funext fun a => Fin.ext ?_))
    match a with
    | ⟨0, _⟩ => show t.val * 2000 + r.val = win1_5.index t (0 : Fin 2) * 2000 + 1 * r.val; rw [e0]; omega
    | ⟨1, _⟩ => show q.val = win1_5.index t (1 : Fin 2) * 128 + 1 * q.val; rw [e1]; omega
  exact funext key

/-- An index of the node array is in point `t`'s block iff each coordinate is in the block's range on its axis. -/
private theorem mem_blk5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v23_0).slice (win1_5.rect t)).set ↔ _
  rw [View.set_slice_whole, Rect.mem_set_unit]
  exact Iff.rfl

/-- Node `v` lies in the tile of point `v / 2000`, which is written back: the tiles cover the array. -/
private theorem cover5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := rfl
  refine ⟨⟨(i 0).val / 2000, by omega⟩, flush1_5 _, ?_⟩
  obtain ⟨-, -, -, -, -, -, -, -, -, -, e0, e1⟩ := idx_facts ⟨(i 0).val / 2000, by omega⟩
  rw [mem_blk5]
  intro a
  match a with
  | ⟨0, _⟩ =>
    show win1_5.index ⟨(i 0).val / 2000, _⟩ (0 : Fin 2) * 2000 ≤ (i 0).val ∧ (i 0).val < win1_5.index ⟨(i 0).val / 2000, _⟩ (0 : Fin 2) * 2000 + 2000
    rw [e0]; dsimp only; omega
  | ⟨1, _⟩ =>
    show win1_5.index ⟨(i 0).val / 2000, _⟩ (1 : Fin 2) * 128 ≤ (i 1).val ∧ (i 1).val < win1_5.index ⟨(i 0).val / 2000, _⟩ (1 : Fin 2) * 128 + 128
    rw [e1]; omega

/-- After the region the first output array is `hpre` of the five arrays the region found at its entry: every point
    writes back its tile of it, and the 25 tiles cover the 50000 nodes. -/
theorem region1_hpre (V : Entry) (c : Dev nD) :
    (dat1 (F := Ideal) V c).arrAt 5 cfg1.N = (hpreAt V c : Arr SV) :=
  (dat1 (F := Ideal) V c).arrAt_eq_of_cover 5 (hpreAt V c) (fun t _ => flushed5_eq V c t) cover5

end Cert.KernelIdeal.Hand

end
-- ==== Proof.KReg1Acc.lean ====
/-
  The second region's two accumulators. Each is zeroed at the first of the 25 points, every point adds its tile's column
  sums (of the tile, and of the tile's squares) to what the point before left, and the buffer is written back after the
  last point. Over the extended reals addition is associative and commutative, so the 25 partial sums of 2000 rows
  each are the sum over all 50000 rows.
-/
import proofs.«152699_j14370960573129_1_alg».proof.Proof.Gen.KernelIdeal.Frame
import proofs.«152699_j14370960573129_1_alg».proof.Proof.Spec
import proofs.«152699_j14370960573129_1_alg».proof.Proof.KReg1
import proofs.«152699_j14370960573129_1_alg».proof.Proof.KEntry
import Idealize.ShloMosaic.Lib.Pipeline.Value
import Idealize.ShloMosaic.PureOps.Ideal.Laws
import Mathlib.Algebra.BigOperators.Group.Finset.Basic
import Mathlib.Data.Fintype.BigOperators

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.RelConv

section Pieces
variable {F : FTy → Type} [FloatOps F]

/-- The zero offsets of an access to a whole buffer. -/
theorem acc_hz : (![0, 0] : Fin 2 → Nat) = fun _ => 0 := funext fun a => by fin_cases a <;> rfl

/-- At the first point the first accumulator ends holding the update of the zero row just stored: what the update loads is that zero row. -/
theorem acc_out_A_6 (c : Dev nD) (i : grid1.Coords) (a1 : Memref sig .tc .vmem S2000x128 .f32) (h1 : a1.IsWhole) (a2 : Memref sig .tc .vmem S2000x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond1_0 i)
    (x0 : Vec F S2000x128 .f32) (x1 : Vec F S2000x128 .f32) (x2 : Vec F S1x128 .f32) (x3 : Vec F S128x128 .f32) (x4 : Vec F S1x128 .f32) :
    out1_A_6 c i a1 h1 a2 h2 a3 h3 a4 h4 a5 h5 a6 h6 a7 h7 a8 h8 hc x0 x1 x2 x3 x4 = k1_pay5 x1 x2 x3 x0 x4 (k1_pay2 (F := F)) := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) acc_hz]
  simp only [View.readAt_eq_ld, h1.read_unread, h2.read_unread, h3.read_unread, h4.read_unread, h5.read_unread, View.ld_unit_zero (S := S2000x128) acc_hz, View.ld_unit_zero (S := S1x128) acc_hz, View.ld_unit_zero (S := S128x128) acc_hz, View.readCov_unit_zero (S := S1x128) _ acc_hz]

/-- At the first point the second accumulator ends holding the update of the zero row just stored. -/
theorem acc_out_A_7 (c : Dev nD) (i : grid1.Coords) (a1 : Memref sig .tc .vmem S2000x128 .f32) (h1 : a1.IsWhole) (a2 : Memref sig .tc .vmem S2000x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond1_0 i)
    (x0 : Vec F S2000x128 .f32) (x1 : Vec F S2000x128 .f32) (x2 : Vec F S1x128 .f32) (x3 : Vec F S128x128 .f32) (x4 : Vec F S1x128 .f32) :
    out1_A_7 c i a1 h1 a2 h2 a3 h3 a4 h4 a5 h5 a6 h6 a7 h7 a8 h8 hc x0 x1 x2 x3 x4 = k1_pay1 (k1_pay6 (k1_pay3 (F := F))) (k1_pay7 x1 x2 x3 x0 x4) := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) acc_hz]
  simp only [View.readAt_eq_ld, h1.read_unread, h2.read_unread, h3.read_unread, h4.read_unread, h5.read_unread, View.ld_unit_zero (S := S2000x128) acc_hz, View.ld_unit_zero (S := S1x128) acc_hz, View.ld_unit_zero (S := S128x128) acc_hz, View.readCov_unit_zero (S := S1x128) _ acc_hz]

/-- At a later point the first accumulator ends holding the update of what it held when the point began. -/
theorem acc_out_B_6 (c : Dev nD) (i : grid1.Coords) (a1 : Memref sig .tc .vmem S2000x128 .f32) (h1 : a1.IsWhole) (a2 : Memref sig .tc .vmem S2000x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond1_0 i)
    (x0 : Vec F S2000x128 .f32) (x1 : Vec F S2000x128 .f32) (x2 : Vec F S1x128 .f32) (x3 : Vec F S128x128 .f32) (x4 : Vec F S1x128 .f32) (xo6 xo7 : Vec F S1x128 .f32) :
    out1_B_6 c i a1 h1 a2 h2 a3 h3 a4 h4 a5 h5 a6 h6 a7 h7 a8 h8 hc x0 x1 x2 x3 x4 xo6 xo7 = k1_pay5 x1 x2 x3 x0 x4 xo6 := by
  unfold out1_B_6
  rw [View.read_writes_eq_canon _ _ _ (cover1_B_6 c i a1 h1 a2 h2 a3 h3 a4 h4 a5 h5 a6 h6 a7 h7 a8 h8 hc x0 x1 x2 x3 x4 xo6 xo7)]
  unfold kernelRun1_B
  dsimp only
  sl_unfold_words
  rw [View.canon_unit_zero acc_hz]
  simp only [View.readAt_eq_ld, h1.read_unread, h2.read_unread, h3.read_unread, h4.read_unread, h5.read_unread, h7.read_unread, h8.read_unread, View.ld_unit_zero (S := S2000x128) acc_hz, View.ld_unit_zero (S := S1x128) acc_hz, View.ld_unit_zero (S := S128x128) acc_hz]

/-- At a later point the second accumulator ends holding the update of what it held when the point began. -/
theorem acc_out_B_7 (c : Dev nD) (i : grid1.Coords) (a1 : Memref sig .tc .vmem S2000x128 .f32) (h1 : a1.IsWhole) (a2 : Memref sig .tc .vmem S2000x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond1_0 i)
    (x0 : Vec F S2000x128 .f32) (x1 : Vec F S2000x128 .f32) (x2 : Vec F S1x128 .f32) (x3 : Vec F S128x128 .f32) (x4 : Vec F S1x128 .f32) (xo6 xo7 : Vec F S1x128 .f32) :
    out1_B_7 c i a1 h1 a2 h2 a3 h3 a4 h4 a5 h5 a6 h6 a7 h7 a8 h8 hc x0 x1 x2 x3 x4 xo6 xo7 = k1_pay1 (k1_pay6 xo7) (k1_pay7 x1 x2 x3 x0 x4) := by
  unfold out1_B_7
  rw [View.read_writes_eq_canon _ _ _ (cover1_B_7 c i a1 h1 a2 h2 a3 h3 a4 h4 a5 h5 a6 h6 a7 h7 a8 h8 hc x0 x1 x2 x3 x4 xo6 xo7)]
  unfold kernelRun1_B
  dsimp only
  sl_unfold_words
  rw [View.canon_unit_zero acc_hz]
  simp only [View.readAt_eq_ld, h1.read_unread, h2.read_unread, h3.read_unread, h4.read_unread, h5.read_unread, h7.read_unread, h8.read_unread, View.ld_unit_zero (S := S2000x128) acc_hz, View.ld_unit_zero (S := S1x128) acc_hz, View.ld_unit_zero (S := S128x128) acc_hz]

end Pieces

section Values

/-- The index a reduction over the rows inserts: row `r` of column `q`. -/
theorem acc_lift_rows (h : S2000x128.Reduces [0] S128) (q : Fin 128) (r : Fin 2000) :
    h.lift (ix1 q) r = ix2 r q := by
  funext a
  apply Fin.ext
  match a with
  | ⟨0, _⟩ => rfl
  | ⟨1, _⟩ => rfl

/-- A column sum laid out as a row: the sum over the tile's 2000 rows. -/
theorem acc_colsum_row (src : FVec Ideal S2000x128 .f32) (h : S2000x128.Reduces [0] S128) (hφ : FKind.Formats .f32)
    (hacc : (0x00000000#32 : BitVec 32) = FKind.add.neutral .f32 hφ) (hc : S128.ShapeCasts S1x128) (q : Fin 128) :
    shapeCast S1x128 (multiReduction (F := Ideal) .add [0] S128 src 0x00000000#32 h hφ hacc) hc (ix2 (0 : Fin 1) q)
      = ∑ r : Fin 2000, src (ix2 r q) := by
  refine (shapeCast_apply _ hc (ix2 (0 : Fin 1) q) (ix1 q) ?_).trans ?_
  · rw [Shape.rowMajor_val_one, Shape.rowMajor_val_two]
    show q.val = 0 * 128 + q.val
    omega
  · refine (Ideal.multiReduction_add_single src 0x00000000#32 h hφ hacc (ix1 q)).trans ?_
    exact Finset.sum_congr rfl fun r _ => congrArg src (acc_lift_rows h q r)

/-- The first accumulator's update at column `q`: the loaded value plus the sum of the tile's column `q` over its 2000 rows. -/
theorem acc_sum_pay_apply (v3 : Vec Ideal S2000x128 .f32) (v4 : Vec Ideal S1x128 .f32) (v8 : Vec Ideal S128x128 .f32)
    (v11 : Vec Ideal S2000x128 .f32) (v16 : Vec Ideal S1x128 .f32) (v21 : Vec Ideal S1x128 .f32) (q : Fin 128) :
    k1_pay5 (F := Ideal) v3 v4 v8 v11 v16 v21 (ix2 (0 : Fin 1) q)
      = v21 (ix2 (0 : Fin 1) q) + ∑ r : Fin 2000, k1_pay4 (F := Ideal) v3 v4 v8 v11 v16 (ix2 r q) := by
  unfold k1_pay5
  dsimp only
  exact congrArg₂ (· + ·) (congrFun (shapeCast_self v21 _) (ix2 (0 : Fin 1) q))
    (acc_colsum_row (k1_pay4 (F := Ideal) v3 v4 v8 v11 v16) _ _ _ _ q)

/-- The second accumulator's update at column `q`: the loaded value plus the sum of the squares of the tile's column `q`. -/
theorem acc_sumsq_pay_apply (v3 : Vec Ideal S2000x128 .f32) (v4 : Vec Ideal S1x128 .f32) (v8 : Vec Ideal S128x128 .f32)
    (v11 : Vec Ideal S2000x128 .f32) (v16 : Vec Ideal S1x128 .f32) (v27 : Vec Ideal S1x128 .f32) (q : Fin 128) :
    k1_pay1 (F := Ideal) (k1_pay6 v27) (k1_pay7 v3 v4 v8 v11 v16) (ix2 (0 : Fin 1) q)
      = v27 (ix2 (0 : Fin 1) q) + ∑ r : Fin 2000, k1_pay4 (F := Ideal) v3 v4 v8 v11 v16 (ix2 r q) * k1_pay4 (F := Ideal) v3 v4 v8 v11 v16 (ix2 r q) := by
  unfold k1_pay1 k1_pay6 k1_pay7
  dsimp only
  exact congrArg₂ (· + ·) (congrFun (shapeCast_self v27 _) (ix2 (0 : Fin 1) q))
    (acc_colsum_row (mulf (k1_pay4 (F := Ideal) v3 v4 v8 v11 v16) (k1_pay4 (F := Ideal) v3 v4 v8 v11 v16)) _ _ _ _ q)

/-- The zero row the first accumulator starts from is zero at every column. -/
theorem acc_zero6_apply (q : Fin 128) : k1_pay2 (F := Ideal) (ix2 (0 : Fin 1) q) = 0 := Ideal.ofBits_zero_f32
/-- The zero row the second accumulator starts from is zero at every column. -/
theorem acc_zero7_apply (q : Fin 128) : k1_pay3 (F := Ideal) (ix2 (0 : Fin 1) q) = 0 := Ideal.ofBits_zero_f32

end Values

section Blocks

/-- The five input blocks of a point, at their literal shapes. -/
abbrev acc_blk0 (V : Entry) (c : Dev nD) (t : Fin cfg1.N) : Vec Ideal S2000x128 .f32 := iblk1 V c 0 t
abbrev acc_blk1 (V : Entry) (c : Dev nD) (t : Fin cfg1.N) : Vec Ideal S2000x128 .f32 := iblk1 V c 1 t
abbrev acc_blk2 (V : Entry) (c : Dev nD) (t : Fin cfg1.N) : Vec Ideal S1x128 .f32 := iblk1 V c 2 t
abbrev acc_blk3 (V : Entry) (c : Dev nD) (t : Fin cfg1.N) : Vec Ideal S128x128 .f32 := iblk1 V c 3 t
abbrev acc_blk4 (V : Entry) (c : Dev nD) (t : Fin cfg1.N) : Vec Ideal S1x128 .f32 := iblk1 V c 4 t

/-- The printed index maps over the grid: the two tiled inputs sit at block (t, 0), every other window at block (0, 0). -/
theorem acc_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Entry `(r, q)` of the aggregated-messages tile at point `t` is entry `(2000 t + r, q)` of the array. -/
theorem acc_blk0_apply (V : Entry) (c : Dev nD) (t : Fin cfg1.N) (r : Fin 2000) (q : Fin 128) (h : 2000 * t.val + r.val < 50000) :
    acc_blk0 V c t (ix2 r q) = (V c main_v21 : Arr SV) (ix2 ⟨2000 * t.val + r.val, h⟩ q) := by
  obtain ⟨e0, e1, -⟩ := acc_idx_facts t
  show iblk1 V c 0 t (ix2 r q) = _
  unfold iblk1
  rw [View.read_apply]
  show V c main_v21 (((cfg1.win 0).blk t).view.emb (ix2 r q)) = V c main_v21 _
  refine congrArg (V c main_v21) (funext fun a => Fin.ext ?_)
  match a with
  | ⟨0, _⟩ => show win1_0.index t (0 : Fin 2) * 2000 + 1 * r.val = 2000 * t.val + r.val; omega
  | ⟨1, _⟩ => show win1_0.index t (1 : Fin 2) * 128 + 1 * q.val = q.val; omega

/-- Entry `(r, k)` of the node-features tile at point `t` is entry `(2000 t + r, k)` of the array. -/
theorem acc_blk1_apply (V : Entry) (c : Dev nD) (t : Fin cfg1.N) (r : Fin 2000) (k : Fin 128) (h : 2000 * t.val + r.val < 50000) :
    acc_blk1 V c t (ix2 r k) = (V c main_arg0 : Arr SV) (ix2 ⟨2000 * t.val + r.val, h⟩ k) := by
  obtain ⟨-, -, e0, e1, -⟩ := acc_idx_facts t
  show iblk1 V c 1 t (ix2 r k) = _
  unfold iblk1
  rw [View.read_apply]
  show V c main_arg0 (((cfg1.win 1).blk t).view.emb (ix2 r k)) = V c main_arg0 _
  refine congrArg (V c main_arg0) (funext fun a => Fin.ext ?_)
  match a with
  | ⟨0, _⟩ => show win1_1.index t (0 : Fin 2) * 2000 + 1 * r.val = 2000 * t.val + r.val; omega
  | ⟨1, _⟩ => show win1_1.index t (1 : Fin 2) * 128 + 1 * k.val = k.val; omega

/-- The self-loop relation row is read whole at every point. -/
theorem acc_blk2_apply (V : Entry) (c : Dev nD) (t : Fin cfg1.N) (p : Fin 1) (k : Fin 128) :
    acc_blk2 V c t (ix2 p k) = (V c main_arg7 : Arr SRow) (ix2 p k) := by
  obtain ⟨-, -, -, -, e0, e1, -⟩ := acc_idx_facts t
  show iblk1 V c 2 t (ix2 p k) = _
  unfold iblk1
  rw [View.read_apply]
  show V c main_arg7 (((cfg1.win 2).blk t).view.emb (ix2 p k)) = V c main_arg7 _
  refine congrArg (V c main_arg7) (funext fun a => Fin.ext ?_)
  match a with
  | ⟨0, _⟩ => show win1_2.index t (0 : Fin 2) * 1 + 1 * p.val = p.val; omega
  | ⟨1, _⟩ => show win1_2.index t (1 : Fin 2) * 128 + 1 * k.val = k.val; omega

/-- The self-loop weight is read whole at every point. -/
theorem acc_blk3_apply (V : Entry) (c : Dev nD) (t : Fin cfg1.N) (k : Fin 128) (q : Fin 128) :
    acc_blk3 V c t (ix2 k q) = (V c main_arg5 : Arr SW) (ix2 k q) := by
  obtain ⟨-, -, -, -, -, -, e0, e1, -⟩ := acc_idx_facts t
  show iblk1 V c 3 t (ix2 k q) = _
  unfold iblk1
  rw [View.read_apply]
  show V c main_arg5 (((cfg1.win 3).blk t).view.emb (ix2 k q)) = V c main_arg5 _
  refine congrArg (V c main_arg5) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias row is read whole at every point. -/
theorem acc_blk4_apply (V : Entry) (c : Dev nD) (t : Fin cfg1.N) (p : Fin 1) (q : Fin 128) :
    acc_blk4 V c t (ix2 p q) = (V c main_v22 : Arr SRow) (ix2 p q) := by
  obtain ⟨-, -, -, -, -, -, -, -, e0, e1, -⟩ := acc_idx_facts t
  show iblk1 V c 4 t (ix2 p q) = _
  unfold iblk1
  rw [View.read_apply]
  show V c main_v22 (((cfg1.win 4).blk t).view.emb (ix2 p q)) = V c main_v22 _
  refine congrArg (V c main_v22) (funext fun a => Fin.ext ?_)
  match a with
  | ⟨0, _⟩ => show win1_4.index t (0 : Fin 2) * 1 + 1 * p.val = p.val; omega
  | ⟨1, _⟩ => show win1_4.index t (1 : Fin 2) * 128 + 1 * q.val = q.val; omega

/-- The tile a point stores is its 2000 rows of the node array before normalisation. -/
theorem acc_tile_apply (V : Entry) (c : Dev nD) (t : Fin cfg1.N) (r : Fin 2000) (q : Fin 128) (h : 2000 * t.val + r.val < 50000) :
    k1_pay4 (F := Ideal) (acc_blk1 V c t) (acc_blk2 V c t) (acc_blk3 V c t) (acc_blk0 V c t) (acc_blk4 V c t) (ix2 r q)
      = hpreAt V c (ix2 ⟨2000 * t.val + r.val, h⟩ q) := by
  rw [k1_pay4_apply, acc_blk0_apply V c t r q h, acc_blk4_apply]
  simp only [acc_blk1_apply V c t r _ h, acc_blk2_apply, acc_blk3_apply]
  rfl

end Blocks

section Sums

/-- A function of the nodes extended by zero past the last node. -/
def acc_ext (f : Fin 50000 → EReal) (v : ℕ) : EReal := if h : v < 50000 then f ⟨v, h⟩ else 0

/-- The sum over the 2000 rows of tile `n`, as a sum over a range of naturals. -/
theorem acc_tile_sum (f : Fin 50000 → EReal) (n : ℕ) (hn : 2000 * n + 2000 ≤ 50000) :
    ∑ r : Fin 2000, f ⟨2000 * n + r.val, by have := r.isLt; omega⟩ = ∑ r ∈ Finset.range 2000, acc_ext f (2000 * n + r) := by
  rw [← Fin.sum_univ_eq_sum_range (fun r => acc_ext f (2000 * n + r)) 2000]
  refine Finset.sum_congr rfl fun r _ => ?_
  unfold acc_ext
  rw [dif_pos (show 2000 * n + r.val < 50000 from by have := r.isLt; omega)]

/-- The sum over the first `n` tiles grows by tile `n`. -/
theorem acc_partial_step (f : Fin 50000 → EReal) (n : ℕ) :
    ∑ v ∈ Finset.range (2000 * n), acc_ext f v + ∑ r ∈ Finset.range 2000, acc_ext f (2000 * n + r)
      = ∑ v ∈ Finset.range (2000 * (n + 1)), acc_ext f v := by
  rw [show 2000 * (n + 1) = 2000 * n + 2000 from by ring, Finset.sum_range_add]

/-- All 25 tiles are all 50000 nodes. -/
theorem acc_partial_all (f : Fin 50000 → EReal) :
    ∑ v ∈ Finset.range (2000 * 25), acc_ext f v = ∑ v : Fin 50000, f v := by
  rw [show 2000 * 25 = 50000 from by norm_num, ← Fin.sum_univ_eq_sum_range (acc_ext f) 50000]
  exact Finset.sum_congr rfl fun v _ => by unfold acc_ext; rw [dif_pos v.isLt]

/-- A row known at every column is the row laid out from that column function, read at any index with that column. -/
theorem acc_row_read (X : Vec Ideal S1x128 .f32) (f : Fin 128 → EReal) (hX : ∀ q : Fin 128, X (ix2 (0 : Fin 1) q) = f q)
    (j : S1x128.Idx) (i : SRow.Idx) (hi : (i 1).val = (j 1).val) : X j = (rowOf f : Arr SRow) i := by
  obtain ⟨p, q, rfl⟩ : ∃ (p : Fin 1) (q : Fin 128), j = ix2 p q := ⟨j 0, j 1, eq_ix2 j⟩
  obtain rfl : p = 0 := Subsingleton.elim _ _
  rw [hX q]
  show f q = f (i 1)
  exact congrArg f (Fin.ext hi.symm)

/-- A row known at every column is the row laid out from that column function. -/
theorem acc_row_eq (X : Vec Ideal S1x128 .f32) (f : Fin 128 → EReal) (hX : ∀ q : Fin 128, X (ix2 (0 : Fin 1) q) = f q) :
    X = (rowOf f : Arr SRow) :=
  funext fun j => acc_row_read X f hX j j rfl

end Sums

section Accumulators

/-- Column `q` of the node array before normalisation, and its square, as functions of the node. -/
abbrev acc_col (V : Entry) (c : Dev nD) (q : Fin 128) : Fin 50000 → EReal := fun v => hpreAt V c (ix2 v q)
abbrev acc_colSq (V : Entry) (c : Dev nD) (q : Fin 128) : Fin 50000 → EReal := fun v => hpreAt V c (ix2 v q) * hpreAt V c (ix2 v q)

/-- After a first point the first accumulator is the update of the zero row, over the point's input blocks. -/
theorem acc_A6 (V : Entry) (c : Dev nD) (n : ℕ) (hn : n < cfg1.N) (h0 : n % 25 = 0) :
    (outsAt1 V c n hn).2.1 = k1_pay5 (F := Ideal) (acc_blk1 V c ⟨n, hn⟩) (acc_blk2 V c ⟨n, hn⟩) (acc_blk3 V c ⟨n, hn⟩) (acc_blk0 V c ⟨n, hn⟩) (acc_blk4 V c ⟨n, hn⟩) (k1_pay2 (F := Ideal)) := by
  rw [outsAt1_A V c ⟨n, hn⟩ h0]
  dsimp only
  exact acc_out_A_6 (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) (ms1_7 ⟨n, hn⟩) (hs1_7 ⟨n, hn⟩) ((hcond1_0 ⟨n, hn⟩).mpr h0) (iblk1 V c 0 ⟨n, hn⟩) (iblk1 V c 1 ⟨n, hn⟩) (iblk1 V c 2 ⟨n, hn⟩) (iblk1 V c 3 ⟨n, hn⟩) (iblk1 V c 4 ⟨n, hn⟩)

/-- After a first point the second accumulator is the update of the zero row, over the point's input blocks. -/
theorem acc_A7 (V : Entry) (c : Dev nD) (n : ℕ) (hn : n < cfg1.N) (h0 : n % 25 = 0) :
    (outsAt1 V c n hn).2.2 = k1_pay1 (F := Ideal) (k1_pay6 (k1_pay3 (F := Ideal))) (k1_pay7 (acc_blk1 V c ⟨n, hn⟩) (acc_blk2 V c ⟨n, hn⟩) (acc_blk3 V c ⟨n, hn⟩) (acc_blk0 V c ⟨n, hn⟩) (acc_blk4 V c ⟨n, hn⟩)) := by
  rw [outsAt1_A V c ⟨n, hn⟩ h0]
  dsimp only
  exact acc_out_A_7 (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) (ms1_7 ⟨n, hn⟩) (hs1_7 ⟨n, hn⟩) ((hcond1_0 ⟨n, hn⟩).mpr h0) (iblk1 V c 0 ⟨n, hn⟩) (iblk1 V c 1 ⟨n, hn⟩) (iblk1 V c 2 ⟨n, hn⟩) (iblk1 V c 3 ⟨n, hn⟩) (iblk1 V c 4 ⟨n, hn⟩)

/-- After a later point the first accumulator is the update of what the point before left, over the point's input blocks. -/
theorem acc_B6 (V : Entry) (c : Dev nD) (n : ℕ) (hn : n < cfg1.N) (h0 : ¬n % 25 = 0) :
    (outsAt1 V c n hn).2.1 = k1_pay5 (F := Ideal) (acc_blk1 V c ⟨n, hn⟩) (acc_blk2 V c ⟨n, hn⟩) (acc_blk3 V c ⟨n, hn⟩) (acc_blk0 V c ⟨n, hn⟩) (acc_blk4 V c ⟨n, hn⟩) (outsAt1 V c (n - 1) (Nat.lt_of_le_of_lt (Nat.sub_le _ _) hn)).2.1 := by
  rw [outsAt1_B V c ⟨n, hn⟩ h0]
  dsimp only
  exact acc_out_B_6 (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) (ms1_7 ⟨n, hn⟩) (hs1_7 ⟨n, hn⟩) (fun h => h0 ((hcond1_0 ⟨n, hn⟩).mp h)) (iblk1 V c 0 ⟨n, hn⟩) (iblk1 V c 1 ⟨n, hn⟩) (iblk1 V c 2 ⟨n, hn⟩) (iblk1 V c 3 ⟨n, hn⟩) (iblk1 V c 4 ⟨n, hn⟩) _ _

/-- After a later point the second accumulator is the update of what the point before left, over the point's input blocks. -/
theorem acc_B7 (V : Entry) (c : Dev nD) (n : ℕ) (hn : n < cfg1.N) (h0 : ¬n % 25 = 0) :
    (outsAt1 V c n hn).2.2 = k1_pay1 (F := Ideal) (k1_pay6 (outsAt1 V c (n - 1) (Nat.lt_of_le_of_lt (Nat.sub_le _ _) hn)).2.2) (k1_pay7 (acc_blk1 V c ⟨n, hn⟩) (acc_blk2 V c ⟨n, hn⟩) (acc_blk3 V c ⟨n, hn⟩) (acc_blk0 V c ⟨n, hn⟩) (acc_blk4 V c ⟨n, hn⟩)) := by
  rw [outsAt1_B V c ⟨n, hn⟩ h0]
  dsimp only
  exact acc_out_B_7 (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) (ms1_7 ⟨n, hn⟩) (hs1_7 ⟨n, hn⟩) (fun h => h0 ((hcond1_0 ⟨n, hn⟩).mp h)) (iblk1 V c 0 ⟨n, hn⟩) (iblk1 V c 1 ⟨n, hn⟩) (iblk1 V c 2 ⟨n, hn⟩) (iblk1 V c 3 ⟨n, hn⟩) (iblk1 V c 4 ⟨n, hn⟩) _ _

end Accumulators

section Invariants

/-- The column sums of the tile of point `n`, as sums over a range of naturals. -/
theorem acc_tile_colsum (V : Entry) (c : Dev nD) (n : ℕ) (hn : n < cfg1.N) (q : Fin 128) :
    ∑ r : Fin 2000, k1_pay4 (F := Ideal) (acc_blk1 V c ⟨n, hn⟩) (acc_blk2 V c ⟨n, hn⟩) (acc_blk3 V c ⟨n, hn⟩) (acc_blk0 V c ⟨n, hn⟩) (acc_blk4 V c ⟨n, hn⟩) (ix2 r q)
      = ∑ r ∈ Finset.range 2000, acc_ext (acc_col V c q) (2000 * n + r) := by
  have hN : n < 25 := lt_of_lt_of_eq hn (show cfg1.N = 25 from N_1)
  rw [← acc_tile_sum (acc_col V c q) n (by omega)]
  exact Finset.sum_congr rfl fun r _ => acc_tile_apply V c ⟨n, hn⟩ r q _

/-- The column sums of squares of the tile of point `n`, as sums over a range of naturals. -/
theorem acc_tile_colsumsq (V : Entry) (c : Dev nD) (n : ℕ) (hn : n < cfg1.N) (q : Fin 128) :
    ∑ r : Fin 2000, k1_pay4 (F := Ideal) (acc_blk1 V c ⟨n, hn⟩) (acc_blk2 V c ⟨n, hn⟩) (acc_blk3 V c ⟨n, hn⟩) (acc_blk0 V c ⟨n, hn⟩) (acc_blk4 V c ⟨n, hn⟩) (ix2 r q) * k1_pay4 (F := Ideal) (acc_blk1 V c ⟨n, hn⟩) (acc_blk2 V c ⟨n, hn⟩) (acc_blk3 V c ⟨n, hn⟩) (acc_blk0 V c ⟨n, hn⟩) (acc_blk4 V c ⟨n, hn⟩) (ix2 r q)
      = ∑ r ∈ Finset.range 2000, acc_ext (acc_colSq V c q) (2000 * n + r) := by
  have hN : n < 25 := lt_of_lt_of_eq hn (show cfg1.N = 25 from N_1)
  rw [← acc_tile_sum (acc_colSq V c q) n (by omega)]
  exact Finset.sum_congr rfl fun r _ => by rw [acc_tile_apply V c ⟨n, hn⟩ r q _]

/-- After point `n` the first accumulator holds, at column `q`, the sum of that column over the first `n + 1` tiles. -/
theorem acc_sum_at (V : Entry) (c : Dev nD) : ∀ (n : ℕ) (hn : n < cfg1.N) (q : Fin 128),
    ((outsAt1 V c n hn).2.1 (ix2 (0 : Fin 1) q) : EReal) = ∑ v ∈ Finset.range (2000 * (n + 1)), acc_ext (acc_col V c q) v
  | 0, hn, q => by
    refine (congrFun (acc_A6 V c 0 hn rfl) (ix2 (0 : Fin 1) q)).trans ?_
    rw [acc_sum_pay_apply, acc_zero6_apply, zero_add, acc_tile_colsum, ← acc_partial_step (acc_col V c q) 0]
    rw [Nat.mul_zero, Finset.range_zero, Finset.sum_empty, zero_add]
  | n + 1, hn, q => by
    have hN : cfg1.N = 25 := N_1
    have hB : ¬(n + 1) % 25 = 0 := by omega
    refine (congrFun (acc_B6 V c (n + 1) hn hB) (ix2 (0 : Fin 1) q)).trans ?_
    rw [acc_sum_pay_apply, acc_tile_colsum]
    show ((outsAt1 V c n _).2.1 (ix2 (0 : Fin 1) q) : EReal) + _ = _
    rw [acc_sum_at V c n (Nat.lt_of_succ_lt hn) q, acc_partial_step]

/-- After point `n` the second accumulator holds, at column `q`, the sum of that column's squares over the first `n + 1` tiles. -/
theorem acc_sumsq_at (V : Entry) (c : Dev nD) : ∀ (n : ℕ) (hn : n < cfg1.N) (q : Fin 128),
    ((outsAt1 V c n hn).2.2 (ix2 (0 : Fin 1) q) : EReal) = ∑ v ∈ Finset.range (2000 * (n + 1)), acc_ext (acc_colSq V c q) v
  | 0, hn, q => by
    refine (congrFun (acc_A7 V c 0 hn rfl) (ix2 (0 : Fin 1) q)).trans ?_
    rw [acc_sumsq_pay_apply, acc_zero7_apply, zero_add, acc_tile_colsumsq, ← acc_partial_step (acc_colSq V c q) 0]
    rw [Nat.mul_zero, Finset.range_zero, Finset.sum_empty, zero_add]
  | n + 1, hn, q => by
    have hN : cfg1.N = 25 := N_1
    have hB : ¬(n + 1) % 25 = 0 := by omega
    refine (congrFun (acc_B7 V c (n + 1) hn hB) (ix2 (0 : Fin 1) q)).trans ?_
    rw [acc_sumsq_pay_apply, acc_tile_colsumsq]
    show ((outsAt1 V c n _).2.2 (ix2 (0 : Fin 1) q) : EReal) + _ = _
    rw [acc_sumsq_at V c n (Nat.lt_of_succ_lt hn) q, acc_partial_step]

end Invariants

section Final

/-- The one write-back of the first accumulator, after the last point, writes the column sums: its block is the whole row. -/
theorem acc_flushed6 (V : Entry) (c : Dev nD) (t : Fin cfg1.N) (hf : (cfg1.win 6).flush t = true) :
    (dat1 (F := Ideal) V c).flushed 6 t
      = ((cfg1.win 6).blk t).view.read (Elt Ideal) (rowOf (colSum (hpreAt V c)) : Arr SRow) := by
  have hN : cfg1.N = 25 := N_1
  have h24 : t.val = 24 := by have := (flush1_6 t).mp hf; have := t.isLt; omega
  obtain ⟨-, -, -, -, -, -, -, -, -, -, e0, e1, -, -⟩ := acc_idx_facts t
  have hrow : (outsAt1 V c t.val t.isLt).2.1 = (rowOf (colSum (hpreAt V c)) : Arr SRow) :=
    acc_row_eq _ _ fun q => by
      rw [acc_sum_at V c t.val t.isLt q, h24]
      exact acc_partial_all (acc_col V c q)
  have hz' : (fun a => win1_6.index t a * main_v23_1.ty.shape.size a) = fun _ => 0 := funext fun a => by
    match a with
    | ⟨0, _⟩ => show win1_6.index t (0 : Fin 2) * 1 = 0; omega
    | ⟨1, _⟩ => show win1_6.index t (1 : Fin 2) * 128 = 0; omega
  show (cfg1.win 6).cut (grid1.coords t) ((dat1 (F := Ideal) V c).after 6 t) = _
  rw [after1_6, hrow]
  exact (Memref.read_access_unit_zero (Elt Ideal) main_v23_1 hz' (fun a => by rw [congrFun hz' a]; simp) _).symm

/-- The one write-back of the second accumulator, after the last point, writes the column sums of squares. -/
theorem acc_flushed7 (V : Entry) (c : Dev nD) (t : Fin cfg1.N) (hf : (cfg1.win 7).flush t = true) :
    (dat1 (F := Ideal) V c).flushed 7 t
      = ((cfg1.win 7).blk t).view.read (Elt Ideal) (rowOf (colSumSq (hpreAt V c)) : Arr SRow) := by
  have hN : cfg1.N = 25 := N_1
  have h24 : t.val = 24 := by have := (flush1_7 t).mp hf; have := t.isLt; omega
  obtain ⟨-, -, -, -, -, -, -, -, -, -, -, -, e0, e1⟩ := acc_idx_facts t
  have hrow : (outsAt1 V c t.val t.isLt).2.2 = (rowOf (colSumSq (hpreAt V c)) : Arr SRow) :=
    acc_row_eq _ _ fun q => by
      rw [acc_sumsq_at V c t.val t.isLt q, h24]
      exact acc_partial_all (acc_colSq V c q)
  have hz' : (fun a => win1_7.index t a * main_v23_2.ty.shape.size a) = fun _ => 0 := funext fun a => by
    match a with
    | ⟨0, _⟩ => show win1_7.index t (0 : Fin 2) * 1 = 0; omega
    | ⟨1, _⟩ => show win1_7.index t (1 : Fin 2) * 128 = 0; omega
  show (cfg1.win 7).cut (grid1.coords t) ((dat1 (F := Ideal) V c).after 7 t) = _
  rw [after1_7, hrow]
  exact (Memref.read_access_unit_zero (Elt Ideal) main_v23_2 hz' (fun a => by rw [congrFun hz' a]; simp) _).symm

end Final

theorem region1_sum (V : Entry) (c : Dev nD) :
    (dat1 (F := Ideal) V c).arrAt 6 cfg1.N = (rowOf (colSum (hpreAt V c)) : Arr SRow) := by
  have hN : cfg1.N = 25 := N_1
  have h24 : 24 < cfg1.N := by omega
  obtain ⟨-, -, -, -, -, -, -, -, -, -, e0, e1, -, -⟩ := acc_idx_facts ⟨24, h24⟩
  refine (dat1 (F := Ideal) V c).arrAt_eq_of_cover 6 _ (acc_flushed6 V c) fun i => ⟨⟨24, h24⟩, (flush1_6 _).mpr rfl, ?_⟩
  show i ∈ ((View.whole main_v23_1).slice (win1_6.rect ⟨24, h24⟩)).set
  rw [View.set_slice_whole, Rect.mem_set_unit]
  intro a
  have h0 : (i 0 : Nat) < 1 := (i 0).isLt
  have h1 : (i 1 : Nat) < 128 := (i 1).isLt
  match a with
  | ⟨0, _⟩ => show win1_6.index ⟨24, h24⟩ (0 : Fin 2) * 1 ≤ (i 0 : Nat) ∧ (i 0 : Nat) < win1_6.index ⟨24, h24⟩ (0 : Fin 2) * 1 + 1; omega
  | ⟨1, _⟩ => show win1_6.index ⟨24, h24⟩ (1 : Fin 2) * 128 ≤ (i 1 : Nat) ∧ (i 1 : Nat) < win1_6.index ⟨24, h24⟩ (1 : Fin 2) * 128 + 128; omega

theorem region1_sumsq (V : Entry) (c : Dev nD) :
    (dat1 (F := Ideal) V c).arrAt 7 cfg1.N = (rowOf (colSumSq (hpreAt V c)) : Arr SRow) := by
  have hN : cfg1.N = 25 := N_1
  have h24 : 24 < cfg1.N := by omega
  obtain ⟨-, -, -, -, -, -, -, -, -, -, -, -, e0, e1⟩ := acc_idx_facts ⟨24, h24⟩
  refine (dat1 (F := Ideal) V c).arrAt_eq_of_cover 7 _ (acc_flushed7 V c) fun i => ⟨⟨24, h24⟩, (flush1_7 _).mpr rfl, ?_⟩
  show i ∈ ((View.whole main_v23_2).slice (win1_7.rect ⟨24, h24⟩)).set
  rw [View.set_slice_whole, Rect.mem_set_unit]
  intro a
  have h0 : (i 0 : Nat) < 1 := (i 0).isLt
  have h1 : (i 1 : Nat) < 128 := (i 1).isLt
  match a with
  | ⟨0, _⟩ => show win1_7.index ⟨24, h24⟩ (0 : Fin 2) * 1 ≤ (i 0 : Nat) ∧ (i 0 : Nat) < win1_7.index ⟨24, h24⟩ (0 : Fin 2) * 1 + 1; omega
  | ⟨1, _⟩ => show win1_7.index ⟨24, h24⟩ (1 : Fin 2) * 128 ≤ (i 1 : Nat) ∧ (i 1 : Nat) < win1_7.index ⟨24, h24⟩ (1 : Fin 2) * 128 + 128; omega

end Cert.KernelIdeal.Hand

end
-- ==== Proof.KReg23.lean ====
/-
  The third and fourth regions. Region 2: 25 tiles of 2000 nodes, each `max (((h - mu) * r) * g + b) 0` with the four
  `[1, 128]` rows broadcast down the tile; the tiles cover the output. Region 3: one point, `rel @ w`.
-/
import proofs.«152699_j14370960573129_1_alg».proof.Proof.Gen.KernelIdeal.Frame
import proofs.«152699_j14370960573129_1_alg».proof.Proof.Spec
import proofs.«152699_j14370960573129_1_alg».proof.Proof.LibPlainMatmul
import proofs.«152699_j14370960573129_1_alg».proof.Proof.KEntry
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.RelConv

/-- The two zero offsets of a whole-buffer access, spelt as a constant function. -/
private theorem hz : (![0, 0] : Fin 2 → Nat) = fun _ => 0 := funext fun a => by fin_cases a <;> rfl

/-! ## Region 3: the relation embeddings through their weight -/

/-- Entry `(r, j)` of the product of a `[200, 128]` block with a `[128, 128]` block into zero is the sum over `k` of
    left `(r, k)` times right `(k, j)`; the change of float format before the product is the identity. -/
private theorem relPay_apply (x0 : Vec Ideal S200x128 .f32) (x1 : Vec Ideal S128x128 .f32) (r : Fin 200) (j : Fin 128) :
    k3_pay1 (F := Ideal) x0 x1 (ix2 r j) = ∑ k : Fin 128, x0 (ix2 r k) * x1 (ix2 k j) := by
  unfold k3_pay1
  exact Cert.PlainMatmul.apply (M := 200) (K := 128) (N := 128) none (truncf .bf16 x0 bitsLt_bf16_f32) (truncf .bf16 x1 bitsLt_bf16_f32) r j

/-- So the product of the two whole arrays is `relOut` of them. -/
private theorem relPay_eq (A : Arr SR) (B : Arr SW) : (k3_pay1 (F := Ideal) A B : Arr SR) = relOut A B := by
  funext i
  obtain ⟨r, j, rfl⟩ : ∃ (r : Fin 200) (j : Fin 128), i = ix2 r j := ⟨i 0, i 1, eq_ix2 i⟩
  rw [relPay_apply]
  rfl

/-- At the one point every window's block index is `(0, 0)`: each block is its whole array. -/
private theorem idx3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

/-- The left operand's block is the whole `[200, 128]` array of relation embeddings. -/
private theorem iblk3_0 (V : Entry) (c : Dev nD) (t : Fin cfg3.N) : (iblk3 (F := Ideal) V c 0 t : Vec Ideal S200x128 .f32) = V c main_arg1 := by
  obtain ⟨e0, e1, e2, e3, e4, e5⟩ := idx3 t
  funext y
  unfold iblk3
  rw [View.read_apply]
  show V c main_arg1 _ = V c main_arg1 y
  congr 1
  funext a
  apply Fin.ext
  match a with
  | ⟨0, _⟩ => show win3_0.index t (0 : Fin 2) * 200 + 1 * (y 0).val = (y 0).val; omega
  | ⟨1, _⟩ => show win3_0.index t (1 : Fin 2) * 128 + 1 * (y 1).val = (y 1).val; omega

/-- The right operand's block is the whole `[128, 128]` weight. -/
private theorem iblk3_1 (V : Entry) (c : Dev nD) (t : Fin cfg3.N) : (iblk3 (F := Ideal) V c 1 t : Vec Ideal S128x128 .f32) = V c main_arg6 := by
  obtain ⟨e0, e1, e2, e3, e4, e5⟩ := idx3 t
  funext y
  unfold iblk3
  rw [View.read_apply]
  show V c main_arg6 _ = V c main_arg6 y
  congr 1
  funext a
  apply Fin.ext
  match a with
  | ⟨0, _⟩ => show win3_1.index t (0 : Fin 2) * 128 + 1 * (y 0).val = (y 0).val; omega
  | ⟨1, _⟩ => show win3_1.index t (1 : Fin 2) * 128 + 1 * (y 1).val = (y 1).val; omega

/-- What the point writes back is its block of `relOut` of the two arrays: the block is the whole array. -/
private theorem rel_flushed (V : Entry) (c : Dev nD) (t : Fin cfg3.N) :
    (dat3 (F := Ideal) V c).flushed 2 t
      = ((cfg3.win 2).blk t).view.read (Elt Ideal) (relOut (V c main_arg1) (V c main_arg6) : Arr SR) := by
  show (cfg3.win 2).cut (grid3.coords t) ((dat3 V c).after 2 t) = _
  rw [after3_2]
  unfold out3_2
  rw [View.canon_unit_zero hz]
  simp only [View.ld_unit_zero (S := S200x128) hz, View.ld_unit_zero (S := S128x128) hz]
  rw [iblk3_0, iblk3_1, relPay_eq]
  obtain ⟨e0, e1, e2, e3, e4, e5⟩ := idx3 t
  funext j
  show relOut (V c main_arg1) (V c main_arg6) j = relOut (V c main_arg1) (V c main_arg6) (((cfg3.win 2).blk t).view.emb j)
  congr 1
  funext a
  apply Fin.ext
  match a with
  | ⟨0, _⟩ => show (j 0).val = win3_2.index t (0 : Fin 2) * 200 + 1 * (j 0).val; omega
  | ⟨1, _⟩ => show (j 1).val = win3_2.index t (1 : Fin 2) * 128 + 1 * (j 1).val; omega

/-- An entry of the output is in the point's block iff each coordinate is in the block's range on its axis. -/
private theorem mem_blk3 (t : Fin cfg3.N) (i : S200x128.Idx) :
    i ∈ ((cfg3.win 2).blk t).view.set ↔ ∀ a : Fin 2, win3_2.index t a * S200x128.size a ≤ (i a).val ∧ (i a).val < win3_2.index t a * S200x128.size a + S200x128.size a := by
  show i ∈ ((View.whole main_v36).slice (win3_2.rect t)).set ↔ _
  rw [View.set_slice_whole, Rect.mem_set_unit]
  exact Iff.rfl

/-- The output of region 3 is `rel @ w`: the one block covers the array. -/
theorem region3_out (V : Entry) (c : Dev nD) :
    (dat3 (F := Ideal) V c).arrAt 2 cfg3.N = (relOut (V c main_arg1) (V c main_arg6) : Arr SR) :=
  (dat3 (F := Ideal) V c).arrAt_eq_of_cover 2 (relOut (V c main_arg1) (V c main_arg6) : Arr SR)
    (fun t _ => rel_flushed V c t) fun i => by
      refine ⟨t3_0, flush3_2 t3_0, ?_⟩
      obtain ⟨e0, e1, e2, e3, e4, e5⟩ := idx3 t3_0
      rw [mem_blk3]
      intro a
      have h0 : (i 0).val < 200 := (i 0).isLt
      have h1 : (i 1).val < 128 := (i 1).isLt
      match a with
      | ⟨0, _⟩ => show win3_2.index t3_0 (0 : Fin 2) * 200 ≤ (i 0).val ∧ (i 0).val < win3_2.index t3_0 (0 : Fin 2) * 200 + 200; omega
      | ⟨1, _⟩ => show win3_2.index t3_0 (1 : Fin 2) * 128 ≤ (i 1).val ∧ (i 1).val < win3_2.index t3_0 (1 : Fin 2) * 128 + 128; omega

/-! ## Region 2: normalise, scale, shift, clamp, tile by tile -/

/-- A `[1, 128]` row broadcast down a `[2000, 128]` tile reads the row at the entry's column. -/
private theorem rowBcast_apply (x : Vec Ideal S1x128 .f32) (p : Fin 2000) (q : Fin 128) :
    broadcastTo S2000x128 x broadcasts_S1x128_S2000x128 (ix2 p q) = x (ix2 (0 : Fin 1) q) := by
  refine broadcastTo_apply x _ (ix2 p q) (ix2 (0 : Fin 1) q) fun a => ?_
  match a with
  | ⟨0, _⟩ => rfl
  | ⟨1, _⟩ => rfl

/-- The tile's payload at an entry. -/
private theorem bnPay_apply (x0 : Vec Ideal S2000x128 .f32) (x1 x2 x3 x4 : Vec Ideal S1x128 .f32) (p : Fin 2000) (q : Fin 128) :
    k2_pay1 (F := Ideal) x0 x1 x2 x3 x4 (ix2 p q)
      = max ((((x0 (ix2 p q) - x1 (ix2 (0 : Fin 1) q)) * x2 (ix2 (0 : Fin 1) q)) * x3 (ix2 (0 : Fin 1) q)) + x4 (ix2 (0 : Fin 1) q)) 0 := by
  unfold k2_pay1
  simp only [shapeCast_self]
  rw [maximumf_apply, addf_apply, mulf_apply, mulf_apply, subf_apply, rowBcast_apply, rowBcast_apply, rowBcast_apply, rowBcast_apply, broadcast_apply]
  show max _ (Ideal.ofBits .f32 0x00000000#32) = _
  rw [Ideal.ofBits_zero_f32]

/-- The printed index maps over the 25 points: the input tile and the output tile are both tile `t` of their arrays
    (rows `2000 t … 2000 t + 1999`, all 128 columns), and each of the four rows is its whole `[1, 128]` array. -/
private theorem idx2 : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- A row window's block is the whole `[1, 128]` array, whichever of the four it is. -/
private theorem rowBlock (A : Arr SRow) (n0 n1 : ℕ) (h0 : n0 = 0) (h1 : n1 = 0) (k : S1x128.Idx) (y : S1x128.Idx)
    (hk0 : (k 0).val = n0 * 1 + 1 * (y 0).val) (hk1 : (k 1).val = n1 * 128 + 1 * (y 1).val) : A k = A y := by
  congr 1
  funext a
  apply Fin.ext
  match a with
  | ⟨0, _⟩ => show (k 0).val = (y 0).val; omega
  | ⟨1, _⟩ => show (k 1).val = (y 1).val; omega

/-- The mean row's block is the whole row. -/
private theorem iblk2_1 (V : Entry) (c : Dev nD) (t : Fin cfg2.N) : (iblk2 (F := Ideal) V c 1 t : Vec Ideal S1x128 .f32) = V c main_v25 := by
  obtain ⟨-, -, -, -, e0, e1, -⟩ := idx2 t
  funext y
  unfold iblk2
  rw [View.read_apply]
  exact rowBlock (V c main_v25) _ _ e0 e1 _ y rfl rfl

/-- The inverse deviation row's block is the whole row. -/
private theorem iblk2_2 (V : Entry) (c : Dev nD) (t : Fin cfg2.N) : (iblk2 (F := Ideal) V c 2 t : Vec Ideal S1x128 .f32) = V c main_v32 := by
  obtain ⟨-, -, -, -, -, -, e0, e1, -⟩ := idx2 t
  funext y
  unfold iblk2
  rw [View.read_apply]
  exact rowBlock (V c main_v32) _ _ e0 e1 _ y rfl rfl

/-- The scale row's block is the whole row. -/
private theorem iblk2_3 (V : Entry) (c : Dev nD) (t : Fin cfg2.N) : (iblk2 (F := Ideal) V c 3 t : Vec Ideal S1x128 .f32) = V c main_v33 := by
  obtain ⟨-, -, -, -, -, -, -, -, e0, e1, -⟩ := idx2 t
  funext y
  unfold iblk2
  rw [View.read_apply]
  exact rowBlock (V c main_v33) _ _ e0 e1 _ y rfl rfl

/-- The shift row's block is the whole row. -/
private theorem iblk2_4 (V : Entry) (c : Dev nD) (t : Fin cfg2.N) : (iblk2 (F := Ideal) V c 4 t : Vec Ideal S1x128 .f32) = V c main_v34 := by
  obtain ⟨-, -, -, -, -, -, -, -, -, -, e0, e1⟩ := idx2 t
  funext y
  unfold iblk2
  rw [View.read_apply]
  exact rowBlock (V c main_v34) _ _ e0 e1 _ y rfl rfl

/-- One entry of a tile: when the tile's entry `j` is the array's entry `i` and `i` has `j`'s column, the payload there is
    `bnRelu` of the array and the four rows at `i`. -/
private theorem bn_point (H : Arr SV) (mu r g b : Arr SRow) (x0 : Vec Ideal S2000x128 .f32) (j : S2000x128.Idx) (i : SV.Idx)
    (hx : x0 j = H i) (hi1 : (i 1).val = (j 1).val) :
    k2_pay1 (F := Ideal) x0 mu r g b j = bnRelu H mu r g b i := by
  obtain ⟨p, q, rfl⟩ : ∃ (p : Fin 2000) (q : Fin 128), j = ix2 p q := ⟨j 0, j 1, eq_ix2 j⟩
  rw [bnPay_apply, hx]
  have hq : (i 1 : Fin 128) = q := Fin.ext hi1
  unfold bnRelu
  rw [hq]

/-- What point `t` writes back is tile `t` of `bnRelu` of the five arrays. -/
private theorem bn_flushed (V : Entry) (c : Dev nD) (t : Fin cfg2.N) :
    (dat2 (F := Ideal) V c).flushed 5 t
      = ((cfg2.win 5).blk t).view.read (Elt Ideal)
          (bnRelu (V c main_v23_0) (V c main_v25) (V c main_v32) (V c main_v33) (V c main_v34) : Arr SV) := by
  show (cfg2.win 5).cut (grid2.coords t) ((dat2 V c).after 5 t) = _
  rw [after2_5]
  unfold out2_5
  rw [View.canon_unit_zero hz]
  simp only [View.ld_unit_zero (S := S2000x128) hz, View.ld_unit_zero (S := S1x128) hz]
  rw [iblk2_1, iblk2_2, iblk2_3, iblk2_4]
  obtain ⟨e0, e1, e2, e3, -⟩ := idx2 t
  funext j
  show k2_pay1 (F := Ideal) (iblk2 (F := Ideal) V c 0 t) (V c main_v25) (V c main_v32) (V c main_v33) (V c main_v34) j
    = bnRelu (V c main_v23_0) (V c main_v25) (V c main_v32) (V c main_v33) (V c main_v34) (((cfg2.win 5).blk t).view.emb j)
  refine bn_point (V c main_v23_0) (V c main_v25) (V c main_v32) (V c main_v33) (V c main_v34) (iblk2 (F := Ideal) V c 0 t) j
    (((cfg2.win 5).blk t).view.emb j) ?_ ?_
  · unfold iblk2
    rw [View.read_apply]
    show V c main_v23_0 (((cfg2.win 0).blk t).view.emb j) = V c main_v23_0 (((cfg2.win 5).blk t).view.emb j)
    refine congrArg (V c main_v23_0) (funext fun a => Fin.ext ?_)
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 128 + 1 * (j 1).val = win2_5.index t (1 : Fin 2) * 128 + 1 * (j 1).val; omega
  · show win2_5.index t (1 : Fin 2) * 128 + 1 * (j 1).val = (j 1).val
    omega

/-- An entry of the output is in point `t`'s tile iff each coordinate is in the tile's range on its axis. -/
private theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v35).slice (win2_5.rect t)).set ↔ _
  rw [View.set_slice_whole, Rect.mem_set_unit]
  exact Iff.rfl

/-- The output of region 2 is `bnRelu` of the five arrays: row `v` is in tile `v / 2000`, so the 25 tiles cover it. -/
theorem region2_out (V : Entry) (c : Dev nD) :
    (dat2 (F := Ideal) V c).arrAt 5 cfg2.N
      = (bnRelu (V c main_v23_0) (V c main_v25) (V c main_v32) (V c main_v33) (V c main_v34) : Arr SV) :=
  (dat2 (F := Ideal) V c).arrAt_eq_of_cover 5
    (bnRelu (V c main_v23_0) (V c main_v25) (V c main_v32) (V c main_v33) (V c main_v34) : Arr SV)
    (fun t _ => bn_flushed V c t) fun i => by
      have h0 : (i 0).val < 50000 := (i 0).isLt
      have h1 : (i 1).val < 128 := (i 1).isLt
      have hlt : (i 0).val / 2000 < cfg2.N := by
        show _ < grid2.N
        rw [N_2]
        omega
      refine ⟨⟨(i 0).val / 2000, hlt⟩, flush2_5 _, ?_⟩
      obtain ⟨-, -, e2, e3, -⟩ := idx2 ⟨(i 0).val / 2000, hlt⟩
      replace e2 : win2_5.index ⟨(i 0).val / 2000, hlt⟩ (0 : Fin 2) = (i 0).val / 2000 := e2
      rw [mem_blk2]
      intro a
      match a with
      | ⟨0, _⟩ => show win2_5.index ⟨(i 0).val / 2000, hlt⟩ (0 : Fin 2) * 2000 ≤ (i 0).val ∧ (i 0).val < win2_5.index ⟨(i 0).val / 2000, hlt⟩ (0 : Fin 2) * 2000 + 2000; omega
      | ⟨1, _⟩ => show win2_5.index ⟨(i 0).val / 2000, hlt⟩ (1 : Fin 2) * 128 ≤ (i 1).val ∧ (i 1).val < win2_5.index ⟨(i 0).val / 2000, hlt⟩ (1 : Fin 2) * 128 + 128; omega

end Cert.KernelIdeal.Hand

end
-- ==== Proof.KValue.lean ====
/-
  The kernel program's two results as functions of the argument arrays. The buffer contents at each segment boundary
  are a fold through @main; each region's output array is read off its proof data (one module per region), each host
  stretch's results off the operations, and the argument arrays walk back to the launch memory. Composed: after the
  last region the node output is the layer with the edge norm folded into the features first and the variance taken
  from the accumulated sums and sums of squares, and the relation output is `rel @ w`.
-/
import proofs.«152699_j14370960573129_1_alg».proof.Proof.KRun
import proofs.«152699_j14370960573129_1_alg».proof.Proof.KEntry
import proofs.«152699_j14370960573129_1_alg».proof.Proof.KHost
import proofs.«152699_j14370960573129_1_alg».proof.Proof.KReg0
import proofs.«152699_j14370960573129_1_alg».proof.Proof.KReg1
import proofs.«152699_j14370960573129_1_alg».proof.Proof.KReg1Acc
import proofs.«152699_j14370960573129_1_alg».proof.Proof.KReg23
import proofs.«152699_j14370960573129_1_alg».proof.Proof.KernelTerms
import proofs.«152699_j14370960573129_1_alg».proof.Proof.Spec

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.RelConv

variable (m : (ℓ : Loc nD τ sig) → Buf (Elt Ideal) ℓ) (ρ : Dev nD → PrngReg)

/-! ## The arrays between the regions, as functions of the arguments -/

/-- The gathered source-node rows, from the launch memory. -/
abbrev gxA (c : Dev nD) : Arr SE := gxOf (arg m c main_arg0) (arg m c main_arg12)
/-- The gathered relation rows, from the launch memory. -/
abbrev grA (c : Dev nD) : Arr SE := grOf (arg m c main_arg1) (arg m c main_arg11)

/-- After region 0 the message array holds the messages with the norm folded in first. -/
theorem msg_after0 (c : Dev nD) :
    (W2 m ρ c (Proc.devRef .tc main_v18) : Arr SE)
      = msgScaledFirst (gxA m c) (grA m c) (arg m c main_arg2) (arg m c main_arg3) (arg m c main_arg4) := by
  have h := W2_arr m ρ c 3
  rw [region0_out (V1 m ρ) c, entry0_feat m ρ c, entry0_inW m ρ c, entry0_outW m ρ c] at h
  exact h

/-- The node array before normalisation, from the launch memory. -/
abbrev hA (c : Dev nD) : Arr SV :=
  hpre (aggOf (arg m c main_arg13) (msgScaledFirst (gxA m c) (grA m c) (arg m c main_arg2) (arg m c main_arg3) (arg m c main_arg4)))
    (arg m c main_arg0) (arg m c main_arg7) (arg m c main_arg5) (rowOfVec (arg m c main_arg8))

theorem hpreAt_entry1 (c : Dev nD) : hpreAt (V3 m ρ) c = hA m c := by
  unfold hpreAt
  rw [entry1_agg m ρ c, entry1_bias m ρ c, entry1_x m ρ c, entry1_loopRel m ρ c, entry1_loopW m ρ c, msg_after0 m ρ c]

theorem h_after1 (c : Dev nD) : (W4 m ρ c (Proc.devRef .tc main_v23_0) : Arr SV) = hA m c := by
  have h := W4_arr m ρ c 5
  rw [region1_hpre (V3 m ρ) c, hpreAt_entry1 m ρ c] at h
  exact h

theorem sum_after1 (c : Dev nD) : (W4 m ρ c (Proc.devRef .tc main_v23_1) : Arr SRow) = rowOf (colSum (hA m c)) := by
  have h := W4_arr m ρ c 6
  rw [region1_sum (V3 m ρ) c, hpreAt_entry1 m ρ c] at h
  exact h

theorem sumsq_after1 (c : Dev nD) : (W4 m ρ c (Proc.devRef .tc main_v23_2) : Arr SRow) = rowOf (colSumSq (hA m c)) := by
  have h := W4_arr m ρ c 7
  rw [region1_sumsq (V3 m ρ) c, hpreAt_entry1 m ρ c] at h
  exact h

/-! ## The two results -/

/-- The node output after the last region: the layer with the norm folded in first and the variance from the sums of squares. -/
theorem out_x (c : Dev nD) :
    (W7 m ρ c (Proc.devRef .tc main_v35) : Arr SV)
      = layerScaledFirst (aggOf (arg m c main_arg13)) (gxA m c) (grA m c) (arg m c main_arg2) (arg m c main_arg3) (arg m c main_arg4)
          (arg m c main_arg0) (arg m c main_arg7) (arg m c main_arg5) (arg m c main_arg8) (arg m c main_arg9) (arg m c main_arg10) := by
  have h7 : W7 m ρ c (Proc.devRef .tc main_v35) = W6 m ρ c (Proc.devRef .tc main_v35) := W7_of_ne m ρ c main_v35 (by decide)
  have h6 := W6_arr m ρ c 5
  rw [region2_out (V5 m ρ) c, entry2_h m ρ c, entry2_mean m ρ c, entry2_invStd m ρ c, entry2_gamma m ρ c, entry2_beta m ρ c,
    h_after1 m ρ c, sum_after1 m ρ c, sumsq_after1 m ρ c] at h6
  exact h7.trans h6

/-- The relation output after the last region. -/
theorem out_rel (c : Dev nD) :
    (W7 m ρ c (Proc.devRef .tc main_v36) : Arr SR) = relOut (arg m c main_arg1) (arg m c main_arg6) := by
  have h := W7_arr m ρ c 2
  rw [region3_out (V6 m ρ) c, entry3_rel m ρ c, entry3_wRel m ρ c] at h
  exact h

/-! ## The kernel program's run, with its results named -/

theorem run : θ_run (defs (F := Ideal)) (onTc (τ := τ) (main (F := Ideal))) ⟨m, fun _ => 0, ρ⟩ (fun r => ∀ c : Dev nD,
      r.2.mem ((c.tc : Thread nD τ).loc main_v35)
        = layerScaledFirst (aggOf (arg m c main_arg13)) (gxA m c) (grA m c) (arg m c main_arg2) (arg m c main_arg3) (arg m c main_arg4)
          (arg m c main_arg0) (arg m c main_arg7) (arg m c main_arg5) (arg m c main_arg8) (arg m c main_arg9) (arg m c main_arg10)
      ∧ r.2.mem ((c.tc : Thread nD τ).loc main_v36) = relOut (arg m c main_arg1) (arg m c main_arg6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (out_x m ρ c), (h c).2.1.trans (out_rel m ρ c), (h c).2.2⟩)
    (Gen.run_values (F := Ideal) m ρ)

end Cert.KernelIdeal.Hand

end
-- ==== Proof.RRun.lean ====
/-
  The reference program's @main as a list of its host operations (the three functions jax outlined, the variance, its
  guard and the relu, listed inline at their call sites over the calls' buffers), and its run: every weakly fair
  execution terminates with the two results at `refLayer` and `refRel` of the argument arrays and the arguments unchanged.
-/
import proofs.«152699_j14370960573129_1_alg».proof.Proof.RefDefs
import Idealize.ShloMosaic.Lib.StableHlo.Run
import Idealize.ShloMosaic.Lib.Pipeline.Frame

noncomputable section

namespace Cert.ReferenceIdeal.Hand

open Idealize.ShloMosaic Idealize.ShloMosaic.TcCoe Idealize.ShloMosaic.ValueIdx Idealize.SL.Sem Idealize.ShloMosaic.StableHlo
open Cert.ReferenceIdeal Cert.ReferenceIdeal.Gen Cert.RelConv

section Operations

variable {F : FTy → Type} [FloatOps F]

/-- The first 23 operations: the two index normalisations and gathers, their product, and its two halves each through
    its weight (`main_v16`, `main_v18`). -/
abbrev ops₁ : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg12 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg12 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg12 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v7 (broadcastInDim S800000 ![] bcast_S_S800000 : (⟨S_, .i32⟩ : BufTy).Contents (Elt F) → (⟨S800000, .i32⟩ : BufTy).Contents (Elt F)),
    binary main_arg11 main_v7 main_v8 (cmpi .slt : (⟨S800000, .i32⟩ : BufTy).Contents (Elt F) → (⟨S800000, .i32⟩ : BufTy).Contents (Elt F) → (⟨S800000, .i1⟩ : BufTy).Contents (Elt F)),
    nullary main_c_2 (constantI S_ 32 200#32),
    unary main_c_2 main_v9 (broadcastInDim S800000 ![] bcast_S_S800000 : (⟨S_, .i32⟩ : BufTy).Contents (Elt F) → (⟨S800000, .i32⟩ : BufTy).Contents (Elt F)),
    binary main_arg11 main_v9 main_v10 (addi : (⟨S800000, .i32⟩ : BufTy).Contents (Elt F) → (⟨S800000, .i32⟩ : BufTy).Contents (Elt F) → (⟨S800000, .i32⟩ : BufTy).Contents (Elt F)),
    ternary main_v8 main_v10 main_arg11 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v11 main_v12 (broadcastInDim S800000x1 ![0] bcast_S800000_S800000x1_0 : (⟨S800000, .i32⟩ : BufTy).Contents (Elt F) → (⟨S800000x1, .i32⟩ : BufTy).Contents (Elt F)),
    binary main_arg1 main_v12 main_v13 ((fun x i => Host.gather gather_S200x128_S800000x1_S800000x128_1_0_n_n_0_1_1128 x i) : (⟨S200x128, .f32⟩ : BufTy).Contents (Elt F) → (⟨S800000x1, .i32⟩ : BufTy).Contents (Elt F) → (⟨S800000x128, .f32⟩ : BufTy).Contents (Elt F)),
    binary main_v6 main_v13 main_v14 (mulf : (⟨S800000x128, .f32⟩ : BufTy).Contents (Elt F) → (⟨S800000x128, .f32⟩ : BufTy).Contents (Elt F) → (⟨S800000x128, .f32⟩ : BufTy).Contents (Elt F)),
    unary main_v14 main_v15 ((extractStridedSlice S400000x128 ![0, 0] · slices_S800000x128_S400000x128_0_0) : (⟨S800000x128, .f32⟩ : BufTy).Contents (Elt F) → (⟨S400000x128, .f32⟩ : BufTy).Contents (Elt F)),
    binary main_v15 main_arg3 main_v16 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_v14 main_v17 ((extractStridedSlice S400000x128 ![400000, 0] · slices_S800000x128_S400000x128_400000_0) : (⟨S800000x128, .f32⟩ : BufTy).Contents (Elt F) → (⟨S400000x128, .f32⟩ : BufTy).Contents (Elt F)),
    binary main_v17 main_arg4 main_v18 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)) ]

/-- The next 18: the two halves concatenated and scaled by the edge norm (the messages), their aggregation from zero,
    the self-loop product, the sum times the third plus the bias (the node array before normalisation, `main_v34`). -/
abbrev ops₂ : List (HloOp τ sig (Elt F)) :=
  [ binary main_v16 main_v18 main_v19 ((fun a b => concatenate S800000x128 0 [⟨S400000x128, a⟩, ⟨S400000x128, b⟩] concatenates_S400000x128_S400000x128_S800000x128_d0) : (⟨S400000x128, .f32⟩ : BufTy).Contents (Elt F) → (⟨S400000x128, .f32⟩ : BufTy).Contents (Elt F) → (⟨S800000x128, .f32⟩ : BufTy).Contents (Elt F)),
    unary main_arg2 main_v20 (broadcastInDim S800000x1 ![0] bcast_S800000_S800000x1_0 : (⟨S800000, .f32⟩ : BufTy).Contents (Elt F) → (⟨S800000x1, .f32⟩ : BufTy).Contents (Elt F)),
    unary main_v20 main_v21 (broadcastInDim S800000x128 ![0, 1] bcast_S800000x1_S800000x128_0_1 : (⟨S800000x1, .f32⟩ : BufTy).Contents (Elt F) → (⟨S800000x128, .f32⟩ : BufTy).Contents (Elt F)),
    binary main_v19 main_v21 main_v22 (mulf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v23 (broadcastInDim S50000x128 ![] bcast_S_S50000x128 : (⟨S_, .f32⟩ : BufTy).Contents (Elt F) → (⟨S50000x128, .f32⟩ : BufTy).Contents (Elt F)),
    unary main_arg13 main_v24 (broadcastInDim S800000x1 ![0] bcast_S800000_S800000x1_0 : (⟨S800000, .i32⟩ : BufTy).Contents (Elt F) → (⟨S800000x1, .i32⟩ : BufTy).Contents (Elt F)),
    ternary main_v23 main_v24 main_v22 main_v25 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg7 main_v26 (broadcastInDim S50000x128 ![0, 1] bcast_S1x128_S50000x128_0_1 : (⟨S1x128, .f32⟩ : BufTy).Contents (Elt F) → (⟨S50000x128, .f32⟩ : BufTy).Contents (Elt F)),
    binary main_arg0 main_v26 main_v27 (mulf : (⟨S50000x128, .f32⟩ : BufTy).Contents (Elt F) → (⟨S50000x128, .f32⟩ : BufTy).Contents (Elt F) → (⟨S50000x128, .f32⟩ : BufTy).Contents (Elt F)),
    binary main_v27 main_arg5 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v25 main_v28 main_v29 (addf : (⟨S50000x128, .f32⟩ : BufTy).Contents (Elt F) → (⟨S50000x128, .f32⟩ : BufTy).Contents (Elt F) → (⟨S50000x128, .f32⟩ : BufTy).Contents (Elt F)),
    nullary main_cst_3 (constant S_ .f32 0x3EAAAAAB#32),
    unary main_cst_3 main_v30 (broadcastInDim S50000x128 ![] bcast_S_S50000x128 : (⟨S_, .f32⟩ : BufTy).Contents (Elt F) → (⟨S50000x128, .f32⟩ : BufTy).Contents (Elt F)),
    binary main_v29 main_v30 main_v31 (mulf : (⟨S50000x128, .f32⟩ : BufTy).Contents (Elt F) → (⟨S50000x128, .f32⟩ : BufTy).Contents (Elt F) → (⟨S50000x128, .f32⟩ : BufTy).Contents (Elt F)),
    unary main_arg8 main_v32 (broadcastInDim S1x128 ![1] bcast_S128_S1x128_1 : (⟨S128, .f32⟩ : BufTy).Contents (Elt F) → (⟨S1x128, .f32⟩ : BufTy).Contents (Elt F)),
    unary main_v32 main_v33 (broadcastInDim S50000x128 ![0, 1] bcast_S1x128_S50000x128_0_1 : (⟨S1x128, .f32⟩ : BufTy).Contents (Elt F) → (⟨S50000x128, .f32⟩ : BufTy).Contents (Elt F)),
    binary main_v31 main_v33 main_v34 (addf : (⟨S50000x128, .f32⟩ : BufTy).Contents (Elt F) → (⟨S50000x128, .f32⟩ : BufTy).Contents (Elt F) → (⟨S50000x128, .f32⟩ : BufTy).Contents (Elt F)) ]

/-- The last 48: the batch mean; the variance's 19 operations and its guard's 3 over their own buffers; the
    normalisation, scale and shift; the clamp's 3 over theirs; the relation product. -/
abbrev ops₃ : List (HloOp τ sig (Elt F)) :=
  [ nullary main_cst_4 (constant S_ .f32 0x00000000#32),
    binary main_v34 main_cst_4 main_v35 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_5 (constant S_ .f32 0x47435000#32),
    unary main_cst_5 main_v36 (broadcastInDim S128 ![] bcast_S_S128 : (⟨S_, .f32⟩ : BufTy).Contents (Elt F) → (⟨S128, .f32⟩ : BufTy).Contents (Elt F)),
    binary main_v35 main_v36 main_v37 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    nullary main_call0_cst (constant S_ .f32 0x00000000#32),
    binary main_v34 main_call0_cst main_call0_v0 (fun x v => Host.reduceAdd x v reducesTo_S50000x128_S128_d0 h_S_),
    unary main_call0_v0 main_call0_v1 (broadcastInDim S1x128 ![1] bcast_S128_S1x128_1),
    nullary main_call0_cst_0 (constant S_ .f32 0x47435000#32),
    unary main_call0_cst_0 main_call0_v2 (broadcastInDim S1x128 ![] bcast_S_S1x128),
    binary main_call0_v1 main_call0_v2 main_call0_v3 Host.divf,
    unary main_call0_v3 main_call0_v4 (broadcastInDim S50000x128 ![0, 1] bcast_S1x128_S50000x128_0_1),
    binary main_v34 main_call0_v4 main_call0_v5 subf,
    binary main_call0_v5 main_call0_v5 main_call0_v6 mulf,
    unary main_c_6 main_call0_v7 (sitofp (F := F) .f32),
    nullary main_call0_cst_1 (constant S_ .f32 0x47435000#32),
    binary main_call0_cst_1 main_call0_v7 main_call0_v8 subf,
    nullary main_call0_cst_2 (constant S_ .f32 0x00000000#32),
    binary main_call0_v6 main_call0_cst_2 main_call0_v9 (fun x v => Host.reduceAdd x v reducesTo_S50000x128_S128_d0 h_S_),
    unary main_call0_v8 main_call0_v10 (broadcastInDim S128 ![] bcast_S_S128),
    binary main_call0_v9 main_call0_v10 main_call0_v11 Host.divf,
    nullary main_call0_cst_3 (constant S_ .f32 0x00000000#32),
    binary main_call0_v8 main_call0_cst_3 main_call0_v12 (cmpf (F := F) .ogt),
    nullary main_call0_cst_4 (constant S_ .f32 0x7FC00000#32),
    unary main_call0_cst_4 main_call0_call0_v0 id,
    unary main_call0_call0_v0 main_call0_call0_v1 (broadcastInDim S128 ![] bcast_S_S128),
    ternary main_call0_v12 main_call0_v11 main_call0_call0_v1 main_v38 (fun p a b => select (broadcastInDim S128 ![] bcast_S_S128 p) a b),
    unary main_v37 main_v39 (broadcastInDim S1x128 ![1] bcast_S128_S1x128_1 : (⟨S128, .f32⟩ : BufTy).Contents (Elt F) → (⟨S1x128, .f32⟩ : BufTy).Contents (Elt F)),
    unary main_v39 main_v40 (broadcastInDim S50000x128 ![0, 1] bcast_S1x128_S50000x128_0_1 : (⟨S1x128, .f32⟩ : BufTy).Contents (Elt F) → (⟨S50000x128, .f32⟩ : BufTy).Contents (Elt F)),
    binary main_v34 main_v40 main_v41 (subf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v42 (broadcastInDim S128 ![] bcast_S_S128 : (⟨S_, .f32⟩ : BufTy).Contents (Elt F) → (⟨S128, .f32⟩ : BufTy).Contents (Elt F)),
    binary main_v38 main_v42 main_v43 (addf : (⟨S128, .f32⟩ : BufTy).Contents (Elt F) → (⟨S128, .f32⟩ : BufTy).Contents (Elt F) → (⟨S128, .f32⟩ : BufTy).Contents (Elt F)),
    unary main_v43 main_v44 (Host.rsqrt : (⟨S128, .f32⟩ : BufTy).Contents (Elt F) → (⟨S128, .f32⟩ : BufTy).Contents (Elt F)),
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v41 main_v46 main_v47 (mulf : (⟨S50000x128, .f32⟩ : BufTy).Contents (Elt F) → (⟨S50000x128, .f32⟩ : BufTy).Contents (Elt F) → (⟨S50000x128, .f32⟩ : BufTy).Contents (Elt F)),
    unary main_arg9 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (mulf : (⟨S50000x128, .f32⟩ : BufTy).Contents (Elt F) → (⟨S50000x128, .f32⟩ : BufTy).Contents (Elt F) → (⟨S50000x128, .f32⟩ : BufTy).Contents (Elt F)),
    unary main_arg10 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    nullary main_call1_cst (constant S_ .f32 0x00000000#32),
    unary main_call1_cst main_call1_v0 (broadcastInDim S50000x128 ![] bcast_S_S50000x128),
    binary main_v53 main_call1_v0 main_v54 maximumf,
    binary main_arg1 main_arg6 main_v55 ((fun l r => Host.dotGeneral dot_S200x128_S128x128_S200x128_1_0_0_1_n_n none l r) : (⟨S200x128, .f32⟩ : BufTy).Contents (Elt F) → (⟨S128x128, .f32⟩ : BufTy).Contents (Elt F) → (⟨S200x128, .f32⟩ : BufTy).Contents (Elt F)) ]

/-- @main's 89 operations, in order. -/
abbrev ops : List (HloOp τ sig (Elt F)) := ops₁ ++ (ops₂ ++ ops₃)

-- 89 binds re-associated: the rewrite under the chain recurses once per statement
set_option maxRecDepth 8192 in
set_option maxHeartbeats 4000000 in
/-- @main is that straight line: its two windows in order, the three functions' definitions unfolded at their calls
    over the calls' buffer records, sequencing reassociated. A typed reference built from a literal one carries the
    identity transport, so an operation over typed references is the plain operation over the buffers. -/
theorem main_eq (c : Dev nD) : main (F := F) c = seq ops := by
  simp only [main, main_part0, main_part1, fn_var.body, fn_where.body, fn_relu.body, ops, ops₁, ops₂, ops₃, seq_append, seq,
    bind_assoc, pure_bind]
  rfl

theorem ops₁_sub : (ops₁ : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., binary_bufs_sub ..⟩
theorem ops₂_sub : (ops₂ : List (HloOp τ sig (Elt F))).Forall fun op => op.bufs ⊆ tcRefs τ sig :=
  ⟨binary_bufs_sub .., unary_bufs_sub .., unary_bufs_sub .., binary_bufs_sub .., nullary_bufs_sub .., unary_bufs_sub .., unary_bufs_sub .., ternary_bufs_sub .., unary_bufs_sub .., binary_bufs_sub .., binary_bufs_sub .., binary_bufs_sub .., nullary_bufs_sub .., unary_bufs_sub .., binary_bufs_sub .., unary_bufs_sub .., unary_bufs_sub .., binary_bufs_sub ..⟩
theorem ops₃_sub : (ops₃ : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
theorem ops_sub : (ops : List (HloOp τ sig (Elt F))).Forall fun op => op.bufs ⊆ tcRefs τ sig :=
  List.forall_append.mpr ⟨ops₁_sub, List.forall_append.mpr ⟨ops₂_sub, ops₃_sub⟩⟩

/-- Every operation determines its results. -/
theorem ops_fresh : ∀ op ∈ (ops : List (HloOp τ sig (Elt F))), op.fresh = ∅ :=
  List.forall_iff_forall_mem.mp (List.forall_append.mpr
    ⟨(⟨rfl, rfl, rfl, rfl, rfl, rfl, rfl, rfl, rfl, rfl, rfl, rfl, rfl, rfl, rfl, rfl, rfl, rfl, rfl, rfl, rfl, rfl, rfl⟩ : (ops₁ : List (HloOp τ sig (Elt F))).Forall fun op => op.fresh = ∅),
     List.forall_append.mpr
      ⟨(⟨rfl, rfl, rfl, rfl, rfl, rfl, rfl, rfl, rfl, rfl, rfl, rfl, rfl, rfl, rfl, rfl, rfl, rfl⟩ : (ops₂ : List (HloOp τ sig (Elt F))).Forall fun op => op.fresh = ∅),
       (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (ops₃ : List (HloOp τ sig (Elt F))).Forall fun op => op.fresh = ∅)⟩⟩)

theorem scopedRefs_eq : (Finset.univ.filter fun b : Ref sig .tc => b.isScoped) = ∅ := by decide
theorem scopedSems_eq : (Finset.univ.filter fun sm : SemLoc sig => sm.isScoped .tc) = ∅ := by decide

/-! ## What each stretch writes, and what it keeps -/

/-- The singleton of a listed reference lies in the list's image among the device's buffers. -/
theorem single_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The references the three stretches write, one an operation. -/
abbrev W₁ : List (Ref sig .tc) := [main_c, main_v0, main_v1, main_c_0, main_v2, main_v3, main_v4, main_v5, main_v6, main_c_1, main_v7, main_v8, main_c_2, main_v9, main_v10, main_v11, main_v12, main_v13, main_v14, main_v15, main_v16, main_v17, main_v18]
abbrev W₂ : List (Ref sig .tc) := [main_v19, main_v20, main_v21, main_v22, main_cst, main_v23, main_v24, main_v25, main_v26, main_v27, main_v28, main_v29, main_cst_3, main_v30, main_v31, main_v32, main_v33, main_v34]
abbrev W₃ : List (Ref sig .tc) := [main_cst_4, main_v35, main_cst_5, main_v36, main_v37, main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v38, main_v39, main_v40, main_v41, main_cst_7, main_v42, main_v43, main_v44, main_v45, main_v46, main_v47, main_v48, main_v49, main_v50, main_v51, main_v52, main_v53, main_call1_cst, main_call1_v0, main_v54, main_v55]

theorem ops₁_writes : (ops₁ : List (HloOp τ sig (Elt F))).Forall fun op =>
    op.writes ⊆ (W₁.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem ops₂_writes : (ops₂ : List (HloOp τ sig (Elt F))).Forall fun op =>
    op.writes ⊆ (W₂.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem ops₃_writes : (ops₃ : List (HloOp τ sig (Elt F))).Forall fun op =>
    op.writes ⊆ (W₃.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- A reference a stretch does not write keeps its contents through it. -/
theorem keep₁ (V : Valuation τ sig (Elt F)) (r : Ref sig .tc) (h : r ∉ W₁) :
    after ops₁ V (Proc.devRef .tc r) = V (Proc.devRef .tc r) := after_of_writes_sub ops₁ V ops₁_writes h
theorem keep₂ (V : Valuation τ sig (Elt F)) (r : Ref sig .tc) (h : r ∉ W₂) :
    after ops₂ V (Proc.devRef .tc r) = V (Proc.devRef .tc r) := after_of_writes_sub ops₂ V ops₂_writes h
theorem keep₃ (V : Valuation τ sig (Elt F)) (r : Ref sig .tc) (h : r ∉ W₃) :
    after ops₃ V (Proc.devRef .tc r) = V (Proc.devRef .tc r) := after_of_writes_sub ops₃ V ops₃_writes h

/-- A reference no stretch writes keeps its contents through the whole line. -/
theorem ops_keep (V : Valuation τ sig (Elt F)) (r : Ref sig .tc) (h₁ : r ∉ W₁) (h₂ : r ∉ W₂) (h₃ : r ∉ W₃) :
    after ops V (Proc.devRef .tc r) = V (Proc.devRef .tc r) := by
  show after (ops₁ ++ (ops₂ ++ ops₃)) V _ = _
  rw [after_append, after_append, keep₃ _ r h₃, keep₂ _ r h₂, keep₁ _ r h₁]

end Operations

/-! ## The three stretches read at their results, from any contents -/

/-- After the first stretch the first half's product buffer holds the first 400000 rows of the product of the two
    gathered arrays, times the first weight. -/
theorem v16_eq (W : Valuation τ sig (Elt Ideal)) :
    after (ops₁ (F := Ideal)) W (Proc.devRef .tc main_v16)
      = Host.dotGeneral (φ₂ := .f32) dot_S400000x128_S128x128_S400000x128_1_0_0_1_n_n none
          (extractStridedSlice S400000x128 ![0, 0] (mulf (gxOf (W (Proc.devRef .tc main_arg0)) (W (Proc.devRef .tc main_arg12))) (grOf (W (Proc.devRef .tc main_arg1)) (W (Proc.devRef .tc main_arg11)))) slices_S800000x128_S400000x128_0_0) (W (Proc.devRef .tc main_arg3) : Arr SW) := by
  unfold gxOf grOf wrapIdx
  after_results_simp
  all_goals rfl

/-- And the second half's the last 400000 rows, times the second weight. -/
theorem v18_eq (W : Valuation τ sig (Elt Ideal)) :
    after (ops₁ (F := Ideal)) W (Proc.devRef .tc main_v18)
      = Host.dotGeneral (φ₂ := .f32) dot_S400000x128_S128x128_S400000x128_1_0_0_1_n_n none
          (extractStridedSlice S400000x128 ![400000, 0] (mulf (gxOf (W (Proc.devRef .tc main_arg0)) (W (Proc.devRef .tc main_arg12))) (grOf (W (Proc.devRef .tc main_arg1)) (W (Proc.devRef .tc main_arg11)))) slices_S800000x128_S400000x128_400000_0) (W (Proc.devRef .tc main_arg4) : Arr SW) := by
  unfold gxOf grOf wrapIdx
  after_results_simp
  all_goals rfl

/-- After the second stretch the node buffer holds `refHpre` of the aggregated messages, the messages the two halves
    concatenated and scaled by the edge norm. -/
theorem hpre_eq (W : Valuation τ sig (Elt Ideal)) :
    after (ops₂ (F := Ideal)) W (Proc.devRef .tc main_v34)
      = refHpre (aggOf (W (Proc.devRef .tc main_arg13))
          (mulf (concatenate S800000x128 0 [⟨S400000x128, (W (Proc.devRef .tc main_v16))⟩, ⟨S400000x128, (W (Proc.devRef .tc main_v18))⟩]
              concatenates_S400000x128_S400000x128_S800000x128_d0)
            (broadcastInDim S800000x128 ![0, 1] bcast_S800000x1_S800000x128_0_1
              (broadcastInDim S800000x1 ![0] bcast_S800000_S800000x1_0 (W (Proc.devRef .tc main_arg2))))))
          (W (Proc.devRef .tc main_arg0)) (W (Proc.devRef .tc main_arg7)) (W (Proc.devRef .tc main_arg5)) (W (Proc.devRef .tc main_arg8)) := by
  unfold refHpre aggOf downRows
  after_results_simp
  all_goals rfl

/-- After the third stretch the first result holds `refOut` of the node buffer. -/
theorem out_eq (W : Valuation τ sig (Elt Ideal)) :
    after (ops₃ (F := Ideal)) W (Proc.devRef .tc main_v54)
      = refOut (W (Proc.devRef .tc main_v34)) (W (Proc.devRef .tc main_arg9)) (W (Proc.devRef .tc main_arg10)) := by
  unfold refOut refMean refVar refDev refCount refColSum downRows
  after_results_simp
  all_goals rfl

/-- After the third stretch the second result holds `refRel` of the relation table and its weight. -/
theorem rel₃_eq (W : Valuation τ sig (Elt Ideal)) :
    after (ops₃ (F := Ideal)) W (Proc.devRef .tc main_v55) = refRel (W (Proc.devRef .tc main_arg1)) (W (Proc.devRef .tc main_arg6)) := by
  unfold refRel
  after_results_simp
  all_goals rfl

/-! ## The whole line read at the two results -/

theorem layer_eq (V : Valuation τ sig (Elt Ideal)) :
    after (ops (F := Ideal)) V (Proc.devRef .tc main_v54)
      = refLayer (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  show after (ops₁ ++ (ops₂ ++ ops₃)) V _ = _
  unfold refLayer refMsg
  rw [after_append, after_append, out_eq, hpre_eq, v16_eq, v18_eq,
    keep₂ _ main_arg9 (by decide), keep₂ _ main_arg10 (by decide),
    keep₁ _ main_arg9 (by decide), keep₁ _ main_arg10 (by decide), keep₁ _ main_arg13 (by decide),
    keep₁ _ main_arg2 (by decide), keep₁ _ main_arg0 (by decide), keep₁ _ main_arg7 (by decide),
    keep₁ _ main_arg5 (by decide), keep₁ _ main_arg8 (by decide)]

theorem rel_eq (V : Valuation τ sig (Elt Ideal)) :
    after (ops (F := Ideal)) V (Proc.devRef .tc main_v55) = refRel (V (Proc.devRef .tc main_arg1)) (V (Proc.devRef .tc main_arg6)) := by
  show after (ops₁ ++ (ops₂ ++ ops₃)) V _ = _
  rw [after_append, after_append, rel₃_eq,
    keep₂ _ main_arg1 (by decide), keep₂ _ main_arg6 (by decide), keep₁ _ main_arg1 (by decide), keep₁ _ main_arg6 (by decide)]

/-- On every device, from any memory with zero counters: every weakly fair execution of @main terminates with the node
    output at `refLayer` and the relation output at `refRel` of the arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v54)
        = refLayer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v55) = refRel (m ((c.tc : Thread nD τ).loc main_arg1)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  exact (θ_run (defs (F := Ideal)) _ _).mono
    (fun _ h c => ⟨(h c main_v54).trans (layer_eq _), (h c main_v55).trans (rel_eq _),
      (h c main_arg0).trans (ops_keep _ main_arg0 (by decide) (by decide) (by decide)),
      (h c main_arg1).trans (ops_keep _ main_arg1 (by decide) (by decide) (by decide)),
      (h c main_arg2).trans (ops_keep _ main_arg2 (by decide) (by decide) (by decide)),
      (h c main_arg3).trans (ops_keep _ main_arg3 (by decide) (by decide) (by decide)),
      (h c main_arg4).trans (ops_keep _ main_arg4 (by decide) (by decide) (by decide)),
      (h c main_arg5).trans (ops_keep _ main_arg5 (by decide) (by decide) (by decide)),
      (h c main_arg6).trans (ops_keep _ main_arg6 (by decide) (by decide) (by decide)),
      (h c main_arg7).trans (ops_keep _ main_arg7 (by decide) (by decide) (by decide)),
      (h c main_arg8).trans (ops_keep _ main_arg8 (by decide) (by decide) (by decide)),
      (h c main_arg9).trans (ops_keep _ main_arg9 (by decide) (by decide) (by decide)),
      (h c main_arg10).trans (ops_keep _ main_arg10 (by decide) (by decide) (by decide)),
      (h c main_arg11).trans (ops_keep _ main_arg11 (by decide) (by decide) (by decide)),
      (h c main_arg12).trans (ops_keep _ main_arg12 (by decide) (by decide) (by decide)),
      (h c main_arg13).trans (ops_keep _ main_arg13 (by decide) (by decide) (by decide))⟩)
    (run_seq scopedRefs_eq scopedSems_eq defs main (fun _ => ops) main_eq (fun _ => ops_sub) m ρ (fun _ => ops_fresh))

end Cert.ReferenceIdeal.Hand

end
-- ==== Proof.RefOps.lean ====
/-
  The reference's five groups of host operations, each read index by index, are the specification's functions:
  a slice is a row offset, a `dot_general` with one contracted axis a sum over it, a concatenation of two halves a
  case split on the row, a broadcast a repeated entry, a `reduce add` from zero the plain sum, a division by the
  constant 50000 the mean; the guard of the variance's divisor is `50000 - 0 > 0`, true.
-/
import proofs.«152699_j14370960573129_1_alg».proof.Proof.RefDefs
import proofs.«152699_j14370960573129_1_alg».proof.Proof.LibIdealReal
import Idealize.ShloMosaic.Lib.Pipeline.Value
import Idealize.ShloMosaic.Lib.ValueLayout
import Idealize.ShloMosaic.PureOps.Ideal.Laws
import proofs.«152699_j14370960573129_1_alg».proof.Proof.LibPlainMatmul
import proofs.«152699_j14370960573129_1_alg».proof.Proof.Algebra

noncomputable section

namespace Cert.ReferenceIdeal.Hand

open Idealize.ShloMosaic Idealize.ShloMosaic.TcCoe Idealize.ShloMosaic.ValueIdx Idealize.SL.Sem
open Cert.ReferenceIdeal Cert.ReferenceIdeal.Gen Cert.RelConv
open scoped BigOperators

/-! ## The non-pointwise operations read at an entry -/

/-- A plain [M, K] x [K, N] product on the host, read at entry (r, c): the sum over k of a (r, k) * b (k, c). -/
theorem dotPlain_apply {M K N : ℕ} (prec : Option ContractPrecision) (sched : HostSchedule) {φ₁ φ₂ : FTy}
    (a : FVec Ideal ⟨2, ![M, K]⟩ φ₁) (b : FVec Ideal ⟨2, ![K, N]⟩ φ₂) (r : Fin M) (c : Fin N) :
    FloatOps.dotGeneral (DotDims.plain M K N) prec sched a b (ix2 r c) = ∑ k : Fin K, a (ix2 r k) * b (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact Cert.PlainMatmul.lhs_row _ _
      | ⟨1, _⟩ => exact (Cert.PlainMatmul.lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (Cert.PlainMatmul.rhs_row _ _).trans hk
      | ⟨1, _⟩ => exact Cert.PlainMatmul.rhs_col _ _)
  rw [el, er]

/-- A scalar constant broadcast to any shape reads its word at every index. -/
theorem bcastConst_apply {t : Shape} (h : S_.BroadcastsInDim t (![] : Fin 0 → Fin t.rank)) (w : BitVec 32) (j : t.Idx) :
    broadcastInDim t ![] h (constant (F := Ideal) S_ .f32 w) j = Ideal.ofBits .f32 w := rfl

/-- A [1, 128] row broadcast down the 50000 rows reads, at (p, q), the row's entry q. -/
theorem rowDown_apply (r : Arr SRow) (p : Fin 50000) (q : Fin 128) :
    broadcastInDim S50000x128 ![0, 1] bcast_S1x128_S50000x128_0_1 r (ix2 p q) = r (ix2 (0 : Fin 1) q) :=
  broadcastInDim_apply _ _ _ _ _ (fun a => by
    match a with
    | ⟨0, _⟩ => rfl
    | ⟨1, _⟩ => rfl)

/-- A [128] vector laid out as a [1, 128] row reads, at (0, q), the vector's entry q. -/
theorem vecRow_apply (v : FVec Ideal S128 .f32) (z : Fin 1) (q : Fin 128) :
    broadcastInDim S1x128 ![1] bcast_S128_S1x128_1 v (ix2 z q) = v (ix1 q) :=
  broadcastInDim_apply _ _ _ _ _ (fun a => by
    match a with
    | ⟨0, _⟩ => rfl)

/-- A [128] vector broadcast down the rows reads, at (p, q), the vector's entry q. -/
theorem downRows_apply (v : FVec Ideal S128 .f32) (p : Fin 50000) (q : Fin 128) : downRows v (ix2 p q) = v (ix1 q) := by
  unfold downRows
  rw [rowDown_apply, vecRow_apply]

/-- The per-edge norm broadcast along the 128 features reads, at (e, q), the norm of edge e. -/
theorem normAcross_apply (en : FVec Ideal S800000 .f32) (e : Fin 800000) (q : Fin 128) :
    broadcastInDim S800000x128 ![0, 1] bcast_S800000x1_S800000x128_0_1
      (broadcastInDim S800000x1 ![0] bcast_S800000_S800000x1_0 en) (ix2 e q) = en (ix1 e) := by
  refine (broadcastInDim_apply _ _ _ _ (ix2 e (0 : Fin 1)) (fun a => by
    match a with
    | ⟨0, _⟩ => rfl
    | ⟨1, _⟩ => rfl)).trans ?_
  exact broadcastInDim_apply _ _ _ _ (ix1 e) (fun a => by
    match a with
    | ⟨0, _⟩ => rfl)

/-- The column sum from zero, read at a column: the plain sum over the nodes. -/
theorem refColSum_apply (h : Arr SV) (j : Fin 128) : refColSum h (ix1 j) = ∑ v : Fin 50000, h (ix2 v j) := by
  unfold refColSum Host.reduceAdd
  rw [Ideal.hostReduceAdd_def]
  have hred : S50000x128.Reduces [0] S128 := by decide
  rw [Ideal.hostReduceAdd_single reducesTo_S50000x128_S128_d0 hred]
  show Ideal.ofBits .f32 0x00000000#32 + _ = _
  rw [Ideal.ofBits_zero_f32, zero_add]
  refine Finset.sum_congr rfl fun v _ => congrArg h ?_
  funext a
  match a with
  | ⟨0, _⟩ => rfl
  | ⟨1, _⟩ => rfl

/-- A scalar broadcast to any shape reads the scalar's one entry at every index. -/
theorem bcastScalar_apply {α : Type} {t : Shape} (h : S_.BroadcastsInDim t (![] : Fin 0 → Fin t.rank)) (x : S_.Idx → α)
    (j : t.Idx) : broadcastInDim t ![] h x j = x ix0 :=
  broadcastInDim_apply _ _ _ _ ix0 (fun a => a.elim0)

/-- The messages before scaling, at (e, q). -/
theorem msgOf_apply (ed : Arr SE) (inW outW : Arr SW) (e : Fin 800000) (q : Fin 128) :
    msgOf ed inW outW (ix2 e q) = ∑ k : Fin 128, ed (ix2 e k) * halfW inW outW e (ix2 k q) := rfl

/-- An edge array scaled by the norms, at (e, q). -/
theorem scaleEdges_apply (a : Arr SE) (en : FVec Ideal SEdge .f32) (e : Fin 800000) (q : Fin 128) :
    scaleEdges a en (ix2 e q) = a (ix2 e q) * en (ix1 e) := rfl

/-- The two halves stacked, at a row of the first half: the first piece at the same row. -/
theorem concatHalves_apply_left (A B : FVec Ideal S400000x128 .f32) (e : Fin 800000) (q : Fin 128) (he : e.val < 400000) :
    concatenate S800000x128 0 [⟨S400000x128, A⟩, ⟨S400000x128, B⟩] concatenates_S400000x128_S400000x128_S800000x128_d0 (ix2 e q)
      = A (ix2 (⟨e.val, he⟩ : Fin 400000) q) :=
  concatenate_pair_apply_left (t := S800000x128) (s₁ := S400000x128) (s₂ := S400000x128) 0 A B _ (ix2 e q) rfl
    (ix2 (⟨e.val, he⟩ : Fin 400000) q) (fun b => by
      match b with
      | ⟨0, _⟩ => rfl
      | ⟨1, _⟩ => rfl)

/-- The two halves stacked, at a row of the second half: the second piece at the row less 400000. -/
theorem concatHalves_apply_right (A B : FVec Ideal S400000x128 .f32) (e : Fin 800000) (q : Fin 128)
    (hlt : e.val - 400000 < 400000) (he : 400000 ≤ e.val) :
    concatenate S800000x128 0 [⟨S400000x128, A⟩, ⟨S400000x128, B⟩] concatenates_S400000x128_S400000x128_S800000x128_d0 (ix2 e q)
      = B (ix2 (⟨e.val - 400000, hlt⟩ : Fin 400000) q) :=
  concatenate_pair_apply_right (t := S800000x128) (s₁ := S400000x128) (s₂ := S400000x128) 0 A B _ (ix2 e q) rfl rfl
    (ix2 (⟨e.val - 400000, hlt⟩ : Fin 400000) q) (fun b hb => by
      -- the one axis other than the stacking axis is axis 1
      have hlt2 : b.val < 2 := b.isLt
      have h0 : b.val ≠ 0 := fun h0 => hb (Fin.ext h0)
      have hb1 : b = ⟨1, by decide⟩ := Fin.ext (by show b.val = 1; omega)
      subst hb1
      rfl) (by show e.val - 400000 + 400000 = e.val; omega)

theorem refMsg_eq (ed : Arr SE) (inW outW : Arr SW) (en : FVec Ideal S800000 .f32) :
    refMsg ed inW outW en = scaleEdges (msgOf ed inW outW) en := by
  funext i
  obtain ⟨e, q, rfl⟩ : ∃ (e : Fin 800000) (q : Fin 128), i = ix2 e q := ⟨i 0, i 1, eq_ix2 i⟩
  rw [scaleEdges_apply, msgOf_apply]
  unfold refMsg
  rw [mulf_apply, normAcross_apply]
  refine congrArg (· * en (ix1 e)) ?_
  by_cases he : e.val < 400000
  · -- a row of the first half: the first piece, the slice from row 0, the weight inW
    rw [concatHalves_apply_left _ _ e q he]
    refine (dotPlain_apply none .single _ inW _ q).trans ?_
    refine Finset.sum_congr rfl fun k _ => ?_
    rw [slice2_axis0_apply 0 ed _ (⟨e.val, he⟩ : Fin 400000) k e (Nat.zero_add _).symm]
    unfold halfW
    rw [if_pos he]
  · -- a row of the second half: the second piece, the slice from row 400000, the weight outW
    have hlt : e.val - 400000 < 400000 := by have := e.isLt; omega
    rw [concatHalves_apply_right _ _ e q hlt (Nat.le_of_not_lt he)]
    refine (dotPlain_apply none .single _ outW _ q).trans ?_
    refine Finset.sum_congr rfl fun k _ => ?_
    rw [slice2_axis0_apply 400000 ed _ (⟨e.val - 400000, hlt⟩ : Fin 400000) k e (by show e.val = 400000 + (e.val - 400000); omega)]
    unfold halfW
    rw [if_neg he]

theorem refHpre_eq (hagg x : Arr SV) (lr : Arr SRow) (lw : Arr SW) (bias : FVec Ideal S128 .f32) :
    refHpre hagg x lr lw bias = hpre hagg x lr lw (rowOfVec bias) := by
  funext i
  obtain ⟨p, q, rfl⟩ : ∃ (p : Fin 50000) (q : Fin 128), i = ix2 p q := ⟨i 0, i 1, eq_ix2 i⟩
  unfold refHpre hpre selfLoop rowOfVec third
  rw [addf_apply, mulf_apply, addf_apply, downRows_apply, bcastConst_apply]
  have hdot : Host.dotGeneral dot_S50000x128_S128x128_S50000x128_1_0_0_1_n_n none
      (mulf x (broadcastInDim S50000x128 ![0, 1] bcast_S1x128_S50000x128_0_1 lr)) lw (ix2 p q)
      = ∑ k : Fin 128, (x (ix2 p k) * lr (ix2 (0 : Fin 1) k)) * lw (ix2 k q) := by
    refine (dotPlain_apply none .single _ lw p q).trans ?_
    refine Finset.sum_congr rfl fun k _ => ?_
    rw [mulf_apply, rowDown_apply]
  rw [hdot]

theorem refMean_apply (h : Arr SV) (j : Fin 128) : refMean h (ix1 j) = mean h j := by
  unfold refMean Host.divf mean colSum nNodes
  show Ideal.div (refColSum h (ix1 j)) (Ideal.ofBits .f32 0x47435000#32) = _
  rw [refColSum_apply]

/-- The deviations from the mean, at (p, q). -/
theorem refDev_apply (h : Arr SV) (p : Fin 50000) (q : Fin 128) : refDev h (ix2 p q) = h (ix2 p q) - mean h q := by
  unfold refDev
  rw [subf_apply, rowDown_apply]
  show h (ix2 p q) - Ideal.div (broadcastInDim S1x128 ![1] bcast_S128_S1x128_1 (refColSum h) (ix2 (0 : Fin 1) q))
    (Ideal.ofBits .f32 0x47435000#32) = _
  rw [vecRow_apply, refColSum_apply]
  rfl

/-- The divisor 50000 - 0 is the number of nodes. -/
theorem refCount_apply (k : S_.Idx) : refCount k = nNodes := by
  show Ideal.ofBits .f32 0x47435000#32 - (((0#32 : BitVec 32).toInt : ℝ) : EReal) = nNodes
  unfold nNodes
  simp

theorem refVar_apply (h : Arr SV) (j : Fin 128) : refVar h (ix1 j) = varOfDeviations h j := by
  unfold refVar
  rw [select_apply]
  -- the guard 50000 - 0 > 0 holds
  have hg : broadcastInDim S128 ![] bcast_S_S128 (cmpf .ogt refCount (constant S_ .f32 0x00000000#32)) (ix1 j) = 1#1 := by
    rw [bcastScalar_apply, cmpf_apply, refCount_apply, constant_apply, Ideal.cmpf_def, nNodes_eq,
      Cert.LibIdealReal.ofBits_zero_f32_coe, Cert.LibIdealReal.cmp_ogt_coe_eq_one_iff]
    norm_num
  rw [hg, select_one]
  show Ideal.div (refColSum (mulf (refDev h) (refDev h)) (ix1 j)) (broadcastInDim S128 ![] bcast_S_S128 refCount (ix1 j)) = _
  rw [bcastScalar_apply, refCount_apply, refColSum_apply]
  unfold varOfDeviations
  refine congrArg (Ideal.div · nNodes) (Finset.sum_congr rfl fun v _ => ?_)
  rw [mulf_apply, refDev_apply]

/-- The host's inverse square root at an index is the scalar one. -/
theorem hostRsqrt_apply {s : Shape} (x : FVec Ideal s .f32) (i : s.Idx) : Host.rsqrt x i = Ideal.rsqrt (x i) := rfl

/-- The normalised output with the variance from squared deviations, at (p, q). -/
theorem outOfDeviations_apply (h : Arr SV) (g b : FVec Ideal SVec .f32) (p : Fin 50000) (q : Fin 128) :
    outOfDeviations h g b (ix2 p q)
      = max ((((h (ix2 p q) - mean h q) * Ideal.rsqrt (varOfDeviations h q + eps)) * g (ix1 q)) + b (ix1 q)) 0 := rfl

theorem refOut_eq (h : Arr SV) (g b : FVec Ideal S128 .f32) : refOut h g b = outOfDeviations h g b := by
  funext i
  obtain ⟨p, q, rfl⟩ : ∃ (p : Fin 50000) (q : Fin 128), i = ix2 p q := ⟨i 0, i 1, eq_ix2 i⟩
  rw [outOfDeviations_apply]
  unfold refOut eps
  rw [maximumf_apply, addf_apply, mulf_apply, mulf_apply, subf_apply, downRows_apply, downRows_apply, downRows_apply,
    downRows_apply, bcastConst_apply, Ideal.ofBits_zero_f32, refMean_apply, hostRsqrt_apply, addf_apply, refVar_apply,
    bcastConst_apply]

theorem refRel_eq (rel : Arr SR) (w : Arr SW) : refRel rel w = relOut rel w := by
  funext i
  obtain ⟨p, q, rfl⟩ : ∃ (p : Fin 200) (q : Fin 128), i = ix2 p q := ⟨i 0, i 1, eq_ix2 i⟩
  unfold refRel relOut
  exact dotPlain_apply none .single rel w p q

/-- The reference's node output is the layer with the message scaled last and the variance from squared deviations. -/
theorem refLayer_eq (x : Arr SV) (rel : Arr SR) (en : FVec Ideal S800000 .f32) (inW outW lw : Arr SW) (lr : Arr SRow)
    (bias g b : FVec Ideal S128 .f32) (et src dst : IVec S800000 32) :
    refLayer x rel en inW outW lw lr bias g b et src dst
      = layerScaledLast (aggOf dst) (gxOf x src) (grOf rel et) en inW outW x lr lw bias g b := by
  unfold refLayer layerScaledLast msgScaledLast
  rw [refOut_eq, refHpre_eq, refMsg_eq]
  have hm : mulf (gxOf x src) (grOf rel et) = prodE (gxOf x src) (grOf rel et) := rfl
  rw [hm]

end Cert.ReferenceIdeal.Hand

end
-- ==== Proof.Pre.lean ====
/-
  The precondition says every float input is finite: `|x| < +inf` for every entry of each of the eleven float
  arrays, the eleven tests joined by `and`. An extended real with `|x| < +inf` is a real number.
-/
import proofs.«152699_j14370960573129_1_alg».proof.Defs
import proofs.«152699_j14370960573129_1_alg».proof.Proof.Gen.KernelIdeal
import proofs.«152699_j14370960573129_1_alg».proof.Proof.Gen.Pre_finite_inputs
import proofs.«152699_j14370960573129_1_alg».proof.Proof.Spec
import Idealize.ShloMosaic.Lib.ReduceAll

noncomputable section

namespace Cert.Proof.Finite

open Idealize.ShloMosaic Idealize.ShloMosaic.TcCoe Idealize.SL.Sem Cert.RelConv

/-- The result shape of a reduction over every axis has exactly one index. -/
instance : Subsingleton Cert.Pre_finite_inputs.S_.Idx := ⟨fun a b => funext fun d => d.elim0⟩

/-- An extended real whose absolute value tests below the pattern of `+∞` is a real number: at `⊥` and at `⊤`
    the absolute value `max x (-x)` is `⊤`, which is not below `⊤`. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  change Ideal.cmp .olt (max x (-x)) (Ideal.ofBits .f32 0x7F800000#32) = 1#1 at h
  induction x using EReal.rec with
  | bot => exfalso; revert h; simp [Ideal.cmp, Ideal.ofBits, Ideal.ieee]
  | coe r => exact ⟨r, rfl⟩
  | top => exfalso; revert h; simp [Ideal.cmp, Ideal.ofBits, Ideal.ieee]

/-- `jnp.all (|a| < +∞)` read back: when the reduction by `and` of the entrywise tests is one, every entry of
    `a` is a real number. -/
theorem allReal_of_all_finite {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
        (cmpf .olt (Host.absf a) (broadcastInDim S ![] hb (constant (F := Ideal) Cert.Pre_finite_inputs.S_ .f32 0x7F800000#32)))
        (constantI Cert.Pre_finite_inputs.S_ 1 1#1) hr hu ValueIdx.ix0 = 1#1) : AllReal a := by
  intro i
  have hi := Host.reduce_andi_all _ _ hr hu ValueIdx.ix0 e i
  exact isReal_of_abs_lt_inf (a i) hi

/-- Under the precondition each of the eleven float argument arrays has real entries, on every device. -/
theorem realArgs_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (S := Cert.KernelIdeal.bufTy .hbm ⟨0, by decide⟩ |>.1) (m ((c.tc : Thread Cert.KernelIdeal.nD Cert.KernelIdeal.τ).loc Cert.KernelIdeal.main_arg0)) ∧
    AllReal (S := Cert.KernelIdeal.bufTy .hbm ⟨1, by decide⟩ |>.1) (m ((c.tc : Thread Cert.KernelIdeal.nD Cert.KernelIdeal.τ).loc Cert.KernelIdeal.main_arg1)) ∧
    AllReal (S := Cert.KernelIdeal.bufTy .hbm ⟨2, by decide⟩ |>.1) (m ((c.tc : Thread Cert.KernelIdeal.nD Cert.KernelIdeal.τ).loc Cert.KernelIdeal.main_arg2)) ∧
    AllReal (S := Cert.KernelIdeal.bufTy .hbm ⟨3, by decide⟩ |>.1) (m ((c.tc : Thread Cert.KernelIdeal.nD Cert.KernelIdeal.τ).loc Cert.KernelIdeal.main_arg3)) ∧
    AllReal (S := Cert.KernelIdeal.bufTy .hbm ⟨4, by decide⟩ |>.1) (m ((c.tc : Thread Cert.KernelIdeal.nD Cert.KernelIdeal.τ).loc Cert.KernelIdeal.main_arg4)) ∧
    AllReal (S := Cert.KernelIdeal.bufTy .hbm ⟨5, by decide⟩ |>.1) (m ((c.tc : Thread Cert.KernelIdeal.nD Cert.KernelIdeal.τ).loc Cert.KernelIdeal.main_arg5)) ∧
    AllReal (S := Cert.KernelIdeal.bufTy .hbm ⟨6, by decide⟩ |>.1) (m ((c.tc : Thread Cert.KernelIdeal.nD Cert.KernelIdeal.τ).loc Cert.KernelIdeal.main_arg6)) ∧
    AllReal (S := Cert.KernelIdeal.bufTy .hbm ⟨7, by decide⟩ |>.1) (m ((c.tc : Thread Cert.KernelIdeal.nD Cert.KernelIdeal.τ).loc Cert.KernelIdeal.main_arg7)) ∧
    AllReal (S := Cert.KernelIdeal.bufTy .hbm ⟨8, by decide⟩ |>.1) (m ((c.tc : Thread Cert.KernelIdeal.nD Cert.KernelIdeal.τ).loc Cert.KernelIdeal.main_arg8)) ∧
    AllReal (S := Cert.KernelIdeal.bufTy .hbm ⟨9, by decide⟩ |>.1) (m ((c.tc : Thread Cert.KernelIdeal.nD Cert.KernelIdeal.τ).loc Cert.KernelIdeal.main_arg9)) ∧
    AllReal (S := Cert.KernelIdeal.bufTy .hbm ⟨10, by decide⟩ |>.1) (m ((c.tc : Thread Cert.KernelIdeal.nD Cert.KernelIdeal.τ).loc Cert.KernelIdeal.main_arg10)) := by
  have h0 := congrFun (h c) ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨allReal_of_all_finite _ _ _ _ e0, allReal_of_all_finite _ _ _ _ e1, allReal_of_all_finite _ _ _ _ e2,
    allReal_of_all_finite _ _ _ _ e3, allReal_of_all_finite _ _ _ _ e4, allReal_of_all_finite _ _ _ _ e5,
    allReal_of_all_finite _ _ _ _ e6, allReal_of_all_finite _ _ _ _ e7, allReal_of_all_finite _ _ _ _ e8,
    allReal_of_all_finite _ _ _ _ e9, allReal_of_all_finite _ _ _ _ e10⟩

end Cert.Proof.Finite

end
-- ==== Proof.lean ====
/-
  A relational graph-convolution layer on 50000 nodes and 800000 edges, as a program of four kernel regions among host
  operations, against its plain array reference: equal over the extended reals whenever every float input is finite.

  Both programs gather the source nodes' rows and the relations' rows per edge, multiply them, push the first half of
  the edges through one 128 x 128 weight and the second half through another, scale each edge by its norm, sum the
  messages into their destination nodes, add a self-loop product, scale by the float nearest 1/3, add a bias, normalise
  each feature column with the batch mean and variance, scale, shift and clamp at zero; and both send the relation
  embeddings through a fourth weight. They differ in two places. The kernel program multiplies the edge features by the
  norm BEFORE the product with the weight, the reference multiplies the message AFTER it: equal because a real factor
  moves across a finite sum of reals. The kernel program accumulates column sums and sums of squares tile by tile and
  takes the variance as (sum of squares)/N - mean^2, the reference takes the mean of squared deviations: equal for a
  column of reals. Neither law holds at infinities, which is where the precondition (every float input finite) is used:
  it makes every intermediate array up to the normalisation real. Tilings, the bf16 round trips (the identity at the
  ideal values) and the order of the sums change nothing.

  The frames of the two kernel programs are the generated ones; the reference's frame is its run with the results
  dropped; the ideal pass rewrote nothing, so `preserves` is `True`.
-/
import proofs.«152699_j14370960573129_1_alg».proof.Defs
import proofs.«152699_j14370960573129_1_alg».proof.Proof.Gen.Kernel
import proofs.«152699_j14370960573129_1_alg».proof.Proof.Gen.Kernel.Skeleton
import proofs.«152699_j14370960573129_1_alg».proof.Proof.Gen.Kernel.Launch
import proofs.«152699_j14370960573129_1_alg».proof.Proof.Gen.Kernel.Points
import proofs.«152699_j14370960573129_1_alg».proof.Proof.Gen.Kernel.Frame
import proofs.«152699_j14370960573129_1_alg».proof.Proof.Gen.KernelIdeal
import proofs.«152699_j14370960573129_1_alg».proof.Proof.Gen.KernelIdeal.Skeleton
import proofs.«152699_j14370960573129_1_alg».proof.Proof.Gen.KernelIdeal.Launch
import proofs.«152699_j14370960573129_1_alg».proof.Proof.Gen.KernelIdeal.Points
import proofs.«152699_j14370960573129_1_alg».proof.Proof.Gen.KernelIdeal.Frame
import proofs.«152699_j14370960573129_1_alg».proof.Proof.Gen.ReferenceIdeal
import proofs.«152699_j14370960573129_1_alg».proof.Proof.Gen.Pre_finite_inputs
import proofs.«152699_j14370960573129_1_alg».proof.Proof.KernelTerms
import proofs.«152699_j14370960573129_1_alg».proof.Proof.RefTerms
import proofs.«152699_j14370960573129_1_alg».proof.Proof.RefDefs
import proofs.«152699_j14370960573129_1_alg».proof.Proof.Algebra
import proofs.«152699_j14370960573129_1_alg».proof.Proof.KValue
import proofs.«152699_j14370960573129_1_alg».proof.Proof.RRun
import proofs.«152699_j14370960573129_1_alg».proof.Proof.RefOps
import proofs.«152699_j14370960573129_1_alg».proof.Proof.Pre
import Idealize.ShloMosaic.Adequacy
import Idealize.ShloMosaic.Init

noncomputable section

namespace Cert.Proof

open Idealize.ShloMosaic Idealize.ShloMosaic.TcCoe Idealize.SL.Sem Cert.RelConv

/-! ## The three frames and the (empty) ledger -/

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Hand.run m ρ)

theorem preserves : Cert.preserves_Kernel_KernelIdeal := trivial

/-! ## The two programs compute one function of real inputs -/

/-- The kernel program folds the edge norm into the features before the product with the weight and takes the variance
    from the sums of squares; the reference scales the message afterwards and takes the variance from squared
    deviations. With every float input a real number (the precondition) the intermediate arrays are real, the factor
    moves across the contraction and the two variances agree, so the node outputs are one array; the relation outputs
    are the same product. The gathers and the aggregation are the same host operations in both programs. -/
theorem algebraic : Cert.algebraic_KernelIdeal_ReferenceIdeal := by
  intro m ρ m' ρ' hpre hagree
  refine ⟨_, _, Cert.KernelIdeal.Hand.run m ρ, ?_⟩
  refine (θ_run Cert.ReferenceIdeal.defs _ _).mono (fun r h c => ⟨(h c).1.trans ?_, (h c).2.1.trans ?_, (h c).2.2⟩)
    (Cert.ReferenceIdeal.Hand.run m' ρ')
  · obtain ⟨e0, e1, e2, e3, e4, e5, e6, e7, e8, e9, e10, e11, e12, e13⟩ := hagree c
    obtain ⟨r0, r1, r2, r3, r4, r5, r6, r7, r8, r9, r10⟩ := Cert.Proof.Finite.realArgs_of_pre m hpre c
    rw [e0, e1, e2, e3, e4, e5, e7, e8, e9, e10, e11, e12, e13, Cert.ReferenceIdeal.Hand.refLayer_eq]
    exact (layerScaledFirst_eq_layerScaledLast (Cert.KernelIdeal.Hand.aggOf _)
      (fun u hu => Cert.KernelIdeal.Hand.allReal_aggOf _ hu)
      (Cert.KernelIdeal.Hand.allReal_gxOf r0 _) (Cert.KernelIdeal.Hand.allReal_grOf r1 _) r2 r3 r4 r0 r7 r5 r8).symm
  · obtain ⟨e0, e1, e2, e3, e4, e5, e6, e7, e8, e9, e10, e11, e12, e13⟩ := hagree c
    rw [e1, e6, Cert.ReferenceIdeal.Hand.refRel_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
